-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S64x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg8
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x1600000 32) (main_arg2 : FVec F S1600000 .f32) (main_arg3 : IVec S50000 32) (main_arg4 : FVec F S128x64 .f32) (main_arg5 : FVec F S64 .f32) (main_arg6 : FVec F S64x64 .f32) (main_arg7 : FVec F S64 .f32) (main_arg8 : FVec F S64x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x64 : Shape := ⟨2, ![1, 64]⟩
abbrev S50000x64 : Shape := ⟨2, ![50000, 64]⟩
abbrev S200x128 : Shape := ⟨2, ![200, 128]⟩
abbrev S200x64 : Shape := ⟨2, ![200, 64]⟩
abbrev S1650000x64 : Shape := ⟨2, ![1650000, 64]⟩
abbrev S50000x1 : Shape := ⟨2, ![50000, 1]⟩
abbrev S1x1 : Shape := ⟨2, ![1, 1]⟩
abbrev S512x1 : Shape := ⟨2, ![512, 1]⟩
abbrev S200x1 : Shape := ⟨2, ![200, 1]⟩
abbrev S512x64 : Shape := ⟨2, ![512, 64]⟩
abbrev S200x512 : Shape := ⟨2, ![200, 512]⟩
abbrev S512 : Shape := ⟨1, ![512]⟩

abbrev nBuf : Space → Nat
  | .hbm => 94
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S50000, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S50000, .i32⟩
  | .hbm, ⟨15, _⟩ => ⟨S1650000, .i32⟩
  | .hbm, ⟨16, _⟩ => ⟨S1650000, .i32⟩
  | .hbm, ⟨17, _⟩ => ⟨S_, .f32⟩
  | .hbm, ⟨18, _⟩ => ⟨S50000, .f32⟩
  | .hbm, ⟨19, _⟩ => ⟨S1650000, .f32⟩
  | .hbm, ⟨20, _⟩ => ⟨S_, .f32⟩
  | .hbm, ⟨21, _⟩ => ⟨S50000, .f32⟩
  | .hbm, ⟨22, _⟩ => ⟨S1650000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S1650000, .i32⟩
  | .hbm, ⟨37, _⟩ => ⟨S1650000, .i1⟩
  | .hbm, ⟨38, _⟩ => ⟨S_, .i32⟩
  | .hbm, ⟨39, _⟩ => ⟨S1650000, .i32⟩
  | .hbm, ⟨40, _⟩ => ⟨S1650000, .i32⟩
  | .hbm, ⟨41, _⟩ => ⟨S1650000, .i32⟩
  | .hbm, ⟨42, _⟩ => ⟨S1650000x1, .i32⟩
  | .hbm, ⟨43, _⟩ => ⟨S1650000, .f32⟩
  | .hbm, ⟨44, _⟩ => ⟨S1650000, .f32⟩
  | .hbm, ⟨45, _⟩ => ⟨S_, .i32⟩
  | .hbm, ⟨46, _⟩ => ⟨S1650000, .i32⟩
  | .hbm, ⟨47, _⟩ => ⟨S1650000, .i1⟩
  | .hbm, ⟨48, _⟩ => ⟨S_, .i32⟩
  | .hbm, ⟨49, _⟩ => ⟨S1650000, .i32⟩
  | .hbm, ⟨50, _⟩ => ⟨S1650000, .i32⟩
  | .hbm, ⟨51, _⟩ => ⟨S1650000, .i32⟩
  | .hbm, ⟨52, _⟩ => ⟨S1650000x1, .i32⟩
  | .hbm, ⟨53, _⟩ => ⟨S1650000, .f32⟩
  | .hbm, ⟨54, _⟩ => ⟨S1650000, .f32⟩
  | .hbm, ⟨55, _⟩ => ⟨S1650000x1, .f32⟩
  | .hbm, ⟨56, _⟩ => ⟨S_, .i32⟩
  | .hbm, ⟨57, _⟩ => ⟨S1650000, .i32⟩
  | .hbm, ⟨58, _⟩ => ⟨S1650000, .i1⟩
  | .hbm, ⟨59, _⟩ => ⟨S_, .i32⟩
  | .hbm, ⟨60, _⟩ => ⟨S1650000, .i32⟩
  | .hbm, ⟨61, _⟩ => ⟨S1650000, .i32⟩
  | .hbm, ⟨62, _⟩ => ⟨S1650000, .i32⟩
  | .hbm, ⟨63, _⟩ => ⟨S1650000x1, .i32⟩
  | .hbm, ⟨64, _⟩ => ⟨S1650000x128, .f32⟩
  | .hbm, ⟨65, _⟩ => ⟨S1650000x128, .f32⟩
  | .hbm, ⟨66, _⟩ => ⟨S1650000x128, .f32⟩
  | .hbm, ⟨67, _⟩ => ⟨S_, .f32⟩
  | .hbm, ⟨68, _⟩ => ⟨S50000x128, .f32⟩
  | .hbm, ⟨69, _⟩ => ⟨S1650000x1, .i32⟩
  | .hbm, ⟨70, _⟩ => ⟨S50000x128, .f32⟩
  | .hbm, ⟨71, _⟩ => ⟨S1x64, .f32⟩
  | .hbm, ⟨72, _⟩ => ⟨S50000x64, .f32⟩
  | .hbm, ⟨73, _⟩ => ⟨S1650000x1, .f32⟩
  | .hbm, ⟨74, _⟩ => ⟨S_, .i32⟩
  | .hbm, ⟨75, _⟩ => ⟨S1650000, .i32⟩
  | .hbm, ⟨76, _⟩ => ⟨S1650000, .i1⟩
  | .hbm, ⟨77, _⟩ => ⟨S_, .i32⟩
  | .hbm, ⟨78, _⟩ => ⟨S1650000, .i32⟩
  | .hbm, ⟨79, _⟩ => ⟨S1650000, .i32⟩
  | .hbm, ⟨80, _⟩ => ⟨S1650000, .i32⟩
  | .hbm, ⟨81, _⟩ => ⟨S1650000x1, .i32⟩
  | .hbm, ⟨82, _⟩ => ⟨S1650000x64, .f32⟩
  | .hbm, ⟨83, _⟩ => ⟨S1650000x64, .f32⟩
  | .hbm, ⟨84, _⟩ => ⟨S1650000x64, .f32⟩
  | .hbm, ⟨85, _⟩ => ⟨S_, .f32⟩
  | .hbm, ⟨86, _⟩ => ⟨S50000x64, .f32⟩
  | .hbm, ⟨87, _⟩ => ⟨S1650000x1, .i32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x1, .i32⟩
  | .hbm, ⟨92, _⟩ => ⟨S1x1, .f32⟩
  | .hbm, ⟨93, _⟩ => ⟨S512x1, .f32⟩
  | .local _ .vmem, ⟨0, _⟩ => ⟨S200x128, .f32⟩
  | .local _ .vmem, ⟨1, _⟩ => ⟨S200x128, .f32⟩
  | .local _ .vmem, ⟨2, _⟩ => ⟨S128x64, .f32⟩
  | .local _ .vmem, ⟨3, _⟩ => ⟨S1x64, .f32⟩
  | .local _ .vmem, ⟨4, _⟩ => ⟨S200x64, .f32⟩
  | .local _ .vmem, ⟨5, _⟩ => ⟨S200x64, .f32⟩
  | .local _ .vmem, ⟨6, _⟩ => ⟨S200x64, .f32⟩
  | .local _ .vmem, ⟨7, _⟩ => ⟨S200x64, .f32⟩
  | .local _ .vmem, ⟨8, _⟩ => ⟨S64x64, .f32⟩
  | .local _ .vmem, ⟨9, _⟩ => ⟨S1x64, .f32⟩
  | .local _ .vmem, ⟨10, _⟩ => ⟨S200x64, .f32⟩
  | .local _ .vmem, ⟨11, _⟩ => ⟨S200x64, .f32⟩
  | .local _ .vmem, ⟨12, _⟩ => ⟨S200x64, .f32⟩
  | .local _ .vmem, ⟨13, _⟩ => ⟨S200x64, .f32⟩
  | .local _ .vmem, ⟨14, _⟩ => ⟨S200x1, .i32⟩
  | .local _ .vmem, ⟨15, _⟩ => ⟨S200x1, .i32⟩
  | .local _ .vmem, ⟨16, _⟩ => ⟨S64x1, .f32⟩
  | .local _ .vmem, ⟨17, _⟩ => ⟨S1x1, .f32⟩
  | .local _ .vmem, ⟨18, _⟩ => ⟨S512x1, .f32⟩
  | .local _ .vmem, ⟨19, _⟩ => ⟨S512x64, .f32⟩
  | .local _ .vmem, ⟨20, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_scratch0 : Ref sig .tc := ⟨.vmem, 19, rfl⟩
abbrev cc2_scratch1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![250], ![false]⟩

def k2_cond2 (i : grid2.Coords) : BitVec 1 :=
  let arg0 : BitVec 32 := BitVec.ofNat 32 (i 0).val
  let c249_i32 : BitVec 32 := 249#32
  let v25 : BitVec 1 := Scalar.cmpi .eq arg0 c249_i32
  let v26 : BitVec 32 := Scalar.extui v25
  let c0_i32_13 : BitVec 32 := 0#32
  let v27 : BitVec 1 := Scalar.cmpi .ne v26 c0_i32_13
  v27

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S200x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S64_S1x64 : S64.ShapeCasts S1x64
  inb_S200x128_S200x128_0_0 : ∀ a, (![0, 0] : Fin 2 → Nat) a + S200x128.size a ≤ S200x128.size a
  h_S200x128 : 0 < S200x128.numel
  shapeCasts_S200x128_S200x128 : S200x128.ShapeCasts S200x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S200x64_S200x64_0_0 : ∀ a, (![0, 0] : Fin 2 → Nat) a + S200x64.size a ≤ S200x64.size a
  h_S200x64 : 0 < S200x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S200x64_S200x64 : S200x64.ShapeCasts S200x64
  inb_S64x64_S64x64_0_0 : ∀ a, (![0, 0] : Fin 2 → Nat) a + S64x64.size a ≤ S64x64.size a
  h_S64x64 : 0 < S64x64.numel
  shapeCasts_S50000_S50000x1 : S50000.ShapeCasts S50000x1
  shapeCasts_S1_S1x1 : S1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S200x1_S200x1_0_0 : ∀ a, (![0, 0] : Fin 2 → Nat) a + S200x1.size a ≤ S200x1.size a
  h_S200x1 : 0 < S200x1.numel
  shapeCasts_S200x1_S200x1 : S200x1.ShapeCasts S200x1
  iota_S200x512_d1_w32 : S200x512.Iotas .tc 32 [1]
  broadcasts_S200x1_S200x512 : S200x1.Broadcasts S200x512
  natLt_1_32 : 1 < 32
  reduces_S200x512_S512 : S200x512.Reduces [0] S512
  shapeCasts_S512_S512x1 : S512.ShapeCasts S512x1
  broadcasts_S512x1_S512x64 : S512x1.Broadcasts S512x64
  bitsLt_bf16_f32 : FTy.bits .bf16 < FTy.bits .f32
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S200x128_S128x64_S200x64_1_0_0_1_n_n_wf : DotDims.WF S200x128 S128x64 S200x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S200x64_S64x64_S200x64_1_0_0_1_n_n_wf : DotDims.WF S200x64 S64x64 S200x64 [1] [0] [0] [1] [] []
  dot_S200x512_S200x64_S512x64_0_0_1_1_n_n_wf : DotDims.WF S200x512 S200x64 S512x64 [0] [0] [1] [1] [] []
  dot_S512x64_S64x1_S512x1_1_0_0_1_n_n_wf : DotDims.WF S512x64 S64x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128.size a ≤ S50000x128.size a
  hwx0_0 : ∀ i : grid0.Coords, EltTy.bits .f32 = 32 ∨ (Rect.block (s := S50000x128) S200x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x64.size a ≤ S50000x64.size a
  hwx0_3 : ∀ i : grid0.Coords, EltTy.bits .f32 = 32 ∨ (Rect.block (s := S50000x64) S200x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x64.size a ≤ S50000x64.size a
  hwx1_0 : ∀ i : grid1.Coords, EltTy.bits .f32 = 32 ∨ (Rect.block (s := S50000x64) S200x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x64.size a ≤ S50000x64.size a
  hwx1_3 : ∀ i : grid1.Coords, EltTy.bits .f32 = 32 ∨ (Rect.block (s := S50000x64) S200x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x64.size a ≤ S50000x64.size a
  hwx2_0 : ∀ i : grid2.Coords, EltTy.bits .f32 = 32 ∨ (Rect.block (s := S50000x64) S200x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x1.size a ≤ S50000x1.size a
  hwx2_1 : ∀ i : grid2.Coords, EltTy.bits .i32 = 32 ∨ (Rect.block (s := S50000x1) S200x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x1.size a ≤ S512x1.size a
  hwx2_4 : ∀ i : grid2.Coords, EltTy.bits .f32 = 32 ∨ (Rect.block (s := S512x1) S512x1.size (cc2_transform_4 i) (hinb2_4 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S200x64_S64x64_S200x64_1_0_0_1_n_n : DotDims S200x64 S64x64 S200x64 where
  lhsContracting := [1]
  rhsContracting := [0]
  lhsNonContracting := [0]
  rhsNonContracting := [1]
  lhsBatch := []
  rhsBatch := []
  wf := dot_S200x64_S64x64_S200x64_1_0_0_1_n_n_wf
def dot_S200x512_S200x64_S512x64_0_0_1_1_n_n : DotDims S200x512 S200x64 S512x64 where
  lhsContracting := [0]
  rhsContracting := [0]
  lhsNonContracting := [1]
  rhsNonContracting := [1]
  lhsBatch := []
  rhsBatch := []
  wf := dot_S200x512_S200x64_S512x64_0_0_1_1_n_n_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

abbrev win0_0 : Pipeline.Window sig grid0 :=
  Pipeline.Window.ofSpec (Memref.whole main_v46) S200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S200x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v61) S200x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S200x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S200x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S200x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S512x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S1650000x64 : Shape := ⟨2, ![1650000, 64]⟩
abbrev S1x64 : Shape := ⟨2, ![1, 64]⟩
abbrev S512 : Shape := ⟨1, ![512]⟩
abbrev S50000x1 : Shape := ⟨2, ![50000, 1]⟩
abbrev S512x64 : Shape := ⟨2, ![512, 64]⟩
abbrev S512x1 : Shape := ⟨2, ![512, 1]⟩
abbrev S1x1 : Shape := ⟨2, ![1, 1]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S50000, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S50000, .i32⟩
  | .hbm, ⟨15, _⟩ => ⟨S1650000, .i32⟩
  | .hbm, ⟨16, _⟩ => ⟨S1650000, .i32⟩
  | .hbm, ⟨17, _⟩ => ⟨S_, .f32⟩
  | .hbm, ⟨18, _⟩ => ⟨S50000, .f32⟩
  | .hbm, ⟨19, _⟩ => ⟨S1650000, .f32⟩
  | .hbm, ⟨20, _⟩ => ⟨S_, .f32⟩
  | .hbm, ⟨21, _⟩ => ⟨S50000, .f32⟩
  | .hbm, ⟨22, _⟩ => ⟨S1650000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S1650000, .i32⟩
  | .hbm, ⟨37, _⟩ => ⟨S1650000, .i1⟩
  | .hbm, ⟨38, _⟩ => ⟨S_, .i32⟩
  | .hbm, ⟨39, _⟩ => ⟨S1650000, .i32⟩
  | .hbm, ⟨40, _⟩ => ⟨S1650000, .i32⟩
  | .hbm, ⟨41, _⟩ => ⟨S1650000, .i32⟩
  | .hbm, ⟨42, _⟩ => ⟨S1650000x1, .i32⟩
  | .hbm, ⟨43, _⟩ => ⟨S1650000, .f32⟩
  | .hbm, ⟨44, _⟩ => ⟨S1650000, .f32⟩
  | .hbm, ⟨45, _⟩ => ⟨S_, .i32⟩
  | .hbm, ⟨46, _⟩ => ⟨S1650000, .i32⟩
  | .hbm, ⟨47, _⟩ => ⟨S1650000, .i1⟩
  | .hbm, ⟨48, _⟩ => ⟨S_, .i32⟩
  | .hbm, ⟨49, _⟩ => ⟨S1650000, .i32⟩
  | .hbm, ⟨50, _⟩ => ⟨S1650000, .i32⟩
  | .hbm, ⟨51, _⟩ => ⟨S1650000, .i32⟩
  | .hbm, ⟨52, _⟩ => ⟨S1650000x1, .i32⟩
  | .hbm, ⟨53, _⟩ => ⟨S1650000, .f32⟩
  | .hbm, ⟨54, _⟩ => ⟨S1650000, .f32⟩
  | .hbm, ⟨55, _⟩ => ⟨S50000x64, .f32⟩
  | .hbm, ⟨56, _⟩ => ⟨S1650000x1, .f32⟩
  | .hbm, ⟨57, _⟩ => ⟨S_, .i32⟩
  | .hbm, ⟨58, _⟩ => ⟨S1650000, .i32⟩
  | .hbm, ⟨59, _⟩ => ⟨S1650000, .i1⟩
  | .hbm, ⟨60, _⟩ => ⟨S_, .i32⟩
  | .hbm, ⟨61, _⟩ => ⟨S1650000, .i32⟩
  | .hbm, ⟨62, _⟩ => ⟨S1650000, .i32⟩
  | .hbm, ⟨63, _⟩ => ⟨S1650000, .i32⟩
  | .hbm, ⟨64, _⟩ => ⟨S1650000x1, .i32⟩
  | .hbm, ⟨65, _⟩ => ⟨S1650000x64, .f32⟩
  | .hbm, ⟨66, _⟩ => ⟨S1650000x64, .f32⟩
  | .hbm, ⟨67, _⟩ => ⟨S1650000x64, .f32⟩
  | .hbm, ⟨68, _⟩ => ⟨S_, .f32⟩
  | .hbm, ⟨69, _⟩ => ⟨S50000x64, .f32⟩
  | .hbm, ⟨70, _⟩ => ⟨S1650000x1, .i32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S50000x64, .f32⟩
  | .hbm, ⟨75, _⟩ => ⟨S_, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S1650000x1, .f32⟩
  | .hbm, ⟨80, _⟩ => ⟨S_, .i32⟩
  | .hbm, ⟨81, _⟩ => ⟨S1650000, .i32⟩
  | .hbm, ⟨82, _⟩ => ⟨S1650000, .i1⟩
  | .hbm, ⟨83, _⟩ => ⟨S_, .i32⟩
  | .hbm, ⟨84, _⟩ => ⟨S1650000, .i32⟩
  | .hbm, ⟨85, _⟩ => ⟨S1650000, .i32⟩
  | .hbm, ⟨86, _⟩ => ⟨S1650000, .i32⟩
  | .hbm, ⟨87, _⟩ => ⟨S1650000x1, .i32⟩
  | .hbm, ⟨88, _⟩ => ⟨S1650000x64, .f32⟩
  | .hbm, ⟨89, _⟩ => ⟨S1650000x64, .f32⟩
  | .hbm, ⟨90, _⟩ => ⟨S1650000x64, .f32⟩
  | .hbm, ⟨91, _⟩ => ⟨S_, .f32⟩
  | .hbm, ⟨92, _⟩ => ⟨S50000x64, .f32⟩
  | .hbm, ⟨93, _⟩ => ⟨S1650000x1, .i32⟩
  | .hbm, ⟨94, _⟩ => ⟨S50000x64, .f32⟩
  | .hbm, ⟨95, _⟩ => ⟨S1x64, .f32⟩
  | .hbm, ⟨96, _⟩ => ⟨S50000x64, .f32⟩
  | .hbm, ⟨97, _⟩ => ⟨S50000x64, .f32⟩
  | .hbm, ⟨98, _⟩ => ⟨S_, .f32⟩
  | .hbm, ⟨99, _⟩ => ⟨S50000, .f32⟩
  | .hbm, ⟨100, _⟩ => ⟨S_, .f32⟩
  | .hbm, ⟨101, _⟩ => ⟨S512, .f32⟩
  | .hbm, ⟨102, _⟩ => ⟨S50000x1, .i32⟩
  | .hbm, ⟨103, _⟩ => ⟨S512, .f32⟩
  | .hbm, ⟨104, _⟩ => ⟨S_, .f32⟩
  | .hbm, ⟨105, _⟩ => ⟨S512x64, .f32⟩
  | .hbm, ⟨106, _⟩ => ⟨S50000x1, .i32⟩
  | .hbm, ⟨107, _⟩ => ⟨S512x64, .f32⟩
  | .hbm, ⟨108, _⟩ => ⟨S_, .f32⟩
  | .hbm, ⟨109, _⟩ => ⟨S512, .f32⟩
  | .hbm, ⟨110, _⟩ => ⟨S512, .f32⟩
  | .hbm, ⟨111, _⟩ => ⟨S512x1, .f32⟩
  | .hbm, ⟨112, _⟩ => ⟨S512x64, .f32⟩
  | .hbm, ⟨113, _⟩ => ⟨S512x64, .f32⟩
  | .hbm, ⟨114, _⟩ => ⟨S512x1, .f32⟩
  | .hbm, ⟨115, _⟩ => ⟨S1x1, .f32⟩
  | .hbm, ⟨116, _⟩ => ⟨S512x1, .f32⟩
  | .hbm, ⟨117, _⟩ => ⟨S512x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_13 : Ref sig .tc := ⟨.hbm, 98, rfl⟩
abbrev main_v69 : Ref sig .tc := ⟨.hbm, 99, rfl⟩
abbrev main_cst_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_15 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512 : S_.BroadcastsInDim S512 (![] : Fin 0 → Fin S512.rank)
  bcast_S50000_S50000x1_0 : S50000.BroadcastsInDim S50000x1 (![0] : Fin 1 → Fin S50000x1.rank)
  bcast_S_S512x64 : S_.BroadcastsInDim S512x64 (![] : Fin 0 → Fin S512x64.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x64_S50000x64_1_0_0_1_n_n_wf : DotDims.WF S50000x64 S64x64 S50000x64 [1] [0] [0] [1] [] []
  scatter_S512_S50000x1_S50000_n_0_0_1_wf : ScatterDims.WF S512 S50000x1 S50000 [] [0] [0] 1
  scatter_S512x64_S50000x1_S50000x64_1_0_0_1_wf : ScatterDims.WF S512x64 S50000x1 S50000x64 [1] [0] [0] 1
  dot_S512x64_S64x1_S512x1_1_0_0_1_n_n_wf : DotDims.WF S512x64 S64x1 S512x1 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S512x64_S64x1_S512x1_1_0_0_1_n_n : DotDims S512x64 S64x1 S512x1 where
  lhsContracting := [1]
  rhsContracting := [0]
  lhsNonContracting := [0]
  rhsNonContracting := [1]
  lhsBatch := []
  rhsBatch := []
  wf := dot_S512x64_S64x1_S512x1_1_0_0_1_n_n_wf

class Facts : Prop extends Facts₀ where

variable [Facts]
-- ==== Proof.K.Reg0.lean ====
/-
  Region 0 of the kernel program (the dense step: a block of 200 aggregated rows times the weight matrix, plus the
  bias row, clipped below at zero), at ANY contents `V` of the core's buffers when the region is entered.
  Each point of the grid of 250 reads rows [200 t, 200 t + 200) of the aggregated array, the whole weight matrix and the
  whole bias row, and writes rows [200 t, 200 t + 200) of the result: one store covering the whole output block, so the
  block after the body is a function of the three input blocks alone. No scratch is carried between points.
-/
import proofs.«428672_j24747601559656_4_alg».proof.Proof.Gen.Kernel.Launch
import proofs.«428672_j24747601559656_4_alg».proof.Proof.Gen.Kernel.Skeleton
import proofs.«428672_j24747601559656_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole output block as one rectangle. -/
abbrev r0o : Rect S200x64 := Rect.unit (s := S200x64) ![0, 0] S200x64.size inb_S200x64_S200x64_0_0

/-- The whole input blocks as rectangles. -/
abbrev r0i0 : Rect S200x128 := Rect.unit (s := S200x128) ![0, 0] S200x128.size inb_S200x128_S200x128_0_0
abbrev r0i1 : Rect S128x64 := Rect.unit (s := S128x64) ![0, 0] S128x64.size inb_S128x64_S128x64_0_0
abbrev r0i2 : Rect S1x64 := Rect.unit (s := S1x64) ![0, 0] S1x64.size inb_S1x64_S1x64_0_0

/-- The output block after the body: the body's one store, whose value is a function of the three input blocks. -/
def out0_3 (x0 : Vec F S200x128 .f32) (x1 : Vec F S128x64 .f32) (x2 : Vec F S1x64 .f32) : Vec F S200x64 .f32 :=
  View.canon [⟨r0o, k0_pay1 (View.ld x0 r0i0) (View.ld x1 r0i1) (View.ld x2 r0i2)⟩]

/-- That one store covers the block. -/
theorem cover0_3 (p0 : Vec F S200x64 .f32) (y : S200x64.Idx) :
    ∃ pc ∈ ([⟨r0o, p0⟩] : List (View.Piece (Elt F) S200x64 .f32)), y ∈ pc.1.set :=
  View.cover_of_tiled [⟨r0o, p0⟩] S200x64.size (by rfl) y

set_option maxHeartbeats 1000000 in
/-- The body on whole staging buffers: the inputs at contents `x0 x1 x2`, the output at anything; it ends with the
    inputs unchanged and the output at `out0_3 x0 x1 x2`. -/
theorem sound_kernel0 (c : Dev nD) (E : Set ℕ) (i : grid0.Coords)
    (arg1 : Memref sig .tc .vmem S200x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S200x64 .f32) (harg4 : arg4.IsWhole)
    (x0 : Vec F S200x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_apply_kernel i arg1 harg1 arg2 harg2 arg3 harg3 arg4 harg4) K := by
  simp only [cc0__dense_apply_kernel_eq_skeleton (F := F)]; unfold cc0__dense_apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 (F := F) _)

/-- The proof data of this region's pipeline on core `c`: the arrays as the region finds them; after the body at point
    `t` each input's buffer still at its block and the output's at `out0_3` of the three input blocks; the invariant is
    the scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's rule, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of the kernel program (the dense step: a block of 200 aggregated rows times the weight matrix, plus the
  bias row), at ANY contents `V` of the core's buffers when the region is entered.
  Each point of the grid of 250 reads rows [200 t, 200 t + 200) of the aggregated array, the whole weight matrix and the
  whole bias row, and writes rows [200 t, 200 t + 200) of the result: one store covering the whole output block, so the
  block after the body is a function of the three input blocks alone. No scratch is carried between points.
-/
import proofs.«428672_j24747601559656_4_alg».proof.Proof.Gen.Kernel.Launch
import proofs.«428672_j24747601559656_4_alg».proof.Proof.Gen.Kernel.Skeleton
import proofs.«428672_j24747601559656_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole output block as one rectangle. -/
abbrev r1o : Rect S200x64 := Rect.unit (s := S200x64) ![0, 0] S200x64.size inb_S200x64_S200x64_0_0

/-- The whole input blocks as rectangles. -/
abbrev r1i0 : Rect S200x64 := Rect.unit (s := S200x64) ![0, 0] S200x64.size inb_S200x64_S200x64_0_0
abbrev r1i1 : Rect S64x64 := Rect.unit (s := S64x64) ![0, 0] S64x64.size inb_S64x64_S64x64_0_0
abbrev r1i2 : Rect S1x64 := Rect.unit (s := S1x64) ![0, 0] S1x64.size inb_S1x64_S1x64_0_0

/-- The output block after the body: the body's one store, whose value is a function of the three input blocks. -/
def out1_3 (x0 : Vec F S200x64 .f32) (x1 : Vec F S64x64 .f32) (x2 : Vec F S1x64 .f32) : Vec F S200x64 .f32 :=
  View.canon [⟨r1o, k1_pay1 (View.ld x0 r1i0) (View.ld x1 r1i1) (View.ld x2 r1i2)⟩]

/-- That one store covers the block. -/
theorem cover1_3 (p0 : Vec F S200x64 .f32) (y : S200x64.Idx) :
    ∃ pc ∈ ([⟨r1o, p0⟩] : List (View.Piece (Elt F) S200x64 .f32)), y ∈ pc.1.set :=
  View.cover_of_tiled [⟨r1o, p0⟩] S200x64.size (by rfl) y

set_option maxHeartbeats 1000000 in
/-- The body on whole staging buffers: the inputs at contents `x0 x1 x2`, the output at anything; it ends with the
    inputs unchanged and the output at `out1_3 x0 x1 x2`. -/
theorem sound_kernel1 (c : Dev nD) (E : Set ℕ) (i : grid1.Coords)
    (arg1 : Memref sig .tc .vmem S200x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S200x64 .f32) (harg4 : arg4.IsWhole)
    (x0 : Vec F S200x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_apply_kernel i arg1 harg1 arg2 harg2 arg3 harg3 arg4 harg4) K := by
  simp only [cc1__dense_apply_kernel_eq_skeleton (F := F)]; unfold cc1__dense_apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 (F := F) _)

/-- The proof data of this region's pipeline on core `c`: the arrays as the region finds them; after the body at point
    `t` each input's buffer still at its block and the output's at `out1_3` of the three input blocks; the invariant is
    the scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's rule, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of the kernel program (the pooling head: per-graph sums of node features and per-graph node counts,
  accumulated over a grid of 250 points in two scratch buffers the kernel carries between points, and at the last point
  the mean, the linear read-out and the bias written to the output block), at ANY contents `V` of the core's buffers
  when the region is entered.
  At the first point the kernel zeroes both accumulators; at every point it adds the block's contribution to each; at
  the last point it reads both accumulators, the weight column and the bias and stores the output block. The output
  window is idle at every point but the last, where alone it is written back. The invariant between points holds the
  two accumulators at the fold of the points so far.
-/
import proofs.«428672_j24747601559656_4_alg».proof.Proof.Gen.Kernel.Launch
import proofs.«428672_j24747601559656_4_alg».proof.Proof.Gen.Kernel.Skeleton
import proofs.«428672_j24747601559656_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form -/

/-- The condition of the body's first conditional (the grid coordinate is zero), as the kernel computes it. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)
/-- The condition of the body's second conditional (the grid coordinate is 249). -/
abbrev cond2_1 (i : grid2.Coords) : Prop := k2_cond2 i = 1#1
/-- It holds at the last point only. -/
theorem hcond2_1 : ∀ t : Fin cfg2.N, cond2_1 (grid2.coords t) ↔ t.val = 249 :=
  (by decide +kernel : ∀ t : Fin grid2.N, cond2_1 (grid2.coords t) ↔ t.val = 249)

/-- Where the second condition fails the output window is idle, -/
theorem idleAt2_4 (i : grid2.Coords) (h : ¬cond2_1 i) : cfg2.idle 4 i = true := by
  show (!(k2_cond2 i == 1#1)) = true
  simp only [Bool.not_eq_true', beq_eq_false_iff_ne, ne_eq]; exact h
/-- and where it holds the window is live. -/
theorem liveAt2_4 (i : grid2.Coords) (h : cond2_1 i) : cfg2.idle 4 i = false := by
  show (!(k2_cond2 i == 1#1)) = false
  simp only [Bool.not_eq_false', beq_iff_eq]; exact h
/-- Off the last point the output block is not written back. -/
theorem noFlush2_4 (t : Fin cfg2.N) (h : t.val ≠ 249) : (cfg2.win 4).flush t = false := by
  have hN : t.val < 250 := lt_of_lt_of_eq t.isLt (show cfg2.N = 250 from N_2)
  have := flush2_4 t
  cases hf : (cfg2.win 4).flush t
  · rfl
  · exact absurd (this.mp hf) (by omega)

/-! ## The whole rectangles, and what one whole store leaves -/

/-- The two accumulators and the output block as whole rectangles, -/
abbrev r2s0 : Rect S512x64 := Rect.unit (s := S512x64) ![0, 0] S512x64.size inb_S512x64_S512x64_0_0
abbrev r2s1 : Rect S512x1 := Rect.unit (s := S512x1) ![0, 0] S512x1.size inb_S512x1_S512x1_0_0
/-- and the four input blocks. -/
abbrev r2i0 : Rect S200x64 := Rect.unit (s := S200x64) ![0, 0] S200x64.size inb_S200x64_S200x64_0_0
abbrev r2i1 : Rect S200x1 := Rect.unit (s := S200x1) ![0, 0] S200x1.size inb_S200x1_S200x1_0_0
abbrev r2i2 : Rect S64x1 := Rect.unit (s := S64x1) ![0, 0] S64x1.size inb_S64x1_S64x1_0_0
abbrev r2i3 : Rect S1x1 := Rect.unit (s := S1x1) ![0, 0] S1x1.size inb_S1x1_S1x1_0_0

/-- A load through a rectangle of what the stores `L` left reads the canonical contents there. -/
theorem readCov_toLoadRect_eq_ld {sig' : RefSig} {κ : Kind} {sp : Space} {s : Shape} {e : EltTy} {Val : EltTy → Type} [∀ e, Nonempty (Val e)]
    (v : View sig' κ sp s e) (L : List (View.Piece Val s e)) (r : Rect s) :
    v.readCov L r.toLoadRect = View.ld (View.canon L) r :=
  View.readCov_eq_canon' v L r.toLoadRect

/-- A last store through a rectangle that holds every index leaves its payload alone, whatever the earlier stores. -/
theorem canon_cons_whole {s : Shape} {e : EltTy} {Val : EltTy → Type} [∀ e, Nonempty (Val e)]
    (r : Rect s) (hr : ∀ y, y ∈ r.set) (w : r.shape.Idx → Val e) (L : List (View.Piece Val s e)) :
    View.canon (⟨r, w⟩ :: L) = View.canon [⟨r, w⟩] := by
  funext y
  obtain ⟨x, rfl⟩ := r.exists_idx_of_mem (hr y)
  rw [show r.idx x = r.emb x from rfl, View.canon_cons_emb, View.canon_cons_emb]

/-- So a buffer whose last store went through such a rectangle reads as that one store's canonical contents. -/
theorem read_writes_cons_whole {sig' : RefSig} {κ : Kind} {sp : Space} {s : Shape} {e : EltTy} {Val : EltTy → Type} [∀ e, Nonempty (Val e)]
    (v : View sig' κ sp s e) (f : v.ty.Contents Val) (r : Rect s) (hr : ∀ y, y ∈ r.set) (w : r.shape.Idx → Val e)
    (L : List (View.Piece Val s e)) :
    v.read Val (v.writes Val f (⟨r, w⟩ :: L)) = View.canon [⟨r, w⟩] :=
  (View.read_writes_eq_canon v f _ (fun y => ⟨_, List.mem_cons_self, hr y⟩)).trans (canon_cons_whole r hr w L)

/-- The whole rectangles hold every index. -/
theorem mem_r2s0 (y : S512x64.Idx) : y ∈ r2s0.set := by
  obtain ⟨pc, hpc, hy⟩ := View.cover_of_tiled ([⟨r2s0, fun _ => ()⟩] : List (View.Piece (fun _ => Unit) S512x64 .f32)) S512x64.size (by rfl) y
  rw [List.mem_singleton.mp hpc] at hy; exact hy
theorem mem_r2s1 (y : S512x1.Idx) : y ∈ r2s1.set := by
  obtain ⟨pc, hpc, hy⟩ := View.cover_of_tiled ([⟨r2s1, fun _ => ()⟩] : List (View.Piece (fun _ => Unit) S512x1 .f32)) S512x1.size (by rfl) y
  rw [List.mem_singleton.mp hpc] at hy; exact hy

/-! ## What the body's stores leave -/

/-- The accumulators after the first point's zeroing stores: the feature sums, -/
def acc2_init0 : Vec F S512x64 .f32 := View.canon [⟨r2s0, k2_pay1 (F := F)⟩]
/-- and the node counts. -/
def acc2_init1 : Vec F S512x1 .f32 := View.canon [⟨r2s1, k2_pay2 (F := F)⟩]

/-- The feature sums after a point's accumulating store, from the point's feature block `x0`, its graph ids `x1` and the
    sums `s0` the store found. -/
def acc2_step0 (x0 : Vec F S200x64 .f32) (x1 : Vec F S200x1 .i32) (s0 : Vec F S512x64 .f32) : Vec F S512x64 .f32 :=
  View.canon [⟨r2s0, k2_pay4 (View.ld x0 r2i0) (View.ld x1 r2i1) (View.ld s0 r2s0)⟩]
/-- The node counts after a point's accumulating store, from the point's graph ids `x1` and the counts `s1` it found. -/
def acc2_step1 (x1 : Vec F S200x1 .i32) (s1 : Vec F S512x1 .f32) : Vec F S512x1 .f32 :=
  View.canon [⟨r2s1, k2_pay5 (View.ld x1 r2i1) (View.ld s1 r2s1)⟩]

/-- The output block after the body at the last point, from the two accumulators and the two small input blocks. -/
def out2_4 (s0 : Vec F S512x64 .f32) (s1 : Vec F S512x1 .f32) (x2 : Vec F S64x1 .f32) (x3 : Vec F S1x1 .f32) : Vec F S512x1 .f32 :=
  View.canon [⟨r2s1, k2_pay6 (View.ld s0 r2s0) (View.ld s1 r2s1) (View.ld x2 r2i2) (View.ld x3 r2i3)⟩]

/-- A load through the whole-shape rectangle at zero offsets reads the contents, -/
theorem ld_whole_zero {S : Shape} {e : EltTy} {Val : EltTy → Type} {off : Fin S.rank → Nat} (h : off = fun _ => 0)
    (inb : ∀ a, off a + S.size a ≤ S.size a) (X : S.Idx → Val e) : View.ld X (Rect.unit off S.size inb) = X := by
  subst h; funext x; show X ((Rect.whole S).emb x) = X x; rw [Rect.emb_whole_apply]
/-- and one store through it leaves its payload. -/
theorem canon_whole_zero {S : Shape} {e : EltTy} {Val : EltTy → Type} [∀ e, Nonempty (Val e)] {off : Fin S.rank → Nat} (h : off = fun _ => 0)
    (inb : ∀ a, off a + S.size a ≤ S.size a) (w : S.Idx → Val e) :
    View.canon [(⟨Rect.unit off S.size inb, w⟩ : View.Piece Val S e)] = w := by
  subst h; funext y
  have e := View.canon_cons_emb (Val := Val) (Rect.whole S) w [] y
  rw [Rect.emb_whole_apply] at e
  exact e

theorem off2_zero : (![0, 0] : Fin 2 → ℕ) = fun _ => 0 := by funext a; fin_cases a <;> rfl

/-- So the stores' contents are the payloads themselves, of the contents loaded. -/
theorem acc2_init0_eq : acc2_init0 (F := F) = k2_pay1 := canon_whole_zero off2_zero _ _
theorem acc2_init1_eq : acc2_init1 (F := F) = k2_pay2 := canon_whole_zero off2_zero _ _
theorem acc2_step0_eq (x0 : Vec F S200x64 .f32) (x1 : Vec F S200x1 .i32) (s0 : Vec F S512x64 .f32) :
    acc2_step0 x0 x1 s0 = k2_pay4 x0 x1 s0 := by
  unfold acc2_step0
  rw [ld_whole_zero off2_zero, ld_whole_zero off2_zero, ld_whole_zero off2_zero]
  exact canon_whole_zero off2_zero _ _
theorem acc2_step1_eq (x1 : Vec F S200x1 .i32) (s1 : Vec F S512x1 .f32) : acc2_step1 x1 s1 = k2_pay5 x1 s1 := by
  unfold acc2_step1
  rw [ld_whole_zero off2_zero, ld_whole_zero off2_zero]
  exact canon_whole_zero off2_zero _ _
theorem out2_4_eq (s0 : Vec F S512x64 .f32) (s1 : Vec F S512x1 .f32) (x2 : Vec F S64x1 .f32) (x3 : Vec F S1x1 .f32) :
    out2_4 s0 s1 x2 x3 = k2_pay6 s0 s1 x2 x3 := by
  unfold out2_4
  rw [ld_whole_zero off2_zero, ld_whole_zero off2_zero, ld_whole_zero off2_zero, ld_whole_zero off2_zero]
  exact canon_whole_zero off2_zero _ _

/-- THE FOLD. The two scratch accumulators (the per-graph feature sums, 512x64, and the per-graph node counts, 512x1) after the
    body at grid point `n`: the point's accumulating stores over the zeroed accumulators at the first point, over what the
    point before left afterwards. -/
def accAt2 (c : Dev nD) : (n : ℕ) → n < cfg2.N → Vec F S512x64 .f32 × Vec F S512x1 .f32
  | 0, hn => (acc2_step0 (iblk2 V c 0 ⟨0, hn⟩) (iblk2 V c 1 ⟨0, hn⟩) acc2_init0, acc2_step1 (iblk2 V c 1 ⟨0, hn⟩) acc2_init1)
  | n + 1, hn => (acc2_step0 (iblk2 V c 0 ⟨n + 1, hn⟩) (iblk2 V c 1 ⟨n + 1, hn⟩) (accAt2 c n (Nat.lt_of_succ_lt hn)).1,
      acc2_step1 (iblk2 V c 1 ⟨n + 1, hn⟩) (accAt2 c n (Nat.lt_of_succ_lt hn)).2)

theorem accAt2_zero (c : Dev nD) (hn : 0 < cfg2.N) :
    accAt2 V c 0 hn = (acc2_step0 (iblk2 V c 0 ⟨0, hn⟩) (iblk2 V c 1 ⟨0, hn⟩) acc2_init0, acc2_step1 (iblk2 V c 1 ⟨0, hn⟩) acc2_init1) := rfl
theorem accAt2_succ (c : Dev nD) (n : ℕ) (hn : n + 1 < cfg2.N) :
    accAt2 V c (n + 1) hn = (acc2_step0 (iblk2 V c 0 ⟨n + 1, hn⟩) (iblk2 V c 1 ⟨n + 1, hn⟩) (accAt2 V c n (Nat.lt_of_succ_lt hn)).1,
      acc2_step1 (iblk2 V c 1 ⟨n + 1, hn⟩) (accAt2 V c n (Nat.lt_of_succ_lt hn)).2) := rfl

/-- The fold at the first point, -/
theorem accAt2_first (c : Dev nD) (t : Fin cfg2.N) (h : t.val = 0) :
    accAt2 V c t.val t.isLt = (acc2_step0 (iblk2 V c 0 t) (iblk2 V c 1 t) acc2_init0, acc2_step1 (iblk2 V c 1 t) acc2_init1) := by
  obtain ⟨n, hn⟩ := t
  cases n with
  | zero => rfl
  | succ n => exact absurd h (Nat.succ_ne_zero n)
/-- and at a later one. -/
theorem accAt2_pos (c : Dev nD) (t : Fin cfg2.N) (h : t.val ≠ 0) :
    accAt2 V c t.val t.isLt = (acc2_step0 (iblk2 V c 0 t) (iblk2 V c 1 t) (accAt2 V c (t.val - 1) (Nat.lt_of_le_of_lt (Nat.sub_le _ _) t.isLt)).1,
      acc2_step1 (iblk2 V c 1 t) (accAt2 V c (t.val - 1) (Nat.lt_of_le_of_lt (Nat.sub_le _ _) t.isLt)).2) := by
  obtain ⟨n, hn⟩ := t
  cases n with
  | zero => exact absurd rfl h
  | succ n => rfl

/-! ## The kernel on whole buffers, case by case -/

set_option maxHeartbeats 1000000 in
/-- The body at the first point (the first conditional taken, the second not): the two accumulators at anything; it ends
    with the two input blocks it reads unchanged and the accumulators at the first step of the fold. -/
theorem sound_kernel2_first (c : Dev nD) (E : Set ℕ) (i : grid2.Coords) (hc0 : cond2_0 i) (hc1 : ¬cond2_1 i)
    (arg1 : Memref sig .tc .vmem S200x64 .f32) (harg1 : arg1.IsWhole) (arg2 : Memref sig .tc .vmem S200x1 .i32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S512x1 .f32) (harg5 : arg5.IsWhole) (arg6 : Memref sig .tc .vmem S512x64 .f32) (harg6 : arg6.IsWhole)
    (arg7 : Memref sig .tc .vmem S512x1 .f32) (harg7 : arg7.IsWhole)
    (x0 : Vec F S200x64 .f32) (x1 : Vec F S200x1 .i32) (K : PUnit → sProp 𝕄) :
    iprop(owns (c : Thread nD τ) arg1 fullShare x0 ∗ owns (c : Thread nD τ) arg2 fullShare x1
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg6 fullShare (acc2_step0 x0 x1 acc2_init0) ∗ owns (c : Thread nD τ) arg7 fullShare (acc2_step1 x1 acc2_init1)) -∗ K ⟨⟩))
      ⊢ wp frame (wpE (defs₀ (F := F)) Variants.none c none) E (cc2__pool_head_kernel i arg1 harg1 arg2 harg2 arg3 harg3 arg4 harg4 arg5 harg5 arg6 harg6 arg7 harg7) K := by
  simp only [cc2__pool_head_kernel_eq_skeleton (F := F)]; unfold cc2__pool_head_kernel_skel
  unfold owns
  iintro ⟨⟨%f0, %hf0, H0⟩, ⟨%f1, %hf1, H1⟩, ⟨%d6, %f6, -, H6⟩, ⟨%d7, %f7, -, H7⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    sl_unfold_run_names
    rw [readCov_toLoadRect_eq_ld]
    exact read_writes_cons_whole _ _ _ mem_r2s0 _ _
  iexists _; isplitr
  swap; · iexact H7
  ipureintro
  sl_unfold_run_names
  rw [readCov_toLoadRect_eq_ld]
  exact read_writes_cons_whole _ _ _ mem_r2s1 _ _

set_option maxHeartbeats 1000000 in
/-- The body at a middle point (neither conditional taken): the accumulators at `s0`, `s1`; it ends with the two input
    blocks it reads unchanged and the accumulators one step of the fold further. -/
theorem sound_kernel2_mid (c : Dev nD) (E : Set ℕ) (i : grid2.Coords) (hc0 : ¬cond2_0 i) (hc1 : ¬cond2_1 i)
    (arg1 : Memref sig .tc .vmem S200x64 .f32) (harg1 : arg1.IsWhole) (arg2 : Memref sig .tc .vmem S200x1 .i32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S512x1 .f32) (harg5 : arg5.IsWhole) (arg6 : Memref sig .tc .vmem S512x64 .f32) (harg6 : arg6.IsWhole)
    (arg7 : Memref sig .tc .vmem S512x1 .f32) (harg7 : arg7.IsWhole)
    (x0 : Vec F S200x64 .f32) (x1 : Vec F S200x1 .i32) (s0 : Vec F S512x64 .f32) (s1 : Vec F S512x1 .f32) (K : PUnit → sProp 𝕄) :
    iprop(owns (c : Thread nD τ) arg1 fullShare x0 ∗ owns (c : Thread nD τ) arg2 fullShare x1
        ∗ owns (c : Thread nD τ) arg6 fullShare s0 ∗ owns (c : Thread nD τ) arg7 fullShare s1
        ∗ (iprop(owns (c : Thread nD τ) arg1 fullShare x0 ∗ owns (c : Thread nD τ) arg2 fullShare x1
            ∗ owns (c : Thread nD τ) arg6 fullShare (acc2_step0 x0 x1 s0) ∗ owns (c : Thread nD τ) arg7 fullShare (acc2_step1 x1 s1)) -∗ K ⟨⟩))
      ⊢ wp frame (wpE (defs₀ (F := F)) Variants.none c none) E (cc2__pool_head_kernel i arg1 harg1 arg2 harg2 arg3 harg3 arg4 harg4 arg5 harg5 arg6 harg6 arg7 harg7) K := by
  simp only [cc2__pool_head_kernel_eq_skeleton (F := F)]; unfold cc2__pool_head_kernel_skel
  unfold owns
  iintro ⟨⟨%f0, %hf0, H0⟩, ⟨%f1, %hf1, H1⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    exact read_writes_cons_whole _ _ _ mem_r2s0 _ _
  iexists _; isplitr
  swap; · iexact H7
  ipureintro
  exact read_writes_cons_whole _ _ _ mem_r2s1 _ _

set_option maxHeartbeats 1000000 in
/-- The body at the last point (the first conditional not taken, the second taken): the accumulators at `s0`, `s1`, the
    output block at anything; it ends with the four input blocks unchanged, the accumulators one step of the fold further
    and the output block at `out2_4` of those and the two small inputs. -/
theorem sound_kernel2_last (c : Dev nD) (E : Set ℕ) (i : grid2.Coords) (hc0 : ¬cond2_0 i) (hc1 : cond2_1 i)
    (arg1 : Memref sig .tc .vmem S200x64 .f32) (harg1 : arg1.IsWhole) (arg2 : Memref sig .tc .vmem S200x1 .i32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S512x1 .f32) (harg5 : arg5.IsWhole) (arg6 : Memref sig .tc .vmem S512x64 .f32) (harg6 : arg6.IsWhole)
    (arg7 : Memref sig .tc .vmem S512x1 .f32) (harg7 : arg7.IsWhole)
    (x0 : Vec F S200x64 .f32) (x1 : Vec F S200x1 .i32) (x2 : Vec F S64x1 .f32) (x3 : Vec F S1x1 .f32)
    (s0 : Vec F S512x64 .f32) (s1 : Vec F S512x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 (acc2_step0 x0 x1 s0) (acc2_step1 x1 s1) x2 x3)
            ∗ owns (c : Thread nD τ) arg6 fullShare (acc2_step0 x0 x1 s0) ∗ owns (c : Thread nD τ) arg7 fullShare (acc2_step1 x1 s1)) -∗ K ⟨⟩))
      ⊢ wp frame (wpE (defs₀ (F := F)) Variants.none c none) E (cc2__pool_head_kernel i arg1 harg1 arg2 harg2 arg3 harg3 arg4 harg4 arg5 harg5 arg6 harg6 arg7 harg7) K := by
  simp only [cc2__pool_head_kernel_eq_skeleton (F := F)]; unfold cc2__pool_head_kernel_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_run_names
    rw [readCov_toLoadRect_eq_ld, readCov_toLoadRect_eq_ld]
    exact read_writes_cons_whole _ _ _ mem_r2s1 _ _
  isplitl [H6]
  · iexists _; isplitr
    swap; · iexact H6
    ipureintro
    exact read_writes_cons_whole _ _ _ mem_r2s0 _ _
  iexists _; isplitr
  swap; · iexact H7
  ipureintro
  exact read_writes_cons_whole _ _ _ mem_r2s1 _ _

/-! ## The invariant between points -/

/-- The two scratch operands: whole scoped buffers of the kernel's own, passed beside the windows. -/
abbrev scM2_0 : Memref sig .tc .vmem S512x64 .f32 := Memref.whole cc2_scratch0
abbrev scM2_1 : Memref sig .tc .vmem S512x1 .f32 := Memref.whole cc2_scratch1

/-- What the invariant holds beside the two accumulators: every other scoped buffer that is no staging buffer of this
    region, each at some contents, and the generator register at some state. -/
def rest2 (c : Dev nD) : sProp 𝕄 :=
  iprop(Pipeline.scopedRestBut (Ix := Unit) (Name := ℕ) (U := UR sig nD τ) (Lvl := ℕ) (Val := Elt F) spec2 c [cc2_scratch0, cc2_scratch1]
    ∗ ∃ r, prngReg c r)

/-- The scoped rest split at the two accumulators: their points-tos, then every other buffer unopened. -/
theorem scopedRest2_split (c : Dev nD) :
    (Pipeline.scopedRest (Ix := Unit) (Name := ℕ) (U := UR sig nD τ) (Lvl := ℕ) (Val := Elt F) spec2 c : sProp 𝕄)
      = iprop(((∃ f : Buf (Elt F) ((c : Thread nD τ).loc cc2_scratch0), ((c : Thread nD τ).loc cc2_scratch0) ↦{fullShare} f)
          ∗ (∃ f : Buf (Elt F) ((c : Thread nD τ).loc cc2_scratch1), ((c : Thread nD τ).loc cc2_scratch1) ↦{fullShare} f))
        ∗ Pipeline.scopedRestBut (Ix := Unit) (Name := ℕ) (U := UR sig nD τ) (Lvl := ℕ) (Val := Elt F) spec2 c [cc2_scratch0, cc2_scratch1]) :=
  Pipeline.scopedRest_split_of_list spec2 c [cc2_scratch0, cc2_scratch1] (by decide) (by decide)

/-- The class invariant hands out the two accumulators at some contents each, -/
theorem PhiA2_split (c : Dev nD) :
    (Pipeline.ΦA spec2 c : sProp 𝕄)
      ⊢ iprop((∃ d, owns (c : Thread nD τ) scM2_0 fullShare d) ∗ (∃ d, owns (c : Thread nD τ) scM2_1 fullShare d) ∗ rest2 (F := F) c) := by
  unfold Pipeline.ΦA rest2
  rw [scopedRest2_split]
  simp only [scM2_0, scM2_1, owns_whole]
  iintro ⟨⟨⟨⟨%f0, H0⟩, ⟨%f1, H1⟩⟩, Hb⟩, Hg⟩
  isplitl [H0]; · iexists f0; iexact H0
  isplitl [H1]; · iexists f1; iexact H1
  isplitl [Hb]; · iexact Hb
  iexact Hg

/-- and takes them back at any. -/
theorem PhiA2_join (c : Dev nD) :
    iprop((∃ d, owns (c : Thread nD τ) scM2_0 fullShare d) ∗ (∃ d, owns (c : Thread nD τ) scM2_1 fullShare d) ∗ rest2 (F := F) c)
      ⊢ (Pipeline.ΦA spec2 c : sProp 𝕄) := by
  unfold Pipeline.ΦA rest2
  rw [scopedRest2_split]
  simp only [scM2_0, scM2_1, owns_whole]
  iintro ⟨⟨%f0, H0⟩, ⟨%f1, H1⟩, Hb, Hg⟩
  isplitr [Hg]
  · isplitr [Hb]
    · isplitl [H0]; · iexists f0; iexact H0
      iexists f1; iexact H1
    iexact Hb
  iexact Hg

/-- The invariant before position `n`: before the first point the class's (every scratch at anything); afterwards the two
    accumulators at what the point before left in them (the fold), and the rest. -/
def PhiS2 (c : Dev nD) : (n : ℕ) → n ≤ cfg2.N → sProp 𝕄
  | 0, _ => Pipeline.ΦA spec2 c
  | n + 1, hn => iprop(owns (c : Thread nD τ) scM2_0 fullShare (accAt2 V c n hn).1
      ∗ owns (c : Thread nD τ) scM2_1 fullShare (accAt2 V c n hn).2 ∗ rest2 c)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2_0 fullShare (accAt2 V c n hn).1
      ∗ owns (c : Thread nD τ) scM2_1 fullShare (accAt2 V c n hn).2 ∗ rest2 c) := rfl

theorem PhiS2_pos (c : Dev nD) (n : ℕ) (h : n ≤ cfg2.N) (hz : n ≠ 0) :
    PhiS2 V c n h = iprop(owns (c : Thread nD τ) scM2_0 fullShare (accAt2 V c (n - 1) (by omega)).1
      ∗ owns (c : Thread nD τ) scM2_1 fullShare (accAt2 V c (n - 1) (by omega)).2 ∗ rest2 c) := by
  cases n with
  | zero => exact absurd rfl hz
  | succ n => rfl

/-! ## The pipeline's proof data -/

/-- The proof data of this region's pipeline on core `c`: the arrays as the region finds them; after the body at point
    `t` each input's buffer still at its block and the output's at `out2_4` of the fold there and the two small inputs
    (consulted at the last point only: elsewhere the window is idle); the invariant tracks the two accumulators
    (`PhiS2`); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (accAt2 V c t.val t.isLt).1 (accAt2 V c t.val t.isLt).2 (iblk2 V c 2 t) (iblk2 V c 3 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem share2 (c : Dev nD) (w : Fin cfg2.W) : (dat2 V c).share w = fullShare :=
  (dat2 V c).share_full (fun _ => rfl) w
theorem owed2 (c : Dev nD) (t) : (dat2 V c).owed t = 0 := rfl
theorem recorded2 (c : Dev nD) (t) : (dat2 V c).recorded t = Set.univ := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (accAt2 V c t.val t.isLt).1 (accAt2 V c t.val t.isLt).2 (iblk2 V c 2 t) (iblk2 V c 3 t) := by
  dsimp only [dat2]
/-- The output block the last point leaves, which alone is written back. -/
theorem after2_4_last (c : Dev nD) (h : 249 < cfg2.N) :
    (dat2 V c).after 4 ⟨249, h⟩ = out2_4 (accAt2 V c 249 h).1 (accAt2 V c 249 h).2 (iblk2 V c 2 ⟨249, h⟩) (iblk2 V c 3 ⟨249, h⟩) :=
  after2_4 V c ⟨249, h⟩

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- The invariant at a point's start, restated at the point's number. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns: the output window's buffer as found where the window is idle. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) :
    (dat2 V c).leavesExact 0 t = owns (c : Thread nD τ) (st2_0 t) fullShare (iblk2 V c 0 t) := by
  rw [← after2_0]
theorem leaves2_1 (c : Dev nD) (t : Fin cfg2.N) :
    (dat2 V c).leavesExact 1 t = owns (c : Thread nD τ) (st2_1 t) fullShare (iblk2 V c 1 t) := by
  rw [← after2_1]
theorem leaves2_2 (c : Dev nD) (t : Fin cfg2.N) :
    (dat2 V c).leavesExact 2 t = owns (c : Thread nD τ) (st2_2 t) fullShare (iblk2 V c 2 t) := by
  rw [← after2_2]
theorem leaves2_3 (c : Dev nD) (t : Fin cfg2.N) :
    (dat2 V c).leavesExact 3 t = owns (c : Thread nD τ) (st2_3 t) fullShare (iblk2 V c 3 t) := by
  rw [← after2_3]
theorem leaves2_4_idle (c : Dev nD) (t : Fin cfg2.N) (h : t.val ≠ 249) :
    (dat2 V c).leavesExact 4 t = iprop(∃ d, owns (c : Thread nD τ) (st2_4 t) fullShare ((dat2 V c).before 4 t d)) :=
  Dat.leavesExact_idle (dat2 V c) 4 t (idleAt2_4 _ (fun hc => h ((hcond2_1 t).mp hc))) (noFlush2_4 t h)
theorem leaves2_4_last (c : Dev nD) (t : Fin cfg2.N) (h : t.val = 249) :
    (dat2 V c).leavesExact 4 t = owns (c : Thread nD τ) (st2_4 t) fullShare
      (out2_4 (accAt2 V c t.val t.isLt).1 (accAt2 V c t.val t.isLt).2 (iblk2 V c 2 t) (iblk2 V c 3 t)) := by
  rw [← after2_4]; unfold Dat.leavesExact; rw [liveAt2_4 _ ((hcond2_1 t).mpr h)]

set_option maxHeartbeats 2000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, PhiS2_castSucc]
  have hN : t.val < 250 := lt_of_lt_of_eq t.isLt (show cfg2.N = 250 from N_2)
  by_cases h0 : t.val = 0
  · have h1 : t.val ≠ 249 := by omega
    rw [leaves2_4_idle V c t h1, accAt2_first V c t h0, PhiS2_zero V c _ _ h0]
    iintro ⟨HΦ, Ho, ⟨%d0, H0⟩, ⟨%d1, H1⟩, ⟨%d2, H2⟩, ⟨%d3, H3⟩, ⟨%d4, H4⟩⟩
    ihave HΦ' := (PhiA2_split (F := F) c) $$ HΦ
    icases HΦ' with ⟨HS0, HS1, Hr⟩
    iapply (sound_kernel2_first c Set.univ (grid2.coords t) ((hcond2_0 t).mpr h0) (fun hc => h1 ((hcond2_1 t).mp hc))
      _ _ _ _ _ _ _ _ _ _ _ _ _ _ (iblk2 V c 0 t) (iblk2 V c 1 t) _)
    isplitl [H0]; · iexact H0
    isplitl [H1]; · iexact H1
    isplitl [HS0]; · iexact HS0
    isplitl [HS1]; · iexact HS1
    iintro ⟨H0, H1, HS0, HS1⟩
    isplitl [HS0 HS1 Hr]
    · isplitl [HS0]; · iexact HS0
      isplitl [HS1]; · iexact HS1
      iexact Hr
    isplitl [Ho]; · iexact Ho
    isplitl [H0]; · iexact H0
    isplitl [H1]; · iexact H1
    isplitl [H2]; · iexact H2
    isplitl [H3]; · iexact H3
    iexists d4; iexact H4
  · by_cases h1 : t.val = 249
    · rw [leaves2_4_last V c t h1, accAt2_pos V c t h0, PhiS2_pos V c _ _ h0]
      iintro ⟨⟨HS0, HS1, Hr⟩, Ho, ⟨%d0, H0⟩, ⟨%d1, H1⟩, ⟨%d2, H2⟩, ⟨%d3, H3⟩, ⟨%d4, H4⟩⟩
      iapply (sound_kernel2_last c Set.univ (grid2.coords t) (fun hc => h0 ((hcond2_0 t).mp hc)) ((hcond2_1 t).mpr h1)
        _ _ _ _ _ _ _ _ _ _ _ _ _ _ (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      iexact H4
    · rw [leaves2_4_idle V c t h1, accAt2_pos V c t h0, PhiS2_pos V c _ _ h0]
      iintro ⟨⟨HS0, HS1, Hr⟩, Ho, ⟨%d0, H0⟩, ⟨%d1, H1⟩, ⟨%d2, H2⟩, ⟨%d3, H3⟩, ⟨%d4, H4⟩⟩
      iapply (sound_kernel2_mid c Set.univ (grid2.coords t) (fun hc => h0 ((hcond2_0 t).mp hc)) (fun hc => h1 ((hcond2_1 t).mp hc))
        _ _ _ _ _ _ _ _ _ _ _ _ _ _ (iblk2 V c 0 t) (iblk2 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      iexists d4; iexact H4

/-- The body obligation of the pipeline's rule, at every point. -/
theorem body_obligation2 (c : Dev nD) : BodyObligation (dat2 (F := F) V c) (defs₀ (F := F)) Variants.none () Set.univ := fun t => by
  rw [bigSep_W2, bigSep_W2]
  exact sound_body2 V c t

/-! ## Into the invariant and out of it -/

/-- What the launch hands the region is the invariant before the first point. -/
theorem hin2 (c : Dev nD) : Pipeline.ΦA spec2 c ⊢ (dat2 (F := F) V c).Φ 0 := by
  rw [show (dat2 V c).Φ 0 = PhiS2 V c 0 (Nat.zero_le _) from rfl, PhiS2_zero V c 0 _ rfl]

/-- After the last point the invariant gives the class's back: the accumulators' contents are forgotten. -/
theorem hout2 (c : Dev nD) : (dat2 (F := F) V c).Φ (Fin.last cfg2.N) ⊢ Pipeline.ΦA spec2 c := by
  have hN : cfg2.N = 250 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega)]
  iintro ⟨HS0, HS1, Hr⟩
  iapply (PhiA2_join (F := F) c)
  isplitl [HS0]; · iexists _; iexact HS0
  isplitl [HS1]; · iexists _; iexact HS1
  iexact Hr

end Cert.Kernel.Hand

end
-- ==== Proof.K.Run.lean ====
/-
  The run of the whole kernel program: @main is five stretches of host operations and three kernel regions, in the
  order stretch, stretch, stretch, region 0, stretch, region 1, stretch, region 2. The contents of the TensorCore's
  buffers at every boundary between two items are written as a fold from the launch memory: a host stretch takes the
  contents to what its operations leave, a kernel region leaves each of its windows' arrays at what its write-backs
  leave and every other buffer as it found it. Every region's proof data are taken at the contents its region is
  entered from. The launch theorem for a program of several regions then gives: every weakly fair execution
  terminates, and in every final state each unscoped buffer of the TensorCore holds the last boundary's contents.
  Read at an argument array, whose buffer no stretch writes and no region changes, that is the frame claim; read at
  the last region's output array it is what that region's pipeline leaves there.
-/
import proofs.«428672_j24747601559656_4_alg».proof.Proof.Gen.Kernel.Launch
import proofs.«428672_j24747601559656_4_alg».proof.Proof.Gen.Kernel.Skeleton
import proofs.«428672_j24747601559656_4_alg».proof.Proof.Gen.Kernel.Points
import proofs.«428672_j24747601559656_4_alg».proof.Proof.Gen.Kernel.Regions
import proofs.«428672_j24747601559656_4_alg».proof.Proof.K.Reg0
import proofs.«428672_j24747601559656_4_alg».proof.Proof.K.Reg1
import proofs.«428672_j24747601559656_4_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary: a fold through @main -/

/-- Core `c`'s buffers at launch. -/
abbrev W0 (c : Dev nD) : Valuation τ sig (Elt F) := fun b => m (c, b)
/-- After the first stretch, -/
abbrev W1 (c : Dev nD) : Valuation τ sig (Elt F) := StableHlo.after hostOps0 (W0 m c)
/-- the second, -/
abbrev W2 (c : Dev nD) : Valuation τ sig (Elt F) := StableHlo.after hostOps0_1 (W1 m c)
/-- and the third: region 0 is entered from these contents. -/
abbrev W3 (c : Dev nD) : Valuation τ sig (Elt F) := StableHlo.after hostOps0_2 (W2 m c)
/-- The same read at the TensorCore's references (what region 0's proof data take). -/
abbrev V3r : (c : Dev nD) → (b : Ref sig .tc) → Buf (Elt F) ((c : Thread nD τ).loc b) := fun c b => W3 m c b
/-- At region 0's exit: its windows' arrays at what the pipeline leaves (an input as entered, the output with its
    write-backs folded in), every other buffer as entered. -/
def W4 (c : Dev nD) : Valuation τ sig (Elt F) :=
  Pipeline.withArrays spec0 c (W3 m c) fun w => (dat0 (V3r m) c).arrAt w cfg0.N
/-- After the fourth stretch: region 1 is entered from these contents. -/
abbrev W5 (c : Dev nD) : Valuation τ sig (Elt F) := StableHlo.after hostOps1 (W4 m c)
abbrev V5r : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (V5r m) c).arrAt w cfg1.N
/-- After the fifth stretch: region 2 is entered from these contents. -/
abbrev W7 (c : Dev nD) : Valuation τ sig (Elt F) := StableHlo.after hostOps2 (W6 m c)
abbrev V7r : (c : Dev nD) → (b : Ref sig .tc) → Buf (Elt F) ((c : Thread nD τ).loc b) := fun c b => W7 m c b
/-- At region 2's exit: the contents @main returns with. -/
def W8 (c : Dev nD) : Valuation τ sig (Elt F) :=
  Pipeline.withArrays spec2 c (W7 m c) fun w => (dat2 (V7r m) c).arrAt w cfg2.N

theorem W4_arr (c : Dev nD) (w : Fin cfg0.W) :
    W4 m c (Proc.devRef .tc (Pipeline.arrRef spec0 w)) = (dat0 (V3r m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W6_arr (c : Dev nD) (w : Fin cfg1.W) :
    W6 m c (Proc.devRef .tc (Pipeline.arrRef spec1 w)) = (dat1 (V5r m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W8_arr (c : Dev nD) (w : Fin cfg2.W) :
    W8 m c (Proc.devRef .tc (Pipeline.arrRef spec2 w)) = (dat2 (V7r m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb

/-- The exit contents read at the TensorCore's references. -/
abbrev V4r : (c : Dev nD) → (b : Ref sig .tc) → Buf (Elt F) ((c : Thread nD τ).loc b) := fun c b => W4 m c b
abbrev V6r : (c : Dev nD) → (b : Ref sig .tc) → Buf (Elt F) ((c : Thread nD τ).loc b) := fun c b => W6 m c b
abbrev V8r : (c : Dev nD) → (b : Ref sig .tc) → Buf (Elt F) ((c : Thread nD τ).loc b) := fun c b => W8 m c b

/-- At a region's exit each of its arrays holds what the pipeline leaves, and every other buffer what it held at entry. -/
theorem hF0 (c : Dev nD) (w : Fin cfg0.W) : (dat0 (V3r m) c).arrAt w cfg0.N = V4r m c (Pipeline.arrRef spec0 w) :=
  (W4_arr m c w).symm
theorem hrest0 (c : Dev nD) : ∀ b, b ∉ Finset.univ.image (Pipeline.arrRef spec0) → V4r m c b = V3r m c b :=
  fun b hb => W4_of_ne m c b fun w e => hb (Finset.mem_image.mpr ⟨w, Finset.mem_univ _, e⟩)
theorem hF1 (c : Dev nD) (w : Fin cfg1.W) : (dat1 (V5r m) c).arrAt w cfg1.N = V6r m c (Pipeline.arrRef spec1 w) :=
  (W6_arr m c w).symm
theorem hrest1 (c : Dev nD) : ∀ b, b ∉ Finset.univ.image (Pipeline.arrRef spec1) → V6r m c b = V5r m c b :=
  fun b hb => W6_of_ne m c b fun w e => hb (Finset.mem_image.mpr ⟨w, Finset.mem_univ _, e⟩)
theorem hF2 (c : Dev nD) (w : Fin cfg2.W) : (dat2 (V7r m) c).arrAt w cfg2.N = V8r m c (Pipeline.arrRef spec2 w) :=
  (W8_arr m c w).symm
theorem hrest2 (c : Dev nD) : ∀ b, b ∉ Finset.univ.image (Pipeline.arrRef spec2) → V8r m c b = V7r m c b :=
  fun b hb => W8_of_ne m c b fun w e => hb (Finset.mem_image.mpr ⟨w, Finset.mem_univ _, e⟩)

/-! ## What each item leaves unchanged -/

/-- A host stretch leaves a reference it does not write at the contents before it. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W5_of (c : Dev nD) (r : Ref sig .tc) (h : r ∉ hostOps1_W) : W5 m c (Proc.devRef .tc r) = W4 m c (Proc.devRef .tc r) :=
  StableHlo.after_of_writes_sub hostOps1 _ hostOps1_writes h
theorem W7_of (c : Dev nD) (r : Ref sig .tc) (h : r ∉ hostOps2_W) : W7 m c (Proc.devRef .tc r) = W6 m c (Proc.devRef .tc r) :=
  StableHlo.after_of_writes_sub hostOps2 _ hostOps2_writes h

/-- A region leaves the array of an input window at the contents it was entered from. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (V3r m) c).arrAt_in w hin _).trans (A_eq0 (V3r m) c w))
theorem W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (V5r m) c).arrAt_in w hin _).trans (A_eq1 (V5r m) c w))
theorem W8_in (c : Dev nD) (w : Fin cfg2.W) (hin : (cfg2.win w).isOut = false) :
    W8 m c (Proc.devRef .tc (Pipeline.arrRef spec2 w)) = W7 m c (Proc.devRef .tc (Pipeline.arrRef spec2 w)) :=
  (W8_arr m c w).trans (((dat2 (V7r m) c).arrAt_in w hin _).trans (A_eq2 (V7r m) c w))

/-- The three stretches before region 0 leave a reference none of them writes at its launch contents. -/
theorem W3_launch (c : Dev nD) (r : Ref sig .tc) (h0 : r ∉ hostOps0_W) (h1 : r ∉ hostOps0_1_W) (h2 : r ∉ hostOps0_2_W) :
    W3 m c (Proc.devRef .tc r) = m ((c : Thread nD τ).loc r) :=
  (W3_of m c r h2).trans ((W2_of m c r h1).trans ((W1_of m c r h0).trans rfl))

/-- A reference that no stretch writes and that is the array of no region's window ends as launched. -/
theorem W8_launch (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r)
    (h6 : r ∉ hostOps2_W) (h7 : ∀ w, Pipeline.arrRef spec2 w ≠ r) :
    W8 m c (Proc.devRef .tc r) = m ((c : Thread nD τ).loc r) :=
  (W8_of_ne m c r h7).trans <| (W7_of m c r h6).trans <| (W6_of_ne m c r h5).trans <| (W5_of m c r h4).trans <|
    (W4_of_ne m c r h3).trans <| W3_launch m c r h0 h1 h2

/-! ## The arguments end as launched

No stretch writes an argument's buffer. Seven of the ten are the array of no window; `main_arg4`, `main_arg6` and
`main_arg8` are each the array of an input window of one region (regions 0, 1 and 2 in turn), which leaves it as entered. -/

theorem W8_main_arg0 (c : Dev nD) : W8 m c (Proc.devRef .tc main_arg0) = m ((c : Thread nD τ).loc main_arg0) :=
  W8_launch m c main_arg0 (by decide) (by decide) (by decide) (by decide) (by decide) (by decide) (by decide) (by decide)
theorem W8_main_arg1 (c : Dev nD) : W8 m c (Proc.devRef .tc main_arg1) = m ((c : Thread nD τ).loc main_arg1) :=
  W8_launch m c main_arg1 (by decide) (by decide) (by decide) (by decide) (by decide) (by decide) (by decide) (by decide)
theorem W8_main_arg2 (c : Dev nD) : W8 m c (Proc.devRef .tc main_arg2) = m ((c : Thread nD τ).loc main_arg2) :=
  W8_launch m c main_arg2 (by decide) (by decide) (by decide) (by decide) (by decide) (by decide) (by decide) (by decide)
theorem W8_main_arg3 (c : Dev nD) : W8 m c (Proc.devRef .tc main_arg3) = m ((c : Thread nD τ).loc main_arg3) :=
  W8_launch m c main_arg3 (by decide) (by decide) (by decide) (by decide) (by decide) (by decide) (by decide) (by decide)
/-- `main_arg4` is the array of region 0's window 1, an input. -/
theorem W8_main_arg4 (c : Dev nD) : W8 m c (Proc.devRef .tc main_arg4) = m ((c : Thread nD τ).loc main_arg4) :=
  (W8_of_ne m c main_arg4 (by decide)).trans <| (W7_of m c main_arg4 (by decide)).trans <|
    (W6_of_ne m c main_arg4 (by decide)).trans <| (W5_of m c main_arg4 (by decide)).trans <|
    (W4_in m c 1 rfl).trans <| W3_launch m c main_arg4 (by decide) (by decide) (by decide)
theorem W8_main_arg5 (c : Dev nD) : W8 m c (Proc.devRef .tc main_arg5) = m ((c : Thread nD τ).loc main_arg5) :=
  W8_launch m c main_arg5 (by decide) (by decide) (by decide) (by decide) (by decide) (by decide) (by decide) (by decide)
/-- `main_arg6` is the array of region 1's window 1, an input. -/
theorem W8_main_arg6 (c : Dev nD) : W8 m c (Proc.devRef .tc main_arg6) = m ((c : Thread nD τ).loc main_arg6) :=
  (W8_of_ne m c main_arg6 (by decide)).trans <| (W7_of m c main_arg6 (by decide)).trans <|
    (W6_in m c 1 rfl).trans <| (W5_of m c main_arg6 (by decide)).trans <|
    (W4_of_ne m c main_arg6 (by decide)).trans <| W3_launch m c main_arg6 (by decide) (by decide) (by decide)
theorem W8_main_arg7 (c : Dev nD) : W8 m c (Proc.devRef .tc main_arg7) = m ((c : Thread nD τ).loc main_arg7) :=
  W8_launch m c main_arg7 (by decide) (by decide) (by decide) (by decide) (by decide) (by decide) (by decide) (by decide)
/-- `main_arg8` is the array of region 2's window 2, an input. -/
theorem W8_main_arg8 (c : Dev nD) : W8 m c (Proc.devRef .tc main_arg8) = m ((c : Thread nD τ).loc main_arg8) :=
  (W8_in m c 2 rfl).trans <| (W7_of m c main_arg8 (by decide)).trans <|
    (W6_of_ne m c main_arg8 (by decide)).trans <| (W5_of m c main_arg8 (by decide)).trans <|
    (W4_of_ne m c main_arg8 (by decide)).trans <| W3_launch m c main_arg8 (by decide) (by decide) (by decide)
theorem W8_main_arg9 (c : Dev nD) : W8 m c (Proc.devRef .tc main_arg9) = m ((c : Thread nD τ).loc main_arg9) :=
  W8_launch m c main_arg9 (by decide) (by decide) (by decide) (by decide) (by decide) (by decide) (by decide) (by decide)

/-! ## The regions' output arrays at the boundaries -/

/-- Region 0's output array at its exit: what the pipeline's write-backs leave. -/
theorem W4_main_v48 (c : Dev nD) : W4 m c (Proc.devRef .tc main_v48) = (dat0 (V3r m) c).arrAt 3 cfg0.N := W4_arr m c 3
/-- Region 1's output array at its exit. -/
theorem W6_main_v63 (c : Dev nD) : W6 m c (Proc.devRef .tc main_v63) = (dat1 (V5r m) c).arrAt 3 cfg1.N := W6_arr m c 3
/-- Region 2's output array at its exit, which is where @main returns. -/
theorem W8_main_v66 (c : Dev nD) : W8 m c (Proc.devRef .tc main_v66) = (dat2 (V7r m) c).arrAt 4 cfg2.N := W8_arr m c 4

/-! ## The proof data family and the thread state -/

/-- Every pipeline's proof data, each at the contents its region is entered from: a literal `match`, so that the
    family at a numeral reduces to the region's own data. -/
def pdats : (p : Fin 3) → (c : Dev nD) → Dat τ (Elt F) Unit ℕ (UR sig nD τ) ℕ (Pipeline.pin (pcfgs (F := F)) adm p) c
  | ⟨0, _⟩ => fun c => dat0 (V3r m) c
  | ⟨1, _⟩ => fun c => dat1 (V5r m) c
  | ⟨2, _⟩ => fun c => dat2 (V7r m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the record of what the core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at `StableHlo.after ops (W c)`, which is the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of what is owed: every unscoped buffer at the last boundary's contents,
    the generator register at some state. -/
abbrev Tₙ (c : Dev nD) : sProp 𝕄 := iprop(StableHlo.held (c : Thread nD τ) (Pipeline.ucRefs τ sig) (W8 m c) ∗ ∃ r, prngReg c r)

/-! ## The regions as segments

Each region is entered from every unscoped buffer at its entry contents and left with them at its exit contents. Its
windows' arrays are split out of the unscoped buffers on the way in and put back, at what the pipeline leaves, on the
way out; the generator register goes into the region's invariant and comes back; nothing is owed; the kernel has no
semaphore of its own. -/

set_option backward.isDefEq.respectTransparency.types false in
/-- REGION 0: from `W3` to `W4`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3r m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3r m c) (V4r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: from `W5` to `W6`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5r m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5r m c) (V6r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2: from `W7` to `W8`, where @main returns. Its invariant also tracks the kernel's two scratch accumulators; it is
    entered from, and gives back, the scoped buffers no window stages at some contents and the generator register
    (`hin2`, `hout2`). -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7r m) c).loose
  hwaits := Pipeline.hwaits_of_owed_zero _ _ _ _ L lv 2 fun c t => owed2 (V7r m) c t
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7r m c)
  hentry c := by
    rw [Pipeline.ownSems0_none]
    have hsplit := Pipeline.arrays_of_unscopedBufs (p := 2) (pcfgs (F := F)) adm (pdats m) launch2.win launch2.arr_whole c
      (share2 (V7r m) c) (V7r m c) (A_eq2 (V7r m) c)
    rw [Pipeline.unscopedBufs_held] at hsplit
    have ho : (pdats m 2 c).owed 0 = 0 := owed2 (V7r m) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr
      · ipureintro; exact fun x _ => Or.inl ((recorded2 (V7r m) c 0).symm ▸ Set.mem_univ x)
      iexact HO
    isplitl [Hp]; · iexact Hp
    iexact Hrest
  hin c := by
    refine (show _ ⊢ (Pipeline.ΦA spec2 c : sProp 𝕄) from ?_).trans (hin2 (V7r m) c)
    unfold Pipeline.ΦA
    iintro ⟨Hp, -, Hr⟩
    isplitl [Hr]; · iexact Hr
    iexact Hp
  hout c := by
    rw [Pipeline.ownSems0_none]
    refine (hout2 (V7r m) c).trans (show (Pipeline.ΦA spec2 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) (share2 (V7r m) c)
      (V7r m c) (V8r m c) ((pdats m 2 c).arrAt · cfg2.N) (hF2 m c) (hrest2 m c)
    rw [Pipeline.unscopedBufs_held] at hjoin
    have ho : (pdats m 2 c).owed (Fin.last (Pipeline.pin (pcfgs (F := F)) adm 2).N) = 0 := owed2 (V7r m) c _
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [ho]
    icases HO with ⟨%W, -, HO⟩; iexists W; iexact HO

/-! ## @main as segments, and the launch -/

/-- @main's eight items in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]

/-- The segments' fragments of @main are the items of @main's chain. -/
theorem segs_prog : (segs m).map Pipeline.Seg.prog = [
    StableHlo.seq hostOps0,
    StableHlo.seq hostOps0_1,
    StableHlo.seq hostOps0_2,
    Prog.lift (.customCall (Pipeline.entry 0) ()),
    StableHlo.seq hostOps1,
    Prog.lift (.customCall (Pipeline.entry 1) ()),
    StableHlo.seq hostOps2,
    Prog.lift (.customCall (Pipeline.entry 2) ()) ] := rfl

/-- @main IS the run of the segments. -/
theorem main_run (c : Dev nD) : main (F := F) c = Pipeline.Seg.run (segs m) := by
  rw [main_chain c, Pipeline.Seg.run_eq_chain, segs_prog]

set_option backward.isDefEq.respectTransparency.types false in
/-- THE RUN. From any memory `m` with every semaphore counter at zero and any generator registers, every weakly fair
    execution of @main on the TensorCores terminates, nothing faulting, and in every final state each unscoped buffer of
    each TensorCore holds the last boundary's contents `W8`: the launch theorem over the eight segments, whose thread states
    chain by name, the last one read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- THE FRAME: from any memory with zero counters, every weakly fair execution of @main terminates and every final
    state has the ten argument arrays as launched. Each is an unscoped buffer, read off `run_all` at the last boundary's
    contents, where it holds its launch contents (`W8_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c),
     (h c _ (mem_uc main_arg9 (by decide))).trans (W8_main_arg9 m c)⟩) (run_all m ρ)

/-- The run read at the last region's output array: in every final state `main_v66` holds what region 2's pipeline
    leaves there, its write-backs folded over the contents the region was entered from. -/
theorem run_main_v66 : θ_run defs (onTc (τ := τ) (main (F := F))) ⟨m, fun _ => 0, ρ⟩ (fun r => ∀ c : Dev nD,
      r.2.mem ((c.tc : Thread nD τ).loc main_v66) = (dat2 (V7r m) c).arrAt 4 cfg2.N) :=
  (θ_run _ _ _).mono (fun r h c => (h c _ (mem_uc main_v66 (by decide))).trans (W8_main_v66 m c)) (run_all m ρ)

end Cert.Kernel.Hand

end
-- ==== Proof.KI.Reg0.lean ====
/-
  Region 0 of the kernel program (the dense step: a block of 200 aggregated rows times the weight matrix, plus the
  bias row, clipped below at zero), at ANY contents `V` of the core's buffers when the region is entered.
  Each point of the grid of 250 reads rows [200 t, 200 t + 200) of the aggregated array, the whole weight matrix and the
  whole bias row, and writes rows [200 t, 200 t + 200) of the result: one store covering the whole output block, so the
  block after the body is a function of the three input blocks alone. No scratch is carried between points.
-/
import proofs.«428672_j24747601559656_4_alg».proof.Proof.Gen.KernelIdeal.Launch
import proofs.«428672_j24747601559656_4_alg».proof.Proof.Gen.KernelIdeal.Skeleton
import proofs.«428672_j24747601559656_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole output block as one rectangle. -/
abbrev r0o : Rect S200x64 := Rect.unit (s := S200x64) ![0, 0] S200x64.size inb_S200x64_S200x64_0_0

/-- The whole input blocks as rectangles. -/
abbrev r0i0 : Rect S200x128 := Rect.unit (s := S200x128) ![0, 0] S200x128.size inb_S200x128_S200x128_0_0
abbrev r0i1 : Rect S128x64 := Rect.unit (s := S128x64) ![0, 0] S128x64.size inb_S128x64_S128x64_0_0
abbrev r0i2 : Rect S1x64 := Rect.unit (s := S1x64) ![0, 0] S1x64.size inb_S1x64_S1x64_0_0

/-- The output block after the body: the body's one store, whose value is a function of the three input blocks. -/
def out0_3 (x0 : Vec F S200x128 .f32) (x1 : Vec F S128x64 .f32) (x2 : Vec F S1x64 .f32) : Vec F S200x64 .f32 :=
  View.canon [⟨r0o, k0_pay1 (View.ld x0 r0i0) (View.ld x1 r0i1) (View.ld x2 r0i2)⟩]

/-- That one store covers the block. -/
theorem cover0_3 (p0 : Vec F S200x64 .f32) (y : S200x64.Idx) :
    ∃ pc ∈ ([⟨r0o, p0⟩] : List (View.Piece (Elt F) S200x64 .f32)), y ∈ pc.1.set :=
  View.cover_of_tiled [⟨r0o, p0⟩] S200x64.size (by rfl) y

set_option maxHeartbeats 1000000 in
/-- The body on whole staging buffers: the inputs at contents `x0 x1 x2`, the output at anything; it ends with the
    inputs unchanged and the output at `out0_3 x0 x1 x2`. -/
theorem sound_kernel0 (c : Dev nD) (E : Set ℕ) (i : grid0.Coords)
    (arg1 : Memref sig .tc .vmem S200x128 .f32) (harg1 : arg1.IsWhole) (arg2 : Memref sig .tc .vmem S128x64 .f32) (harg2 : arg2.IsWhole)
    (arg3 : Memref sig .tc .vmem S1x64 .f32) (harg3 : arg3.IsWhole) (arg4 : Memref sig .tc .vmem S200x64 .f32) (harg4 : arg4.IsWhole)
    (x0 : Vec F S200x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_apply_kernel i arg1 harg1 arg2 harg2 arg3 harg3 arg4 harg4) K := by
  simp only [cc0__dense_apply_kernel_eq_skeleton (F := F)]; unfold cc0__dense_apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 (F := F) _)

/-- The proof data of this region's pipeline on core `c`: the arrays as the region finds them; after the body at point
    `t` each input's buffer still at its block and the output's at `out0_3` of the three input blocks; the invariant is
    the scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's rule, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the kernel program (the dense step: a block of 200 aggregated rows times the weight matrix, plus the
  bias row), at ANY contents `V` of the core's buffers when the region is entered.
  Each point of the grid of 250 reads rows [200 t, 200 t + 200) of the aggregated array, the whole weight matrix and the
  whole bias row, and writes rows [200 t, 200 t + 200) of the result: one store covering the whole output block, so the
  block after the body is a function of the three input blocks alone. No scratch is carried between points.
-/
import proofs.«428672_j24747601559656_4_alg».proof.Proof.Gen.KernelIdeal.Launch
import proofs.«428672_j24747601559656_4_alg».proof.Proof.Gen.KernelIdeal.Skeleton
import proofs.«428672_j24747601559656_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole output block as one rectangle. -/
abbrev r1o : Rect S200x64 := Rect.unit (s := S200x64) ![0, 0] S200x64.size inb_S200x64_S200x64_0_0

/-- The whole input blocks as rectangles. -/
abbrev r1i0 : Rect S200x64 := Rect.unit (s := S200x64) ![0, 0] S200x64.size inb_S200x64_S200x64_0_0
abbrev r1i1 : Rect S64x64 := Rect.unit (s := S64x64) ![0, 0] S64x64.size inb_S64x64_S64x64_0_0
abbrev r1i2 : Rect S1x64 := Rect.unit (s := S1x64) ![0, 0] S1x64.size inb_S1x64_S1x64_0_0

/-- The output block after the body: the body's one store, whose value is a function of the three input blocks. -/
def out1_3 (x0 : Vec F S200x64 .f32) (x1 : Vec F S64x64 .f32) (x2 : Vec F S1x64 .f32) : Vec F S200x64 .f32 :=
  View.canon [⟨r1o, k1_pay1 (View.ld x0 r1i0) (View.ld x1 r1i1) (View.ld x2 r1i2)⟩]

/-- That one store covers the block. -/
theorem cover1_3 (p0 : Vec F S200x64 .f32) (y : S200x64.Idx) :
    ∃ pc ∈ ([⟨r1o, p0⟩] : List (View.Piece (Elt F) S200x64 .f32)), y ∈ pc.1.set :=
  View.cover_of_tiled [⟨r1o, p0⟩] S200x64.size (by rfl) y

set_option maxHeartbeats 1000000 in
/-- The body on whole staging buffers: the inputs at contents `x0 x1 x2`, the output at anything; it ends with the
    inputs unchanged and the output at `out1_3 x0 x1 x2`. -/
theorem sound_kernel1 (c : Dev nD) (E : Set ℕ) (i : grid1.Coords)
    (arg1 : Memref sig .tc .vmem S200x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S200x64 .f32) (harg4 : arg4.IsWhole)
    (x0 : Vec F S200x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__dense_apply_kernel i arg1 harg1 arg2 harg2 arg3 harg3 arg4 harg4) K := by
  simp only [cc1__dense_apply_kernel_eq_skeleton (F := F)]; unfold cc1__dense_apply_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 (F := F) _)

/-- The proof data of this region's pipeline on core `c`: the arrays as the region finds them; after the body at point
    `t` each input's buffer still at its block and the output's at `out1_3` of the three input blocks; the invariant is
    the scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline's rule, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of the kernel program (the pooling head: per-graph sums of node features and per-graph node counts,
  accumulated over a grid of 250 points in two scratch buffers the kernel carries between points, and at the last point
  the mean, the linear read-out and the bias written to the output block), at ANY contents `V` of the core's buffers
  when the region is entered.
  At the first point the kernel zeroes both accumulators; at every point it adds the block's contribution to each; at
  the last point it reads both accumulators, the weight column and the bias and stores the output block. The output
  window is idle at every point but the last, where alone it is written back. The invariant between points holds the
  two accumulators at the fold of the points so far.
-/
import proofs.«428672_j24747601559656_4_alg».proof.Proof.Gen.KernelIdeal.Launch
import proofs.«428672_j24747601559656_4_alg».proof.Proof.Gen.KernelIdeal.Skeleton
import proofs.«428672_j24747601559656_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form -/

/-- The condition of the body's first conditional (the grid coordinate is zero), as the kernel computes it. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)
/-- The condition of the body's second conditional (the grid coordinate is 249). -/
abbrev cond2_1 (i : grid2.Coords) : Prop := k2_cond2 i = 1#1
/-- It holds at the last point only. -/
theorem hcond2_1 : ∀ t : Fin cfg2.N, cond2_1 (grid2.coords t) ↔ t.val = 249 :=
  (by decide +kernel : ∀ t : Fin grid2.N, cond2_1 (grid2.coords t) ↔ t.val = 249)

/-- Where the second condition fails the output window is idle, -/
theorem idleAt2_4 (i : grid2.Coords) (h : ¬cond2_1 i) : cfg2.idle 4 i = true := by
  show (!(k2_cond2 i == 1#1)) = true
  simp only [Bool.not_eq_true', beq_eq_false_iff_ne, ne_eq]; exact h
/-- and where it holds the window is live. -/
theorem liveAt2_4 (i : grid2.Coords) (h : cond2_1 i) : cfg2.idle 4 i = false := by
  show (!(k2_cond2 i == 1#1)) = false
  simp only [Bool.not_eq_false', beq_iff_eq]; exact h
/-- Off the last point the output block is not written back. -/
theorem noFlush2_4 (t : Fin cfg2.N) (h : t.val ≠ 249) : (cfg2.win 4).flush t = false := by
  have hN : t.val < 250 := lt_of_lt_of_eq t.isLt (show cfg2.N = 250 from N_2)
  have := flush2_4 t
  cases hf : (cfg2.win 4).flush t
  · rfl
  · exact absurd (this.mp hf) (by omega)

/-! ## The whole rectangles, and what one whole store leaves -/

/-- The two accumulators and the output block as whole rectangles, -/
abbrev r2s0 : Rect S512x64 := Rect.unit (s := S512x64) ![0, 0] S512x64.size inb_S512x64_S512x64_0_0
abbrev r2s1 : Rect S512x1 := Rect.unit (s := S512x1) ![0, 0] S512x1.size inb_S512x1_S512x1_0_0
/-- and the four input blocks. -/
abbrev r2i0 : Rect S200x64 := Rect.unit (s := S200x64) ![0, 0] S200x64.size inb_S200x64_S200x64_0_0
abbrev r2i1 : Rect S200x1 := Rect.unit (s := S200x1) ![0, 0] S200x1.size inb_S200x1_S200x1_0_0
abbrev r2i2 : Rect S64x1 := Rect.unit (s := S64x1) ![0, 0] S64x1.size inb_S64x1_S64x1_0_0
abbrev r2i3 : Rect S1x1 := Rect.unit (s := S1x1) ![0, 0] S1x1.size inb_S1x1_S1x1_0_0

/-- A load through a rectangle of what the stores `L` left reads the canonical contents there. -/
theorem readCov_toLoadRect_eq_ld {sig' : RefSig} {κ : Kind} {sp : Space} {s : Shape} {e : EltTy} {Val : EltTy → Type} [∀ e, Nonempty (Val e)]
    (v : View sig' κ sp s e) (L : List (View.Piece Val s e)) (r : Rect s) :
    v.readCov L r.toLoadRect = View.ld (View.canon L) r :=
  View.readCov_eq_canon' v L r.toLoadRect

/-- A last store through a rectangle that holds every index leaves its payload alone, whatever the earlier stores. -/
theorem canon_cons_whole {s : Shape} {e : EltTy} {Val : EltTy → Type} [∀ e, Nonempty (Val e)]
    (r : Rect s) (hr : ∀ y, y ∈ r.set) (w : r.shape.Idx → Val e) (L : List (View.Piece Val s e)) :
    View.canon (⟨r, w⟩ :: L) = View.canon [⟨r, w⟩] := by
  funext y
  obtain ⟨x, rfl⟩ := r.exists_idx_of_mem (hr y)
  rw [show r.idx x = r.emb x from rfl, View.canon_cons_emb, View.canon_cons_emb]

/-- So a buffer whose last store went through such a rectangle reads as that one store's canonical contents. -/
theorem read_writes_cons_whole {sig' : RefSig} {κ : Kind} {sp : Space} {s : Shape} {e : EltTy} {Val : EltTy → Type} [∀ e, Nonempty (Val e)]
    (v : View sig' κ sp s e) (f : v.ty.Contents Val) (r : Rect s) (hr : ∀ y, y ∈ r.set) (w : r.shape.Idx → Val e)
    (L : List (View.Piece Val s e)) :
    v.read Val (v.writes Val f (⟨r, w⟩ :: L)) = View.canon [⟨r, w⟩] :=
  (View.read_writes_eq_canon v f _ (fun y => ⟨_, List.mem_cons_self, hr y⟩)).trans (canon_cons_whole r hr w L)

/-- The whole rectangles hold every index. -/
theorem mem_r2s0 (y : S512x64.Idx) : y ∈ r2s0.set := by
  obtain ⟨pc, hpc, hy⟩ := View.cover_of_tiled ([⟨r2s0, fun _ => ()⟩] : List (View.Piece (fun _ => Unit) S512x64 .f32)) S512x64.size (by rfl) y
  rw [List.mem_singleton.mp hpc] at hy; exact hy
theorem mem_r2s1 (y : S512x1.Idx) : y ∈ r2s1.set := by
  obtain ⟨pc, hpc, hy⟩ := View.cover_of_tiled ([⟨r2s1, fun _ => ()⟩] : List (View.Piece (fun _ => Unit) S512x1 .f32)) S512x1.size (by rfl) y
  rw [List.mem_singleton.mp hpc] at hy; exact hy

/-! ## What the body's stores leave -/

/-- The accumulators after the first point's zeroing stores: the feature sums, -/
def acc2_init0 : Vec F S512x64 .f32 := View.canon [⟨r2s0, k2_pay1 (F := F)⟩]
/-- and the node counts. -/
def acc2_init1 : Vec F S512x1 .f32 := View.canon [⟨r2s1, k2_pay2 (F := F)⟩]

/-- The feature sums after a point's accumulating store, from the point's feature block `x0`, its graph ids `x1` and the
    sums `s0` the store found. -/
def acc2_step0 (x0 : Vec F S200x64 .f32) (x1 : Vec F S200x1 .i32) (s0 : Vec F S512x64 .f32) : Vec F S512x64 .f32 :=
  View.canon [⟨r2s0, k2_pay4 (View.ld x0 r2i0) (View.ld x1 r2i1) (View.ld s0 r2s0)⟩]
/-- The node counts after a point's accumulating store, from the point's graph ids `x1` and the counts `s1` it found. -/
def acc2_step1 (x1 : Vec F S200x1 .i32) (s1 : Vec F S512x1 .f32) : Vec F S512x1 .f32 :=
  View.canon [⟨r2s1, k2_pay5 (View.ld x1 r2i1) (View.ld s1 r2s1)⟩]

/-- The output block after the body at the last point, from the two accumulators and the two small input blocks. -/
def out2_4 (s0 : Vec F S512x64 .f32) (s1 : Vec F S512x1 .f32) (x2 : Vec F S64x1 .f32) (x3 : Vec F S1x1 .f32) : Vec F S512x1 .f32 :=
  View.canon [⟨r2s1, k2_pay6 (View.ld s0 r2s0) (View.ld s1 r2s1) (View.ld x2 r2i2) (View.ld x3 r2i3)⟩]

/-- A load through the whole-shape rectangle at zero offsets reads the contents, -/
theorem ld_whole_zero {S : Shape} {e : EltTy} {Val : EltTy → Type} {off : Fin S.rank → Nat} (h : off = fun _ => 0)
    (inb : ∀ a, off a + S.size a ≤ S.size a) (X : S.Idx → Val e) : View.ld X (Rect.unit off S.size inb) = X := by
  subst h; funext x; show X ((Rect.whole S).emb x) = X x; rw [Rect.emb_whole_apply]
/-- and one store through it leaves its payload. -/
theorem canon_whole_zero {S : Shape} {e : EltTy} {Val : EltTy → Type} [∀ e, Nonempty (Val e)] {off : Fin S.rank → Nat} (h : off = fun _ => 0)
    (inb : ∀ a, off a + S.size a ≤ S.size a) (w : S.Idx → Val e) :
    View.canon [(⟨Rect.unit off S.size inb, w⟩ : View.Piece Val S e)] = w := by
  subst h; funext y
  have e := View.canon_cons_emb (Val := Val) (Rect.whole S) w [] y
  rw [Rect.emb_whole_apply] at e
  exact e

theorem off2_zero : (![0, 0] : Fin 2 → ℕ) = fun _ => 0 := by funext a; fin_cases a <;> rfl

/-- So the stores' contents are the payloads themselves, of the contents loaded. -/
theorem acc2_init0_eq : acc2_init0 (F := F) = k2_pay1 := canon_whole_zero off2_zero _ _
theorem acc2_init1_eq : acc2_init1 (F := F) = k2_pay2 := canon_whole_zero off2_zero _ _
theorem acc2_step0_eq (x0 : Vec F S200x64 .f32) (x1 : Vec F S200x1 .i32) (s0 : Vec F S512x64 .f32) :
    acc2_step0 x0 x1 s0 = k2_pay4 x0 x1 s0 := by
  unfold acc2_step0
  rw [ld_whole_zero off2_zero, ld_whole_zero off2_zero, ld_whole_zero off2_zero]
  exact canon_whole_zero off2_zero _ _
theorem acc2_step1_eq (x1 : Vec F S200x1 .i32) (s1 : Vec F S512x1 .f32) : acc2_step1 x1 s1 = k2_pay5 x1 s1 := by
  unfold acc2_step1
  rw [ld_whole_zero off2_zero, ld_whole_zero off2_zero]
  exact canon_whole_zero off2_zero _ _
theorem out2_4_eq (s0 : Vec F S512x64 .f32) (s1 : Vec F S512x1 .f32) (x2 : Vec F S64x1 .f32) (x3 : Vec F S1x1 .f32) :
    out2_4 s0 s1 x2 x3 = k2_pay6 s0 s1 x2 x3 := by
  unfold out2_4
  rw [ld_whole_zero off2_zero, ld_whole_zero off2_zero, ld_whole_zero off2_zero, ld_whole_zero off2_zero]
  exact canon_whole_zero off2_zero _ _

/-- THE FOLD. The two scratch accumulators (the per-graph feature sums, 512x64, and the per-graph node counts, 512x1) after the
    body at grid point `n`: the point's accumulating stores over the zeroed accumulators at the first point, over what the
    point before left afterwards. -/
def accAt2 (c : Dev nD) : (n : ℕ) → n < cfg2.N → Vec F S512x64 .f32 × Vec F S512x1 .f32
  | 0, hn => (acc2_step0 (iblk2 V c 0 ⟨0, hn⟩) (iblk2 V c 1 ⟨0, hn⟩) acc2_init0, acc2_step1 (iblk2 V c 1 ⟨0, hn⟩) acc2_init1)
  | n + 1, hn => (acc2_step0 (iblk2 V c 0 ⟨n + 1, hn⟩) (iblk2 V c 1 ⟨n + 1, hn⟩) (accAt2 c n (Nat.lt_of_succ_lt hn)).1,
      acc2_step1 (iblk2 V c 1 ⟨n + 1, hn⟩) (accAt2 c n (Nat.lt_of_succ_lt hn)).2)

theorem accAt2_zero (c : Dev nD) (hn : 0 < cfg2.N) :
    accAt2 V c 0 hn = (acc2_step0 (iblk2 V c 0 ⟨0, hn⟩) (iblk2 V c 1 ⟨0, hn⟩) acc2_init0, acc2_step1 (iblk2 V c 1 ⟨0, hn⟩) acc2_init1) := rfl
theorem accAt2_succ (c : Dev nD) (n : ℕ) (hn : n + 1 < cfg2.N) :
    accAt2 V c (n + 1) hn = (acc2_step0 (iblk2 V c 0 ⟨n + 1, hn⟩) (iblk2 V c 1 ⟨n + 1, hn⟩) (accAt2 V c n (Nat.lt_of_succ_lt hn)).1,
      acc2_step1 (iblk2 V c 1 ⟨n + 1, hn⟩) (accAt2 V c n (Nat.lt_of_succ_lt hn)).2) := rfl

/-- The fold at the first point, -/
theorem accAt2_first (c : Dev nD) (t : Fin cfg2.N) (h : t.val = 0) :
    accAt2 V c t.val t.isLt = (acc2_step0 (iblk2 V c 0 t) (iblk2 V c 1 t) acc2_init0, acc2_step1 (iblk2 V c 1 t) acc2_init1) := by
  obtain ⟨n, hn⟩ := t
  cases n with
  | zero => rfl
  | succ n => exact absurd h (Nat.succ_ne_zero n)
/-- and at a later one. -/
theorem accAt2_pos (c : Dev nD) (t : Fin cfg2.N) (h : t.val ≠ 0) :
    accAt2 V c t.val t.isLt = (acc2_step0 (iblk2 V c 0 t) (iblk2 V c 1 t) (accAt2 V c (t.val - 1) (Nat.lt_of_le_of_lt (Nat.sub_le _ _) t.isLt)).1,
      acc2_step1 (iblk2 V c 1 t) (accAt2 V c (t.val - 1) (Nat.lt_of_le_of_lt (Nat.sub_le _ _) t.isLt)).2) := by
  obtain ⟨n, hn⟩ := t
  cases n with
  | zero => exact absurd rfl h
  | succ n => rfl

/-! ## The kernel on whole buffers, case by case -/

set_option maxHeartbeats 1000000 in
/-- The body at the first point (the first conditional taken, the second not): the two accumulators at anything; it ends
    with the two input blocks it reads unchanged and the accumulators at the first step of the fold. -/
theorem sound_kernel2_first (c : Dev nD) (E : Set ℕ) (i : grid2.Coords) (hc0 : cond2_0 i) (hc1 : ¬cond2_1 i)
    (arg1 : Memref sig .tc .vmem S200x64 .f32) (harg1 : arg1.IsWhole) (arg2 : Memref sig .tc .vmem S200x1 .i32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S512x1 .f32) (harg5 : arg5.IsWhole) (arg6 : Memref sig .tc .vmem S512x64 .f32) (harg6 : arg6.IsWhole)
    (arg7 : Memref sig .tc .vmem S512x1 .f32) (harg7 : arg7.IsWhole)
    (x0 : Vec F S200x64 .f32) (x1 : Vec F S200x1 .i32) (K : PUnit → sProp 𝕄) :
    iprop(owns (c : Thread nD τ) arg1 fullShare x0 ∗ owns (c : Thread nD τ) arg2 fullShare x1
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg6 fullShare (acc2_step0 x0 x1 acc2_init0) ∗ owns (c : Thread nD τ) arg7 fullShare (acc2_step1 x1 acc2_init1)) -∗ K ⟨⟩))
      ⊢ wp frame (wpE (defs₀ (F := F)) Variants.none c none) E (cc2__pool_head_kernel i arg1 harg1 arg2 harg2 arg3 harg3 arg4 harg4 arg5 harg5 arg6 harg6 arg7 harg7) K := by
  simp only [cc2__pool_head_kernel_eq_skeleton (F := F)]; unfold cc2__pool_head_kernel_skel
  unfold owns
  iintro ⟨⟨%f0, %hf0, H0⟩, ⟨%f1, %hf1, H1⟩, ⟨%d6, %f6, -, H6⟩, ⟨%d7, %f7, -, H7⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    sl_unfold_run_names
    rw [readCov_toLoadRect_eq_ld]
    exact read_writes_cons_whole _ _ _ mem_r2s0 _ _
  iexists _; isplitr
  swap; · iexact H7
  ipureintro
  sl_unfold_run_names
  rw [readCov_toLoadRect_eq_ld]
  exact read_writes_cons_whole _ _ _ mem_r2s1 _ _

set_option maxHeartbeats 1000000 in
/-- The body at a middle point (neither conditional taken): the accumulators at `s0`, `s1`; it ends with the two input
    blocks it reads unchanged and the accumulators one step of the fold further. -/
theorem sound_kernel2_mid (c : Dev nD) (E : Set ℕ) (i : grid2.Coords) (hc0 : ¬cond2_0 i) (hc1 : ¬cond2_1 i)
    (arg1 : Memref sig .tc .vmem S200x64 .f32) (harg1 : arg1.IsWhole) (arg2 : Memref sig .tc .vmem S200x1 .i32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S512x1 .f32) (harg5 : arg5.IsWhole) (arg6 : Memref sig .tc .vmem S512x64 .f32) (harg6 : arg6.IsWhole)
    (arg7 : Memref sig .tc .vmem S512x1 .f32) (harg7 : arg7.IsWhole)
    (x0 : Vec F S200x64 .f32) (x1 : Vec F S200x1 .i32) (s0 : Vec F S512x64 .f32) (s1 : Vec F S512x1 .f32) (K : PUnit → sProp 𝕄) :
    iprop(owns (c : Thread nD τ) arg1 fullShare x0 ∗ owns (c : Thread nD τ) arg2 fullShare x1
        ∗ owns (c : Thread nD τ) arg6 fullShare s0 ∗ owns (c : Thread nD τ) arg7 fullShare s1
        ∗ (iprop(owns (c : Thread nD τ) arg1 fullShare x0 ∗ owns (c : Thread nD τ) arg2 fullShare x1
            ∗ owns (c : Thread nD τ) arg6 fullShare (acc2_step0 x0 x1 s0) ∗ owns (c : Thread nD τ) arg7 fullShare (acc2_step1 x1 s1)) -∗ K ⟨⟩))
      ⊢ wp frame (wpE (defs₀ (F := F)) Variants.none c none) E (cc2__pool_head_kernel i arg1 harg1 arg2 harg2 arg3 harg3 arg4 harg4 arg5 harg5 arg6 harg6 arg7 harg7) K := by
  simp only [cc2__pool_head_kernel_eq_skeleton (F := F)]; unfold cc2__pool_head_kernel_skel
  unfold owns
  iintro ⟨⟨%f0, %hf0, H0⟩, ⟨%f1, %hf1, H1⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    exact read_writes_cons_whole _ _ _ mem_r2s0 _ _
  iexists _; isplitr
  swap; · iexact H7
  ipureintro
  exact read_writes_cons_whole _ _ _ mem_r2s1 _ _

set_option maxHeartbeats 1000000 in
/-- The body at the last point (the first conditional not taken, the second taken): the accumulators at `s0`, `s1`, the
    output block at anything; it ends with the four input blocks unchanged, the accumulators one step of the fold further
    and the output block at `out2_4` of those and the two small inputs. -/
theorem sound_kernel2_last (c : Dev nD) (E : Set ℕ) (i : grid2.Coords) (hc0 : ¬cond2_0 i) (hc1 : cond2_1 i)
    (arg1 : Memref sig .tc .vmem S200x64 .f32) (harg1 : arg1.IsWhole) (arg2 : Memref sig .tc .vmem S200x1 .i32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S512x1 .f32) (harg5 : arg5.IsWhole) (arg6 : Memref sig .tc .vmem S512x64 .f32) (harg6 : arg6.IsWhole)
    (arg7 : Memref sig .tc .vmem S512x1 .f32) (harg7 : arg7.IsWhole)
    (x0 : Vec F S200x64 .f32) (x1 : Vec F S200x1 .i32) (x2 : Vec F S64x1 .f32) (x3 : Vec F S1x1 .f32)
    (s0 : Vec F S512x64 .f32) (s1 : Vec F S512x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ owns (c : Thread nD τ) arg6 fullShare s0 ∗ owns (c : Thread nD τ) arg7 fullShare s1
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 (acc2_step0 x0 x1 s0) (acc2_step1 x1 s1) x2 x3)
            ∗ owns (c : Thread nD τ) arg6 fullShare (acc2_step0 x0 x1 s0) ∗ owns (c : Thread nD τ) arg7 fullShare (acc2_step1 x1 s1)) -∗ K ⟨⟩))
      ⊢ wp frame (wpE (defs₀ (F := F)) Variants.none c none) E (cc2__pool_head_kernel i arg1 harg1 arg2 harg2 arg3 harg3 arg4 harg4 arg5 harg5 arg6 harg6 arg7 harg7) K := by
  simp only [cc2__pool_head_kernel_eq_skeleton (F := F)]; unfold cc2__pool_head_kernel_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_run_names
    rw [readCov_toLoadRect_eq_ld, readCov_toLoadRect_eq_ld]
    exact read_writes_cons_whole _ _ _ mem_r2s1 _ _
  isplitl [H6]
  · iexists _; isplitr
    swap; · iexact H6
    ipureintro
    exact read_writes_cons_whole _ _ _ mem_r2s0 _ _
  iexists _; isplitr
  swap; · iexact H7
  ipureintro
  exact read_writes_cons_whole _ _ _ mem_r2s1 _ _

/-! ## The invariant between points -/

/-- The two scratch operands: whole scoped buffers of the kernel's own, passed beside the windows. -/
abbrev scM2_0 : Memref sig .tc .vmem S512x64 .f32 := Memref.whole cc2_scratch0
abbrev scM2_1 : Memref sig .tc .vmem S512x1 .f32 := Memref.whole cc2_scratch1

/-- What the invariant holds beside the two accumulators: every other scoped buffer that is no staging buffer of this
    region, each at some contents, and the generator register at some state. -/
def rest2 (c : Dev nD) : sProp 𝕄 :=
  iprop(Pipeline.scopedRestBut (Ix := Unit) (Name := ℕ) (U := UR sig nD τ) (Lvl := ℕ) (Val := Elt F) spec2 c [cc2_scratch0, cc2_scratch1]
    ∗ ∃ r, prngReg c r)

/-- The scoped rest split at the two accumulators: their points-tos, then every other buffer unopened. -/
theorem scopedRest2_split (c : Dev nD) :
    (Pipeline.scopedRest (Ix := Unit) (Name := ℕ) (U := UR sig nD τ) (Lvl := ℕ) (Val := Elt F) spec2 c : sProp 𝕄)
      = iprop(((∃ f : Buf (Elt F) ((c : Thread nD τ).loc cc2_scratch0), ((c : Thread nD τ).loc cc2_scratch0) ↦{fullShare} f)
          ∗ (∃ f : Buf (Elt F) ((c : Thread nD τ).loc cc2_scratch1), ((c : Thread nD τ).loc cc2_scratch1) ↦{fullShare} f))
        ∗ Pipeline.scopedRestBut (Ix := Unit) (Name := ℕ) (U := UR sig nD τ) (Lvl := ℕ) (Val := Elt F) spec2 c [cc2_scratch0, cc2_scratch1]) :=
  Pipeline.scopedRest_split_of_list spec2 c [cc2_scratch0, cc2_scratch1] (by decide) (by decide)

/-- The class invariant hands out the two accumulators at some contents each, -/
theorem PhiA2_split (c : Dev nD) :
    (Pipeline.ΦA spec2 c : sProp 𝕄)
      ⊢ iprop((∃ d, owns (c : Thread nD τ) scM2_0 fullShare d) ∗ (∃ d, owns (c : Thread nD τ) scM2_1 fullShare d) ∗ rest2 (F := F) c) := by
  unfold Pipeline.ΦA rest2
  rw [scopedRest2_split]
  simp only [scM2_0, scM2_1, owns_whole]
  iintro ⟨⟨⟨⟨%f0, H0⟩, ⟨%f1, H1⟩⟩, Hb⟩, Hg⟩
  isplitl [H0]; · iexists f0; iexact H0
  isplitl [H1]; · iexists f1; iexact H1
  isplitl [Hb]; · iexact Hb
  iexact Hg

/-- and takes them back at any. -/
theorem PhiA2_join (c : Dev nD) :
    iprop((∃ d, owns (c : Thread nD τ) scM2_0 fullShare d) ∗ (∃ d, owns (c : Thread nD τ) scM2_1 fullShare d) ∗ rest2 (F := F) c)
      ⊢ (Pipeline.ΦA spec2 c : sProp 𝕄) := by
  unfold Pipeline.ΦA rest2
  rw [scopedRest2_split]
  simp only [scM2_0, scM2_1, owns_whole]
  iintro ⟨⟨%f0, H0⟩, ⟨%f1, H1⟩, Hb, Hg⟩
  isplitr [Hg]
  · isplitr [Hb]
    · isplitl [H0]; · iexists f0; iexact H0
      iexists f1; iexact H1
    iexact Hb
  iexact Hg

/-- The invariant before position `n`: before the first point the class's (every scratch at anything); afterwards the two
    accumulators at what the point before left in them (the fold), and the rest. -/
def PhiS2 (c : Dev nD) : (n : ℕ) → n ≤ cfg2.N → sProp 𝕄
  | 0, _ => Pipeline.ΦA spec2 c
  | n + 1, hn => iprop(owns (c : Thread nD τ) scM2_0 fullShare (accAt2 V c n hn).1
      ∗ owns (c : Thread nD τ) scM2_1 fullShare (accAt2 V c n hn).2 ∗ rest2 c)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2_0 fullShare (accAt2 V c n hn).1
      ∗ owns (c : Thread nD τ) scM2_1 fullShare (accAt2 V c n hn).2 ∗ rest2 c) := rfl

theorem PhiS2_pos (c : Dev nD) (n : ℕ) (h : n ≤ cfg2.N) (hz : n ≠ 0) :
    PhiS2 V c n h = iprop(owns (c : Thread nD τ) scM2_0 fullShare (accAt2 V c (n - 1) (by omega)).1
      ∗ owns (c : Thread nD τ) scM2_1 fullShare (accAt2 V c (n - 1) (by omega)).2 ∗ rest2 c) := by
  cases n with
  | zero => exact absurd rfl hz
  | succ n => rfl

/-! ## The pipeline's proof data -/

/-- The proof data of this region's pipeline on core `c`: the arrays as the region finds them; after the body at point
    `t` each input's buffer still at its block and the output's at `out2_4` of the fold there and the two small inputs
    (consulted at the last point only: elsewhere the window is idle); the invariant tracks the two accumulators
    (`PhiS2`); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (accAt2 V c t.val t.isLt).1 (accAt2 V c t.val t.isLt).2 (iblk2 V c 2 t) (iblk2 V c 3 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem share2 (c : Dev nD) (w : Fin cfg2.W) : (dat2 V c).share w = fullShare :=
  (dat2 V c).share_full (fun _ => rfl) w
theorem owed2 (c : Dev nD) (t) : (dat2 V c).owed t = 0 := rfl
theorem recorded2 (c : Dev nD) (t) : (dat2 V c).recorded t = Set.univ := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (accAt2 V c t.val t.isLt).1 (accAt2 V c t.val t.isLt).2 (iblk2 V c 2 t) (iblk2 V c 3 t) := by
  dsimp only [dat2]
/-- The output block the last point leaves, which alone is written back. -/
theorem after2_4_last (c : Dev nD) (h : 249 < cfg2.N) :
    (dat2 V c).after 4 ⟨249, h⟩ = out2_4 (accAt2 V c 249 h).1 (accAt2 V c 249 h).2 (iblk2 V c 2 ⟨249, h⟩) (iblk2 V c 3 ⟨249, h⟩) :=
  after2_4 V c ⟨249, h⟩

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- The invariant at a point's start, restated at the point's number. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns: the output window's buffer as found where the window is idle. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) :
    (dat2 V c).leavesExact 0 t = owns (c : Thread nD τ) (st2_0 t) fullShare (iblk2 V c 0 t) := by
  rw [← after2_0]
theorem leaves2_1 (c : Dev nD) (t : Fin cfg2.N) :
    (dat2 V c).leavesExact 1 t = owns (c : Thread nD τ) (st2_1 t) fullShare (iblk2 V c 1 t) := by
  rw [← after2_1]
theorem leaves2_2 (c : Dev nD) (t : Fin cfg2.N) :
    (dat2 V c).leavesExact 2 t = owns (c : Thread nD τ) (st2_2 t) fullShare (iblk2 V c 2 t) := by
  rw [← after2_2]
theorem leaves2_3 (c : Dev nD) (t : Fin cfg2.N) :
    (dat2 V c).leavesExact 3 t = owns (c : Thread nD τ) (st2_3 t) fullShare (iblk2 V c 3 t) := by
  rw [← after2_3]
theorem leaves2_4_idle (c : Dev nD) (t : Fin cfg2.N) (h : t.val ≠ 249) :
    (dat2 V c).leavesExact 4 t = iprop(∃ d, owns (c : Thread nD τ) (st2_4 t) fullShare ((dat2 V c).before 4 t d)) :=
  Dat.leavesExact_idle (dat2 V c) 4 t (idleAt2_4 _ (fun hc => h ((hcond2_1 t).mp hc))) (noFlush2_4 t h)
theorem leaves2_4_last (c : Dev nD) (t : Fin cfg2.N) (h : t.val = 249) :
    (dat2 V c).leavesExact 4 t = owns (c : Thread nD τ) (st2_4 t) fullShare
      (out2_4 (accAt2 V c t.val t.isLt).1 (accAt2 V c t.val t.isLt).2 (iblk2 V c 2 t) (iblk2 V c 3 t)) := by
  rw [← after2_4]; unfold Dat.leavesExact; rw [liveAt2_4 _ ((hcond2_1 t).mpr h)]

set_option maxHeartbeats 2000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, PhiS2_castSucc]
  have hN : t.val < 250 := lt_of_lt_of_eq t.isLt (show cfg2.N = 250 from N_2)
  by_cases h0 : t.val = 0
  · have h1 : t.val ≠ 249 := by omega
    rw [leaves2_4_idle V c t h1, accAt2_first V c t h0, PhiS2_zero V c _ _ h0]
    iintro ⟨HΦ, Ho, ⟨%d0, H0⟩, ⟨%d1, H1⟩, ⟨%d2, H2⟩, ⟨%d3, H3⟩, ⟨%d4, H4⟩⟩
    ihave HΦ' := (PhiA2_split (F := F) c) $$ HΦ
    icases HΦ' with ⟨HS0, HS1, Hr⟩
    iapply (sound_kernel2_first c Set.univ (grid2.coords t) ((hcond2_0 t).mpr h0) (fun hc => h1 ((hcond2_1 t).mp hc))
      _ _ _ _ _ _ _ _ _ _ _ _ _ _ (iblk2 V c 0 t) (iblk2 V c 1 t) _)
    isplitl [H0]; · iexact H0
    isplitl [H1]; · iexact H1
    isplitl [HS0]; · iexact HS0
    isplitl [HS1]; · iexact HS1
    iintro ⟨H0, H1, HS0, HS1⟩
    isplitl [HS0 HS1 Hr]
    · isplitl [HS0]; · iexact HS0
      isplitl [HS1]; · iexact HS1
      iexact Hr
    isplitl [Ho]; · iexact Ho
    isplitl [H0]; · iexact H0
    isplitl [H1]; · iexact H1
    isplitl [H2]; · iexact H2
    isplitl [H3]; · iexact H3
    iexists d4; iexact H4
  · by_cases h1 : t.val = 249
    · rw [leaves2_4_last V c t h1, accAt2_pos V c t h0, PhiS2_pos V c _ _ h0]
      iintro ⟨⟨HS0, HS1, Hr⟩, Ho, ⟨%d0, H0⟩, ⟨%d1, H1⟩, ⟨%d2, H2⟩, ⟨%d3, H3⟩, ⟨%d4, H4⟩⟩
      iapply (sound_kernel2_last c Set.univ (grid2.coords t) (fun hc => h0 ((hcond2_0 t).mp hc)) ((hcond2_1 t).mpr h1)
        _ _ _ _ _ _ _ _ _ _ _ _ _ _ (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      iexact H4
    · rw [leaves2_4_idle V c t h1, accAt2_pos V c t h0, PhiS2_pos V c _ _ h0]
      iintro ⟨⟨HS0, HS1, Hr⟩, Ho, ⟨%d0, H0⟩, ⟨%d1, H1⟩, ⟨%d2, H2⟩, ⟨%d3, H3⟩, ⟨%d4, H4⟩⟩
      iapply (sound_kernel2_mid c Set.univ (grid2.coords t) (fun hc => h0 ((hcond2_0 t).mp hc)) (fun hc => h1 ((hcond2_1 t).mp hc))
        _ _ _ _ _ _ _ _ _ _ _ _ _ _ (iblk2 V c 0 t) (iblk2 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      isplitl [H3]; · iexact H3
      iexists d4; iexact H4

/-- The body obligation of the pipeline's rule, at every point. -/
theorem body_obligation2 (c : Dev nD) : BodyObligation (dat2 (F := F) V c) (defs₀ (F := F)) Variants.none () Set.univ := fun t => by
  rw [bigSep_W2, bigSep_W2]
  exact sound_body2 V c t

/-! ## Into the invariant and out of it -/

/-- What the launch hands the region is the invariant before the first point. -/
theorem hin2 (c : Dev nD) : Pipeline.ΦA spec2 c ⊢ (dat2 (F := F) V c).Φ 0 := by
  rw [show (dat2 V c).Φ 0 = PhiS2 V c 0 (Nat.zero_le _) from rfl, PhiS2_zero V c 0 _ rfl]

/-- After the last point the invariant gives the class's back: the accumulators' contents are forgotten. -/
theorem hout2 (c : Dev nD) : (dat2 (F := F) V c).Φ (Fin.last cfg2.N) ⊢ Pipeline.ΦA spec2 c := by
  have hN : cfg2.N = 250 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega)]
  iintro ⟨HS0, HS1, Hr⟩
  iapply (PhiA2_join (F := F) c)
  isplitl [HS0]; · iexists _; iexact HS0
  isplitl [HS1]; · iexists _; iexact HS1
  iexact Hr

end Cert.KernelIdeal.Hand

end
-- ==== Proof.KI.Run.lean ====
/-
  The run of the whole kernel program: @main is five stretches of host operations and three kernel regions, in the
  order stretch, stretch, stretch, region 0, stretch, region 1, stretch, region 2. The contents of the TensorCore's
  buffers at every boundary between two items are written as a fold from the launch memory: a host stretch takes the
  contents to what its operations leave, a kernel region leaves each of its windows' arrays at what its write-backs
  leave and every other buffer as it found it. Every region's proof data are taken at the contents its region is
  entered from. The launch theorem for a program of several regions then gives: every weakly fair execution
  terminates, and in every final state each unscoped buffer of the TensorCore holds the last boundary's contents.
  Read at an argument array, whose buffer no stretch writes and no region changes, that is the frame claim; read at
  the last region's output array it is what that region's pipeline leaves there.
-/
import proofs.«428672_j24747601559656_4_alg».proof.Proof.Gen.KernelIdeal.Launch
import proofs.«428672_j24747601559656_4_alg».proof.Proof.Gen.KernelIdeal.Skeleton
import proofs.«428672_j24747601559656_4_alg».proof.Proof.Gen.KernelIdeal.Points
import proofs.«428672_j24747601559656_4_alg».proof.Proof.Gen.KernelIdeal.Regions
import proofs.«428672_j24747601559656_4_alg».proof.Proof.KI.Reg0
import proofs.«428672_j24747601559656_4_alg».proof.Proof.KI.Reg1
import proofs.«428672_j24747601559656_4_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary: a fold through @main -/

/-- Core `c`'s buffers at launch. -/
abbrev W0 (c : Dev nD) : Valuation τ sig (Elt F) := fun b => m (c, b)
/-- After the first stretch, -/
abbrev W1 (c : Dev nD) : Valuation τ sig (Elt F) := StableHlo.after hostOps0 (W0 m c)
/-- the second, -/
abbrev W2 (c : Dev nD) : Valuation τ sig (Elt F) := StableHlo.after hostOps0_1 (W1 m c)
/-- and the third: region 0 is entered from these contents. -/
abbrev W3 (c : Dev nD) : Valuation τ sig (Elt F) := StableHlo.after hostOps0_2 (W2 m c)
/-- The same read at the TensorCore's references (what region 0's proof data take). -/
abbrev V3r : (c : Dev nD) → (b : Ref sig .tc) → Buf (Elt F) ((c : Thread nD τ).loc b) := fun c b => W3 m c b
/-- At region 0's exit: its windows' arrays at what the pipeline leaves (an input as entered, the output with its
    write-backs folded in), every other buffer as entered. -/
def W4 (c : Dev nD) : Valuation τ sig (Elt F) :=
  Pipeline.withArrays spec0 c (W3 m c) fun w => (dat0 (V3r m) c).arrAt w cfg0.N
/-- After the fourth stretch: region 1 is entered from these contents. -/
abbrev W5 (c : Dev nD) : Valuation τ sig (Elt F) := StableHlo.after hostOps1 (W4 m c)
abbrev V5r : (c : Dev nD) → (b : Ref sig .tc) → Buf (Elt F) ((c : Thread nD τ).loc b) := fun c b => W5 m c b
/-- At region 1's exit. -/
def W6 (c : Dev nD) : Valuation τ sig (Elt F) :=
  Pipeline.withArrays spec1 c (W5 m c) fun w => (dat1 (V5r m) c).arrAt w cfg1.N
/-- After the fifth stretch: region 2 is entered from these contents. -/
abbrev W7 (c : Dev nD) : Valuation τ sig (Elt F) := StableHlo.after hostOps2 (W6 m c)
abbrev V7r : (c : Dev nD) → (b : Ref sig .tc) → Buf (Elt F) ((c : Thread nD τ).loc b) := fun c b => W7 m c b
/-- At region 2's exit: the contents @main returns with. -/
def W8 (c : Dev nD) : Valuation τ sig (Elt F) :=
  Pipeline.withArrays spec2 c (W7 m c) fun w => (dat2 (V7r m) c).arrAt w cfg2.N

theorem W4_arr (c : Dev nD) (w : Fin cfg0.W) :
    W4 m c (Proc.devRef .tc (Pipeline.arrRef spec0 w)) = (dat0 (V3r m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W6_arr (c : Dev nD) (w : Fin cfg1.W) :
    W6 m c (Proc.devRef .tc (Pipeline.arrRef spec1 w)) = (dat1 (V5r m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
theorem W8_arr (c : Dev nD) (w : Fin cfg2.W) :
    W8 m c (Proc.devRef .tc (Pipeline.arrRef spec2 w)) = (dat2 (V7r m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb

/-- The exit contents read at the TensorCore's references. -/
abbrev V4r : (c : Dev nD) → (b : Ref sig .tc) → Buf (Elt F) ((c : Thread nD τ).loc b) := fun c b => W4 m c b
abbrev V6r : (c : Dev nD) → (b : Ref sig .tc) → Buf (Elt F) ((c : Thread nD τ).loc b) := fun c b => W6 m c b
abbrev V8r : (c : Dev nD) → (b : Ref sig .tc) → Buf (Elt F) ((c : Thread nD τ).loc b) := fun c b => W8 m c b

/-- At a region's exit each of its arrays holds what the pipeline leaves, and every other buffer what it held at entry. -/
theorem hF0 (c : Dev nD) (w : Fin cfg0.W) : (dat0 (V3r m) c).arrAt w cfg0.N = V4r m c (Pipeline.arrRef spec0 w) :=
  (W4_arr m c w).symm
theorem hrest0 (c : Dev nD) : ∀ b, b ∉ Finset.univ.image (Pipeline.arrRef spec0) → V4r m c b = V3r m c b :=
  fun b hb => W4_of_ne m c b fun w e => hb (Finset.mem_image.mpr ⟨w, Finset.mem_univ _, e⟩)
theorem hF1 (c : Dev nD) (w : Fin cfg1.W) : (dat1 (V5r m) c).arrAt w cfg1.N = V6r m c (Pipeline.arrRef spec1 w) :=
  (W6_arr m c w).symm
theorem hrest1 (c : Dev nD) : ∀ b, b ∉ Finset.univ.image (Pipeline.arrRef spec1) → V6r m c b = V5r m c b :=
  fun b hb => W6_of_ne m c b fun w e => hb (Finset.mem_image.mpr ⟨w, Finset.mem_univ _, e⟩)
theorem hF2 (c : Dev nD) (w : Fin cfg2.W) : (dat2 (V7r m) c).arrAt w cfg2.N = V8r m c (Pipeline.arrRef spec2 w) :=
  (W8_arr m c w).symm
theorem hrest2 (c : Dev nD) : ∀ b, b ∉ Finset.univ.image (Pipeline.arrRef spec2) → V8r m c b = V7r m c b :=
  fun b hb => W8_of_ne m c b fun w e => hb (Finset.mem_image.mpr ⟨w, Finset.mem_univ _, e⟩)

/-! ## What each item leaves unchanged -/

/-- A host stretch leaves a reference it does not write at the contents before it. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W5_of (c : Dev nD) (r : Ref sig .tc) (h : r ∉ hostOps1_W) : W5 m c (Proc.devRef .tc r) = W4 m c (Proc.devRef .tc r) :=
  StableHlo.after_of_writes_sub hostOps1 _ hostOps1_writes h
theorem W7_of (c : Dev nD) (r : Ref sig .tc) (h : r ∉ hostOps2_W) : W7 m c (Proc.devRef .tc r) = W6 m c (Proc.devRef .tc r) :=
  StableHlo.after_of_writes_sub hostOps2 _ hostOps2_writes h

/-- A region leaves the array of an input window at the contents it was entered from. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (V3r m) c).arrAt_in w hin _).trans (A_eq0 (V3r m) c w))
theorem W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (V5r m) c).arrAt_in w hin _).trans (A_eq1 (V5r m) c w))
theorem W8_in (c : Dev nD) (w : Fin cfg2.W) (hin : (cfg2.win w).isOut = false) :
    W8 m c (Proc.devRef .tc (Pipeline.arrRef spec2 w)) = W7 m c (Proc.devRef .tc (Pipeline.arrRef spec2 w)) :=
  (W8_arr m c w).trans (((dat2 (V7r m) c).arrAt_in w hin _).trans (A_eq2 (V7r m) c w))

/-- The three stretches before region 0 leave a reference none of them writes at its launch contents. -/
theorem W3_launch (c : Dev nD) (r : Ref sig .tc) (h0 : r ∉ hostOps0_W) (h1 : r ∉ hostOps0_1_W) (h2 : r ∉ hostOps0_2_W) :
    W3 m c (Proc.devRef .tc r) = m ((c : Thread nD τ).loc r) :=
  (W3_of m c r h2).trans ((W2_of m c r h1).trans ((W1_of m c r h0).trans rfl))

/-- A reference that no stretch writes and that is the array of no region's window ends as launched. -/
theorem W8_launch (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r)
    (h6 : r ∉ hostOps2_W) (h7 : ∀ w, Pipeline.arrRef spec2 w ≠ r) :
    W8 m c (Proc.devRef .tc r) = m ((c : Thread nD τ).loc r) :=
  (W8_of_ne m c r h7).trans <| (W7_of m c r h6).trans <| (W6_of_ne m c r h5).trans <| (W5_of m c r h4).trans <|
    (W4_of_ne m c r h3).trans <| W3_launch m c r h0 h1 h2

/-! ## The arguments end as launched

No stretch writes an argument's buffer. Seven of the ten are the array of no window; `main_arg4`, `main_arg6` and
`main_arg8` are each the array of an input window of one region (regions 0, 1 and 2 in turn), which leaves it as entered. -/

theorem W8_main_arg0 (c : Dev nD) : W8 m c (Proc.devRef .tc main_arg0) = m ((c : Thread nD τ).loc main_arg0) :=
  W8_launch m c main_arg0 (by decide) (by decide) (by decide) (by decide) (by decide) (by decide) (by decide) (by decide)
theorem W8_main_arg1 (c : Dev nD) : W8 m c (Proc.devRef .tc main_arg1) = m ((c : Thread nD τ).loc main_arg1) :=
  W8_launch m c main_arg1 (by decide) (by decide) (by decide) (by decide) (by decide) (by decide) (by decide) (by decide)
theorem W8_main_arg2 (c : Dev nD) : W8 m c (Proc.devRef .tc main_arg2) = m ((c : Thread nD τ).loc main_arg2) :=
  W8_launch m c main_arg2 (by decide) (by decide) (by decide) (by decide) (by decide) (by decide) (by decide) (by decide)
theorem W8_main_arg3 (c : Dev nD) : W8 m c (Proc.devRef .tc main_arg3) = m ((c : Thread nD τ).loc main_arg3) :=
  W8_launch m c main_arg3 (by decide) (by decide) (by decide) (by decide) (by decide) (by decide) (by decide) (by decide)
/-- `main_arg4` is the array of region 0's window 1, an input. -/
theorem W8_main_arg4 (c : Dev nD) : W8 m c (Proc.devRef .tc main_arg4) = m ((c : Thread nD τ).loc main_arg4) :=
  (W8_of_ne m c main_arg4 (by decide)).trans <| (W7_of m c main_arg4 (by decide)).trans <|
    (W6_of_ne m c main_arg4 (by decide)).trans <| (W5_of m c main_arg4 (by decide)).trans <|
    (W4_in m c 1 rfl).trans <| W3_launch m c main_arg4 (by decide) (by decide) (by decide)
theorem W8_main_arg5 (c : Dev nD) : W8 m c (Proc.devRef .tc main_arg5) = m ((c : Thread nD τ).loc main_arg5) :=
  W8_launch m c main_arg5 (by decide) (by decide) (by decide) (by decide) (by decide) (by decide) (by decide) (by decide)
/-- `main_arg6` is the array of region 1's window 1, an input. -/
theorem W8_main_arg6 (c : Dev nD) : W8 m c (Proc.devRef .tc main_arg6) = m ((c : Thread nD τ).loc main_arg6) :=
  (W8_of_ne m c main_arg6 (by decide)).trans <| (W7_of m c main_arg6 (by decide)).trans <|
    (W6_in m c 1 rfl).trans <| (W5_of m c main_arg6 (by decide)).trans <|
    (W4_of_ne m c main_arg6 (by decide)).trans <| W3_launch m c main_arg6 (by decide) (by decide) (by decide)
theorem W8_main_arg7 (c : Dev nD) : W8 m c (Proc.devRef .tc main_arg7) = m ((c : Thread nD τ).loc main_arg7) :=
  W8_launch m c main_arg7 (by decide) (by decide) (by decide) (by decide) (by decide) (by decide) (by decide) (by decide)
/-- `main_arg8` is the array of region 2's window 2, an input. -/
theorem W8_main_arg8 (c : Dev nD) : W8 m c (Proc.devRef .tc main_arg8) = m ((c : Thread nD τ).loc main_arg8) :=
  (W8_in m c 2 rfl).trans <| (W7_of m c main_arg8 (by decide)).trans <|
    (W6_of_ne m c main_arg8 (by decide)).trans <| (W5_of m c main_arg8 (by decide)).trans <|
    (W4_of_ne m c main_arg8 (by decide)).trans <| W3_launch m c main_arg8 (by decide) (by decide) (by decide)
theorem W8_main_arg9 (c : Dev nD) : W8 m c (Proc.devRef .tc main_arg9) = m ((c : Thread nD τ).loc main_arg9) :=
  W8_launch m c main_arg9 (by decide) (by decide) (by decide) (by decide) (by decide) (by decide) (by decide) (by decide)

/-! ## The regions' output arrays at the boundaries -/

/-- Region 0's output array at its exit: what the pipeline's write-backs leave. -/
theorem W4_main_v48 (c : Dev nD) : W4 m c (Proc.devRef .tc main_v48) = (dat0 (V3r m) c).arrAt 3 cfg0.N := W4_arr m c 3
/-- Region 1's output array at its exit. -/
theorem W6_main_v63 (c : Dev nD) : W6 m c (Proc.devRef .tc main_v63) = (dat1 (V5r m) c).arrAt 3 cfg1.N := W6_arr m c 3
/-- Region 2's output array at its exit, which is where @main returns. -/
theorem W8_main_v66 (c : Dev nD) : W8 m c (Proc.devRef .tc main_v66) = (dat2 (V7r m) c).arrAt 4 cfg2.N := W8_arr m c 4

/-! ## The proof data family and the thread state -/

/-- Every pipeline's proof data, each at the contents its region is entered from: a literal `match`, so that the
    family at a numeral reduces to the region's own data. -/
def pdats : (p : Fin 3) → (c : Dev nD) → Dat τ (Elt F) Unit ℕ (UR sig nD τ) ℕ (Pipeline.pin (pcfgs (F := F)) adm p) c
  | ⟨0, _⟩ => fun c => dat0 (V3r m) c
  | ⟨1, _⟩ => fun c => dat1 (V5r m) c
  | ⟨2, _⟩ => fun c => dat2 (V7r m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the record of what the core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at `StableHlo.after ops (W c)`, which is the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of what is owed: every unscoped buffer at the last boundary's contents,
    the generator register at some state. -/
abbrev Tₙ (c : Dev nD) : sProp 𝕄 := iprop(StableHlo.held (c : Thread nD τ) (Pipeline.ucRefs τ sig) (W8 m c) ∗ ∃ r, prngReg c r)

/-! ## The regions as segments

Each region is entered from every unscoped buffer at its entry contents and left with them at its exit contents. Its
windows' arrays are split out of the unscoped buffers on the way in and put back, at what the pipeline leaves, on the
way out; the generator register goes into the region's invariant and comes back; nothing is owed; the kernel has no
semaphore of its own. -/

set_option backward.isDefEq.respectTransparency.types false in
/-- REGION 0: from `W3` to `W4`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3r m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3r m c) (V4r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: from `W5` to `W6`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5r m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5r m c) (V6r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2: from `W7` to `W8`, where @main returns. Its invariant also tracks the kernel's two scratch accumulators; it is
    entered from, and gives back, the scoped buffers no window stages at some contents and the generator register
    (`hin2`, `hout2`). -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7r m) c).loose
  hwaits := Pipeline.hwaits_of_owed_zero _ _ _ _ L lv 2 fun c t => owed2 (V7r m) c t
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7r m c)
  hentry c := by
    rw [Pipeline.ownSems0_none]
    have hsplit := Pipeline.arrays_of_unscopedBufs (p := 2) (pcfgs (F := F)) adm (pdats m) launch2.win launch2.arr_whole c
      (share2 (V7r m) c) (V7r m c) (A_eq2 (V7r m) c)
    rw [Pipeline.unscopedBufs_held] at hsplit
    have ho : (pdats m 2 c).owed 0 = 0 := owed2 (V7r m) c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr
      · ipureintro; exact fun x _ => Or.inl ((recorded2 (V7r m) c 0).symm ▸ Set.mem_univ x)
      iexact HO
    isplitl [Hp]; · iexact Hp
    iexact Hrest
  hin c := by
    refine (show _ ⊢ (Pipeline.ΦA spec2 c : sProp 𝕄) from ?_).trans (hin2 (V7r m) c)
    unfold Pipeline.ΦA
    iintro ⟨Hp, -, Hr⟩
    isplitl [Hr]; · iexact Hr
    iexact Hp
  hout c := by
    rw [Pipeline.ownSems0_none]
    refine (hout2 (V7r m) c).trans (show (Pipeline.ΦA spec2 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) (share2 (V7r m) c)
      (V7r m c) (V8r m c) ((pdats m 2 c).arrAt · cfg2.N) (hF2 m c) (hrest2 m c)
    rw [Pipeline.unscopedBufs_held] at hjoin
    have ho : (pdats m 2 c).owed (Fin.last (Pipeline.pin (pcfgs (F := F)) adm 2).N) = 0 := owed2 (V7r m) c _
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [ho]
    icases HO with ⟨%W, -, HO⟩; iexists W; iexact HO

/-! ## @main as segments, and the launch -/

/-- @main's eight items in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]

/-- The segments' fragments of @main are the items of @main's chain. -/
theorem segs_prog : (segs m).map Pipeline.Seg.prog = [
    StableHlo.seq hostOps0,
    StableHlo.seq hostOps0_1,
    StableHlo.seq hostOps0_2,
    Prog.lift (.customCall (Pipeline.entry 0) ()),
    StableHlo.seq hostOps1,
    Prog.lift (.customCall (Pipeline.entry 1) ()),
    StableHlo.seq hostOps2,
    Prog.lift (.customCall (Pipeline.entry 2) ()) ] := rfl

/-- @main IS the run of the segments. -/
theorem main_run (c : Dev nD) : main (F := F) c = Pipeline.Seg.run (segs m) := by
  rw [main_chain c, Pipeline.Seg.run_eq_chain, segs_prog]

set_option backward.isDefEq.respectTransparency.types false in
/-- THE RUN. From any memory `m` with every semaphore counter at zero and any generator registers, every weakly fair
    execution of @main on the TensorCores terminates, nothing faulting, and in every final state each unscoped buffer of
    each TensorCore holds the last boundary's contents `W8`: the launch theorem over the eight segments, whose thread states
    chain by name, the last one read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- THE FRAME: from any memory with zero counters, every weakly fair execution of @main terminates and every final
    state has the ten argument arrays as launched. Each is an unscoped buffer, read off `run_all` at the last boundary's
    contents, where it holds its launch contents (`W8_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c),
     (h c _ (mem_uc main_arg9 (by decide))).trans (W8_main_arg9 m c)⟩) (run_all m ρ)

/-- The run read at the last region's output array: in every final state `main_v66` holds what region 2's pipeline
    leaves there, its write-backs folded over the contents the region was entered from. -/
theorem run_main_v66 : θ_run defs (onTc (τ := τ) (main (F := F))) ⟨m, fun _ => 0, ρ⟩ (fun r => ∀ c : Dev nD,
      r.2.mem ((c.tc : Thread nD τ).loc main_v66) = (dat2 (V7r m) c).arrAt 4 cfg2.N) :=
  (θ_run _ _ _).mono (fun r h c => (h c _ (mem_uc main_v66 (by decide))).trans (W8_main_v66 m c)) (run_all m ρ)

end Cert.KernelIdeal.Hand

end
-- ==== Proof.Spec.lean ====
/-
  The mathematics of the two programs, over plain finite index types and the extended reals.

  A graph convolution layer sends node features `h : node → feature → EReal` to
  `(A h) W + b`, where `A` is the weighted adjacency operator: node `d` receives, from every edge `e` that lands on it
  (`e ∈ S d`), the source row `h (src e)` scaled by the edge's weight `nrm e`. One program applies `W` to the node
  features first and aggregates the products; the other aggregates the features and applies `W` afterwards. The two
  agree when every number involved is a real: the proof exchanges the two finite sums and moves the factors across
  them, which needs distributivity, and that law fails on the extended reals at the infinities.
-/
import Idealize.ShloMosaic.PureOps.Ideal

noncomputable section

namespace Cert.Spec

open scoped BigOperators

/-- A real number among the extended reals. -/
def IsReal (x : EReal) : Prop := ∃ r : ℝ, x = (r : EReal)

variable {E N D Q : Type} [Fintype E] [Fintype N] [Fintype D] [Fintype Q] [DecidableEq E]

/-- Aggregation over the edges landing on each node: at node `d`, feature `k`, the sum over `e ∈ S d` of
    `nrm e * h (src e) k`. -/
def aggS (S : N → Finset E) (nrm : E → EReal) (src : E → N) (h : N → D → EReal) (d : N) (k : D) : EReal :=
  ∑ e ∈ S d, nrm e * h (src e) k

/-- The linear map on features: at node `d`, output feature `q`, the sum over `k` of `a d k * W k q`. -/
def linS (a : N → D → EReal) (W : D → Q → EReal) (d : N) (q : Q) : EReal :=
  ∑ k, a d k * W k q

/-! ### The reals among the extended reals -/

theorem isReal_coe (r : ℝ) : IsReal (r : EReal) := ⟨r, rfl⟩

theorem isReal_zero : IsReal 0 := ⟨0, EReal.coe_zero.symm⟩

theorem isReal_one : IsReal 1 := ⟨1, EReal.coe_one.symm⟩

/-- A real is neither infinity. -/
theorem IsReal.ne_top {x : EReal} (hx : IsReal x) : x ≠ ⊤ := by
  obtain ⟨r, rfl⟩ := hx; exact EReal.coe_ne_top r

theorem IsReal.ne_bot {x : EReal} (hx : IsReal x) : x ≠ ⊥ := by
  obtain ⟨r, rfl⟩ := hx; exact EReal.coe_ne_bot r

/-- An extended real that is neither infinity is a real. -/
theorem isReal_of_ne {x : EReal} (ht : x ≠ ⊤) (hb : x ≠ ⊥) : IsReal x :=
  ⟨x.toReal, (EReal.coe_toReal ht hb).symm⟩

theorem isReal_iff {x : EReal} : IsReal x ↔ x ≠ ⊤ ∧ x ≠ ⊥ :=
  ⟨fun h => ⟨h.ne_top, h.ne_bot⟩, fun h => isReal_of_ne h.1 h.2⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The larger of two reals is one of them. -/
theorem IsReal.max {x y : EReal} (hx : IsReal x) (hy : IsReal y) : IsReal (max x y) := by
  rcases le_total x y with h | h
  · rw [max_eq_right h]; exact hy
  · rw [max_eq_left h]; exact hx

/-- A finite sum of reals is a real. -/
theorem IsReal.sum {ι : Type*} {f : ι → EReal} (s : Finset ι) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The coercion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-! ### The two results are reals -/

theorem isReal_aggS {S : N → Finset E} {nrm : E → EReal} {src : E → N} {h : N → D → EReal}
    (hn : ∀ e, IsReal (nrm e)) (hh : ∀ i k, IsReal (h i k)) (d : N) (k : D) :
    IsReal (aggS S nrm src h d k) :=
  IsReal.sum _ fun e _ => (hn e).mul (hh (src e) k)

theorem isReal_linS {a : N → D → EReal} {W : D → Q → EReal}
    (ha : ∀ d k, IsReal (a d k)) (hW : ∀ k q, IsReal (W k q)) (d : N) (q : Q) :
    IsReal (linS a W d q) :=
  IsReal.sum _ fun k _ => (ha d k).mul (hW k q)

/-! ### The linear map commutes with aggregation, on reals -/

/-- `(A h) W = A (h W)` when every number is a real: both sides are the double sum over `e ∈ S d` and `k` of
    `nrm e * h (src e) k * W k q`. Distributivity over the two finite sums holds among the reals, so each factor is
    written as the coercion of a real, the coercion is moved outside the sums and products, and what remains is the
    exchange of two finite sums of reals. -/
theorem linS_aggS {S : N → Finset E} {nrm : E → EReal} {src : E → N} {h : N → D → EReal} {W : D → Q → EReal}
    (hn : ∀ e, IsReal (nrm e)) (hh : ∀ i k, IsReal (h i k)) (hW : ∀ k q, IsReal (W k q)) :
    linS (aggS S nrm src h) W = aggS S nrm src (linS h W) := by
  choose n hn' using hn
  choose g hg using hh
  choose w hw using hW
  funext d q
  simp only [linS, aggS, hn', hg, hw, ← EReal.coe_mul, ← coe_sum]
  congr 1
  simp only [Finset.sum_mul, Finset.mul_sum]
  rw [Finset.sum_comm]
  refine Finset.sum_congr rfl fun e _ => Finset.sum_congr rfl fun k _ => ?_
  ring

end Cert.Spec

end
-- ==== Proof.SpecGCN.lean ====
/-
  The whole network over plain finite index types: two graph-convolution layers (the first clipped below at zero), a
  mean over each graph's nodes, and a linear head. `outK` aggregates the features and then applies the weights
  (the order of the kernel program), `outR` applies the weights and then aggregates (the order of the reference);
  `Spec.lean` proves the two layers equal on real inputs, and everything after the second layer is the same function
  of its output on both sides.
-/
import proofs.«428672_j24747601559656_4_alg».proof.Proof.Spec

noncomputable section

namespace Cert.Spec

open scoped BigOperators
open Idealize.ShloMosaic

variable {E N D Q G : Type} [Fintype E] [Fintype N] [Fintype D] [Fintype Q] [Fintype G] [DecidableEq E] [DecidableEq N]

/-- A layer, features aggregated first: `((A h) W) d q + b q`. -/
def layerK (S : N → Finset E) (nrm : E → EReal) (src : E → N) (h : N → D → EReal) (W : D → Q → EReal) (b : Q → EReal)
    (d : N) (q : Q) : EReal :=
  linS (aggS S nrm src h) W d q + b q

/-- A layer, weights applied first: `(A (h W)) d q + b q`. -/
def layerR (S : N → Finset E) (nrm : E → EReal) (src : E → N) (h : N → D → EReal) (W : D → Q → EReal) (b : Q → EReal)
    (d : N) (q : Q) : EReal :=
  aggS S nrm src (linS h W) d q + b q

/-- The mean over each graph's nodes (the divisor never below one) followed by the linear head. -/
def head (B : G → Finset N) (h : N → Q → EReal) (wl : Q → EReal) (bl : EReal) (g : G) : EReal :=
  (∑ q, Ideal.div (∑ i ∈ B g, h i q) (max (∑ i ∈ B g, (1 : EReal)) 1) * wl q) + bl

variable {D2 : Type} [Fintype D2]

/-- The network in the kernel program's order. -/
def outK (S : N → Finset E) (nrm : E → EReal) (src : E → N) (B : G → Finset N) (x : N → D → EReal) (W1 : D → Q → EReal)
    (b1 : Q → EReal) (W2 : Q → D2 → EReal) (b2 : D2 → EReal) (wl : D2 → EReal) (bl : EReal) : G → EReal :=
  head B (layerK S nrm src (fun d q => max (layerK S nrm src x W1 b1 d q) 0) W2 b2) wl bl

/-- The network in the reference's order. -/
def outR (S : N → Finset E) (nrm : E → EReal) (src : E → N) (B : G → Finset N) (x : N → D → EReal) (W1 : D → Q → EReal)
    (b1 : Q → EReal) (W2 : Q → D2 → EReal) (b2 : D2 → EReal) (wl : D2 → EReal) (bl : EReal) : G → EReal :=
  head B (layerR S nrm src (fun d q => max (layerR S nrm src x W1 b1 d q) 0) W2 b2) wl bl

/-! ### The two orders agree on reals -/

/-- One layer: the two orders agree when the edge weights, the features and the weights are reals. -/
theorem layerK_eq_layerR {S : N → Finset E} {nrm : E → EReal} {src : E → N} {h : N → D → EReal} {W : D → Q → EReal}
    (b : Q → EReal) (hn : ∀ e, IsReal (nrm e)) (hh : ∀ i k, IsReal (h i k)) (hW : ∀ k q, IsReal (W k q)) :
    layerK S nrm src h W b = layerR S nrm src h W b := by
  funext d q
  rw [layerK, layerR, linS_aggS hn hh hW]

/-- A layer's output is a real when its inputs and its bias are. -/
theorem isReal_layerR {S : N → Finset E} {nrm : E → EReal} {src : E → N} {h : N → D → EReal} {W : D → Q → EReal}
    {b : Q → EReal} (hn : ∀ e, IsReal (nrm e)) (hh : ∀ i k, IsReal (h i k)) (hW : ∀ k q, IsReal (W k q))
    (hb : ∀ q, IsReal (b q)) (d : N) (q : Q) : IsReal (layerR S nrm src h W b d q) :=
  (isReal_aggS hn (fun i q => isReal_linS hh hW i q) d q).add (hb q)

theorem isReal_layerK {S : N → Finset E} {nrm : E → EReal} {src : E → N} {h : N → D → EReal} {W : D → Q → EReal}
    {b : Q → EReal} (hn : ∀ e, IsReal (nrm e)) (hh : ∀ i k, IsReal (h i k)) (hW : ∀ k q, IsReal (W k q))
    (hb : ∀ q, IsReal (b q)) (d : N) (q : Q) : IsReal (layerK S nrm src h W b d q) :=
  (isReal_linS (fun i k => isReal_aggS hn hh i k) hW d q).add (hb q)

/-- The whole network: the first layers agree on reals; the clipped first layer is again real, so the second layers
    agree; the mean and the head are one function of the second layer's output. -/
theorem outK_eq_outR (S : N → Finset E) (nrm : E → EReal) (src : E → N) (B : G → Finset N) (x : N → D → EReal)
    (W1 : D → Q → EReal) (b1 : Q → EReal) (W2 : Q → D2 → EReal) (b2 : D2 → EReal) (wl : D2 → EReal) (bl : EReal)
    (hn : ∀ e, IsReal (nrm e)) (hx : ∀ i k, IsReal (x i k)) (hW1 : ∀ k q, IsReal (W1 k q)) (hb1 : ∀ q, IsReal (b1 q))
    (hW2 : ∀ k q, IsReal (W2 k q)) :
    outK S nrm src B x W1 b1 W2 b2 wl bl = outR S nrm src B x W1 b1 W2 b2 wl bl := by
  have hclip : ∀ d q, IsReal (max (layerR S nrm src x W1 b1 d q) 0) := fun d q =>
    (isReal_layerR hn hx hW1 hb1 d q).max isReal_zero
  rw [outK, outR, layerK_eq_layerR b1 hn hx hW1, layerK_eq_layerR b2 hn hclip hW2]

end Cert.Spec

end
-- ==== Proof.LibRows.lean ====
/-
  ROW SCATTER-ADD AND ROW GATHER READ AT AN INDEX.

  The host's accumulating scatter of update rows into the rows of an array (what `segment_sum(data, ids)` lowers to) and
  its gather of rows of a table (what `table[ids]` lowers to), at the dimension numbers printed for them, with the
  indices an `[E, 1]` array of signed words. For general sizes `N` (rows of the array or table), `E` (indices) and
  `D` (row width), and for the rank-1 forms (rows that are single elements).

  * the scatter sends update element `(e, k)` to element `(row e, k)` when the index `idx[e, 0]`, read signed, is a row
    `0 ≤ row < N`, and drops it otherwise (`resultIdx?_rows2`, `resultIdx?_rows1`);
  * hence at the ideal instance the scatter-add's element `(r, k)` is the operand's plus the sum of `upd (e, k)` over the
    `e` whose row is `r` (`scatterAdd_rows2_apply`, `scatterAdd_rows1_apply`);
  * the gather's element `(e, k)` is the table's at `(src e, k)`, `src e` the index read signed and clamped into
    `[0, N - 1]` (`gather_rows2_apply`, `gather_rows1_apply`).
-/
import Idealize.ShloMosaic.PureOps.Ideal
import Idealize.ShloMosaic.Lib.ValueIdx
import Idealize.ShloMosaic.Lib.ValueIdxRank1

noncomputable section

open scoped BigOperators

namespace Idealize.ShloMosaic.LibRows

open Idealize.ShloMosaic Idealize.ShloMosaic.ValueIdx

variable {N E D w : Nat}

/-! ## The row an index names -/

/-- The row index `e` names for a scatter: `idx[e, 0]` read as a signed integer when that is a row `0 ≤ · < N`, and
    none otherwise (a scatter drops such an update). -/
def rowOf (idx : IVec ⟨2, ![E, 1]⟩ w) (e : Fin E) : Option (Fin N) :=
  if h : 0 ≤ (idx (ix2 e 0)).toInt ∧ (idx (ix2 e 0)).toInt < N then
    some ⟨(idx (ix2 e 0)).toInt.toNat, by omega⟩
  else none

/-- `rowOf` names row `r` exactly when the signed index is `r`. -/
theorem rowOf_eq_some_iff (idx : IVec ⟨2, ![E, 1]⟩ w) (e : Fin E) (r : Fin N) :
    rowOf idx e = some r ↔ (idx (ix2 e 0)).toInt = (r.val : Int) := by
  unfold rowOf
  constructor
  · intro h
    split at h
    · rename_i hc
      have := congrArg Fin.val (Option.some.inj h)
      simp only at this
      omega
    · exact absurd h (by simp)
  · intro h
    have hr := r.isLt
    rw [dif_pos (by omega)]
    exact congrArg some (Fin.ext (by simp only; omega))

/-- The row index `e` names for a gather: `idx[e, 0]` read as a signed integer and clamped into `[0, N - 1]` (a gather
    clamps its start index so that the slice fits). -/
def srcOf (hN : 0 < N) (idx : IVec ⟨2, ![E, 1]⟩ w) (e : Fin E) : Fin N :=
  ⟨min (idx (ix2 e 0)).toInt.toNat (N - 1), by omega⟩

/-- Where the index is a row, the scatter's row and the gather's row are the same. -/
theorem rowOf_eq_some_srcOf (hN : 0 < N) (idx : IVec ⟨2, ![E, 1]⟩ w) (e : Fin E)
    (h : 0 ≤ (idx (ix2 e 0)).toInt ∧ (idx (ix2 e 0)).toInt < N) : rowOf idx e = some (srcOf hN idx e) := by
  rw [rowOf_eq_some_iff]
  simp only [srcOf]
  omega

/-- The axes of a rank-2 shape. -/
theorem fin2_cases : ∀ a : Fin 2, a = 0 ∨ a = 1 := by decide

/-- Two rank-2 indices are equal exactly when their coordinates are. -/
theorem ix2_eq_ix2_iff {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- Two rank-1 indices are equal exactly when their coordinates are. -/
theorem ix1_eq_ix1_iff {n : Nat} (a a' : Fin n) : ix1 a = ix1 a' ↔ a = a' := by
  constructor
  · intro h
    exact congrFun h 0
  · rintro rfl; rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-! ## The scatter of rows, rank 2: operand `[N, D]`, indices `[E, 1]`, updates `[E, D]` -/

/-- The dimension numbers of a scatter of `E` update rows of width `D` into the rows of an `[N, D]` operand:
    update_window_dims `[1]`, inserted_window_dims `[0]`, scatter_dims_to_operand_dims `[0]`, index_vector_dim 1. -/
abbrev scatterRows2 (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Scatter2
variable (wf : ScatterDims.WF ⟨2, ![N, D]⟩ ⟨2, ![E, 1]⟩ ⟨2, ![E, D]⟩ [1] [0] [0] 1)

/-- Update `(e, k)` reads its scatter index at `[e, 0]`. -/
theorem scatterRows2_siIdx (e : Fin E) (k : Fin D) (c : Fin (scatterRows2 N E D wf).scatterDimsToOperandDims.length) :
    (scatterRows2 N E D wf).siIdx (ix2 e k) c = ix2 e 0 := by
  funext b; refine Fin.ext ?_
  match b with
  | ⟨0, _⟩ => rfl
  | ⟨1, _⟩ => have := c.isLt; simp [ScatterDims.siIdx]

/-- On the row axis the window starts at the signed index … -/
theorem scatterRows2_start0 (idx : IVec ⟨2, ![E, 1]⟩ w) (e : Fin E) (k : Fin D) :
    (scatterRows2 N E D wf).start (ix2 e k) idx 0 = (idx (ix2 e 0)).toInt := by
  unfold ScatterDims.start
  rw [dif_pos (show (0 : Fin 2) ∈ (scatterRows2 N E D wf).scatterDimsToOperandDims from List.mem_singleton.mpr rfl),
    scatterRows2_siIdx]

/-- … and on the column axis at zero. -/
theorem scatterRows2_start1 (idx : IVec ⟨2, ![E, 1]⟩ w) (e : Fin E) (k : Fin D) :
    (scatterRows2 N E D wf).start (ix2 e k) idx 1 = 0 := rfl

/-- The row axis is inserted: no window coordinate there … -/
theorem scatterRows2_window0 (e : Fin E) (k : Fin D) : (scatterRows2 N E D wf).window (ix2 e k) 0 = 0 := rfl

/-- … and the column axis carries the update's column. -/
theorem scatterRows2_window1 (e : Fin E) (k : Fin D) : (scatterRows2 N E D wf).window (ix2 e k) 1 = k.val := rfl

/-- The scatter of rows sends update `(e, k)` to `(row e, k)`, and drops it when the index is not a row. -/
theorem resultIdx?_scatterRows2 (idx : IVec ⟨2, ![E, 1]⟩ w) (e : Fin E) (k : Fin D) :
    (scatterRows2 N E D wf).resultIdx? (ix2 e k) idx = (rowOf idx e).map (fun r => ix2 r k) := by
  have key0 : (scatterRows2 N E D wf).start (ix2 e k) idx 0 + ((scatterRows2 N E D wf).window (ix2 e k) 0 : Int)
      = (idx (ix2 e 0)).toInt := by
    rw [scatterRows2_start0, scatterRows2_window0]; simp
  have key1 : (scatterRows2 N E D wf).start (ix2 e k) idx 1 + ((scatterRows2 N E D wf).window (ix2 e k) 1 : Int)
      = (k.val : Int) := by
    rw [scatterRows2_start1, scatterRows2_window1]; simp
  unfold ScatterDims.resultIdx? rowOf
  by_cases h : 0 ≤ (idx (ix2 e 0)).toInt ∧ (idx (ix2 e 0)).toInt < N
  · have hall : ∀ a, 0 ≤ (scatterRows2 N E D wf).start (ix2 e k) idx a + ((scatterRows2 N E D wf).window (ix2 e k) a : Int) ∧
        (scatterRows2 N E D wf).start (ix2 e k) idx a + ((scatterRows2 N E D wf).window (ix2 e k) a : Int)
          < ((⟨2, ![N, D]⟩ : Shape).size a : Int) := by
      intro a
      rcases fin2_cases a with rfl | rfl
      · rw [key0]; exact h
      · rw [key1]
        have := k.isLt
        refine ⟨by omega, ?_⟩
        show (k.val : Int) < (D : Int)
        omega
    rw [dif_pos hall, dif_pos h]
    simp only [Option.map_some]
    congr 1
    funext a
    rcases fin2_cases a with rfl | rfl
    · refine Fin.ext ?_
      show ((scatterRows2 N E D wf).start (ix2 e k) idx 0 + ((scatterRows2 N E D wf).window (ix2 e k) 0 : Int)).toNat = _
      rw [key0]
    · refine Fin.ext ?_
      show ((scatterRows2 N E D wf).start (ix2 e k) idx 1 + ((scatterRows2 N E D wf).window (ix2 e k) 1 : Int)).toNat = k.val
      rw [key1]; simp
  · have hnall : ¬ ∀ a, 0 ≤ (scatterRows2 N E D wf).start (ix2 e k) idx a + ((scatterRows2 N E D wf).window (ix2 e k) a : Int) ∧
        (scatterRows2 N E D wf).start (ix2 e k) idx a + ((scatterRows2 N E D wf).window (ix2 e k) a : Int)
          < ((⟨2, ![N, D]⟩ : Shape).size a : Int) := by
      intro hall
      have h0 := hall 0
      rw [key0] at h0
      exact h h0
    rw [dif_neg hnall, dif_neg h]
    rfl

/-- The same for any record with those dimension numbers. -/
theorem resultIdx?_rows2 (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1) (idx : IVec ⟨2, ![E, 1]⟩ w) (e : Fin E) (k : Fin D) :
    d.resultIdx? (ix2 e k) idx = (rowOf idx e).map (fun r => ix2 r k) := by
  obtain ⟨uw, iw, sd, iv, wf⟩ := d
  dsimp only at hu hi hs hv
  subst hu hi hs hv
  exact resultIdx?_scatterRows2 wf idx e k

/-- Update `(e, b)` lands on element `(r, k)` exactly when `e`'s row is `r` and `b` is `k`. -/
theorem resultIdx?_rows2_eq_some_iff (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1) (idx : IVec ⟨2, ![E, 1]⟩ w) (e : Fin E) (b k : Fin D) (r : Fin N) :
    d.resultIdx? (ix2 e b) idx = some (ix2 r k) ↔ (rowOf idx e = some r ∧ b = k) := by
  rw [resultIdx?_rows2 d hu hi hs hv]
  rcases hro : rowOf (N := N) idx e with _ | r'
  · simp
  · constructor
    · intro h
      have h' := (ix2_eq_ix2_iff _ _ _ _).mp (Option.some.inj h)
      exact ⟨congrArg some h'.1, h'.2⟩
    · rintro ⟨h1, rfl⟩
      obtain rfl := Option.some.inj h1
      rfl

/-- THE SCATTER-ADD OF ROWS READ AT `(r, k)`, at the ideal instance: the operand's element plus the sum of the updates'
    column-`k` elements over the updates whose index names row `r`. -/
theorem scatterAdd_rows2_apply {φ : FTy} (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1) (x : FVec Ideal ⟨2, ![N, D]⟩ φ) (idx : IVec ⟨2, ![E, 1]⟩ w)
    (upd : FVec Ideal ⟨2, ![E, D]⟩ φ) (r : Fin N) (k : Fin D) :
    Host.scatterAdd (F := Ideal) d x idx upd (ix2 r k)
      = x (ix2 r k) + ∑ e ∈ Finset.univ.filter (fun e => rowOf idx e = some r), upd (ix2 e k) := by
  show Ideal.hostScatterAdd d x idx upd (ix2 r k) = _
  unfold Ideal.hostScatterAdd
  refine congrArg (fun t => x (ix2 r k) + t) ?_
  refine (Finset.sum_filter _ _).trans ?_
  refine Eq.trans ?_ (Finset.sum_filter _ _).symm
  rw [sum_idx2]
  refine Finset.sum_congr rfl fun e _ => ?_
  simp only [resultIdx?_rows2_eq_some_iff d hu hi hs hv]
  by_cases hr : rowOf idx e = some r
  · simp [hr]
  · simp [hr]

end Scatter2

/-! ## The scatter of elements, rank 1: operand `[N]`, indices `[E, 1]`, updates `[E]` -/

/-- The dimension numbers of a scatter of `E` update elements into an `[N]` operand: update_window_dims `[]`,
    inserted_window_dims `[0]`, scatter_dims_to_operand_dims `[0]`, index_vector_dim 1. -/
abbrev scatterRows1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Scatter1
variable (wf : ScatterDims.WF ⟨1, ![N]⟩ ⟨2, ![E, 1]⟩ ⟨1, ![E]⟩ [] [0] [0] 1)

/-- Update `e` reads its scatter index at `[e, 0]`. -/
theorem scatterRows1_siIdx (e : Fin E) (c : Fin (scatterRows1 N E wf).scatterDimsToOperandDims.length) :
    (scatterRows1 N E wf).siIdx (ix1 e) c = ix2 e 0 := by
  funext b; refine Fin.ext ?_
  match b with
  | ⟨0, _⟩ => rfl
  | ⟨1, _⟩ => have := c.isLt; simp [ScatterDims.siIdx]

/-- The window starts at the signed index … -/
theorem scatterRows1_start0 (idx : IVec ⟨2, ![E, 1]⟩ w) (e : Fin E) :
    (scatterRows1 N E wf).start (ix1 e) idx 0 = (idx (ix2 e 0)).toInt := by
  unfold ScatterDims.start
  rw [dif_pos (show (0 : Fin 1) ∈ (scatterRows1 N E wf).scatterDimsToOperandDims from List.mem_singleton.mpr rfl),
    scatterRows1_siIdx]

/-- … and has no window coordinate: the one axis is inserted. -/
theorem scatterRows1_window0 (e : Fin E) : (scatterRows1 N E wf).window (ix1 e) 0 = 0 := rfl

/-- The scatter of elements sends update `e` to element `row e`, and drops it when the index is not in range. -/
theorem resultIdx?_scatterRows1 (idx : IVec ⟨2, ![E, 1]⟩ w) (e : Fin E) :
    (scatterRows1 N E wf).resultIdx? (ix1 e) idx = (rowOf idx e).map ix1 := by
  have key0 : (scatterRows1 N E wf).start (ix1 e) idx 0 + ((scatterRows1 N E wf).window (ix1 e) 0 : Int)
      = (idx (ix2 e 0)).toInt := by
    rw [scatterRows1_start0, scatterRows1_window0]; simp
  unfold ScatterDims.resultIdx? rowOf
  by_cases h : 0 ≤ (idx (ix2 e 0)).toInt ∧ (idx (ix2 e 0)).toInt < N
  · have hall : ∀ a, 0 ≤ (scatterRows1 N E wf).start (ix1 e) idx a + ((scatterRows1 N E wf).window (ix1 e) a : Int) ∧
        (scatterRows1 N E wf).start (ix1 e) idx a + ((scatterRows1 N E wf).window (ix1 e) a : Int)
          < ((⟨1, ![N]⟩ : Shape).size a : Int) := by
      intro a
      obtain rfl : a = 0 := Subsingleton.elim _ _
      rw [key0]; exact h
    rw [dif_pos hall, dif_pos h]
    simp only [Option.map_some]
    congr 1
    funext a
    obtain rfl : a = 0 := Subsingleton.elim _ _
    refine Fin.ext ?_
    show ((scatterRows1 N E wf).start (ix1 e) idx 0 + ((scatterRows1 N E wf).window (ix1 e) 0 : Int)).toNat = _
    rw [key0]
  · have hnall : ¬ ∀ a, 0 ≤ (scatterRows1 N E wf).start (ix1 e) idx a + ((scatterRows1 N E wf).window (ix1 e) a : Int) ∧
        (scatterRows1 N E wf).start (ix1 e) idx a + ((scatterRows1 N E wf).window (ix1 e) a : Int)
          < ((⟨1, ![N]⟩ : Shape).size a : Int) := by
      intro hall
      have h0 := hall 0
      rw [key0] at h0
      exact h h0
    rw [dif_neg hnall, dif_neg h]
    rfl

/-- The same for any record with those dimension numbers. -/
theorem resultIdx?_rows1 (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) (idx : IVec ⟨2, ![E, 1]⟩ w) (e : Fin E) :
    d.resultIdx? (ix1 e) idx = (rowOf idx e).map ix1 := by
  obtain ⟨uw, iw, sd, iv, wf⟩ := d
  dsimp only at hu hi hs hv
  subst hu hi hs hv
  exact resultIdx?_scatterRows1 wf idx e

/-- Update `e` lands on element `r` exactly when its index names `r`. -/
theorem resultIdx?_rows1_eq_some_iff (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) (idx : IVec ⟨2, ![E, 1]⟩ w) (e : Fin E) (r : Fin N) :
    d.resultIdx? (ix1 e) idx = some (ix1 r) ↔ rowOf idx e = some r := by
  rw [resultIdx?_rows1 d hu hi hs hv]
  rcases hro : rowOf (N := N) idx e with _ | r'
  · simp
  · constructor
    · intro h
      exact congrArg some ((ix1_eq_ix1_iff _ _).mp (Option.some.inj h))
    · intro h1
      obtain rfl := Option.some.inj h1
      rfl

/-- THE SCATTER-ADD OF ELEMENTS READ AT `r`, at the ideal instance: the operand's element plus the sum of the updates
    whose index names `r`. -/
theorem scatterAdd_rows1_apply {φ : FTy} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) (x : FVec Ideal ⟨1, ![N]⟩ φ) (idx : IVec ⟨2, ![E, 1]⟩ w)
    (upd : FVec Ideal ⟨1, ![E]⟩ φ) (r : Fin N) :
    Host.scatterAdd (F := Ideal) d x idx upd (ix1 r)
      = x (ix1 r) + ∑ e ∈ Finset.univ.filter (fun e => rowOf idx e = some r), upd (ix1 e) := by
  show Ideal.hostScatterAdd d x idx upd (ix1 r) = _
  unfold Ideal.hostScatterAdd
  refine congrArg (fun t => x (ix1 r) + t) ?_
  refine (Finset.sum_filter _ _).trans ?_
  refine Eq.trans ?_ (Finset.sum_filter _ _).symm
  rw [sum_idx1]
  refine Finset.sum_congr rfl fun e _ => ?_
  simp only [resultIdx?_rows1_eq_some_iff d hu hi hs hv]

end Scatter1

/-! ## The gather of rows, rank 2: table `[N, D]`, indices `[E, 1]`, result `[E, D]` -/

/-- The dimension numbers of a gather of `E` rows of an `[N, D]` table: offset_dims `[1]`, collapsed_slice_dims `[0]`,
    start_index_map `[0]`, index_vector_dim 1, slice_sizes `[1, D]`. -/
abbrev gatherRows2 (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

section Gather2
variable (wf : GatherDims.WF ⟨2, ![N, D]⟩ ⟨2, ![E, 1]⟩ ⟨2, ![E, D]⟩ [1] [0] [] [0] [] 1 ![1, D])

/-- Result element `(e, k)` reads its start index at `[e, 0]`. -/
theorem gatherRows2_siIdx (e : Fin E) (k : Fin D) (c : Fin (gatherRows2 N E D wf).startIndexMap.length) :
    (gatherRows2 N E D wf).siIdx (ix2 e k) c = ix2 e 0 := by
  funext b; refine Fin.ext ?_
  match b with
  | ⟨0, _⟩ => rfl
  | ⟨1, _⟩ => have := c.isLt; simp [GatherDims.siIdx]

/-- On the row axis the slice starts at the signed index clamped into `[0, N - 1]` … -/
theorem gatherRows2_start0 (idx : IVec ⟨2, ![E, 1]⟩ w) (e : Fin E) (k : Fin D) :
    (gatherRows2 N E D wf).start (ix2 e k) idx 0 = min (idx (ix2 e 0)).toInt.toNat (N - 1) := by
  unfold GatherDims.start
  rw [dif_pos (show (0 : Fin 2) ∈ (gatherRows2 N E D wf).startIndexMap from List.mem_singleton.mpr rfl),
    gatherRows2_siIdx]
  rfl

/-- … and on the column axis at zero. -/
theorem gatherRows2_start1 (idx : IVec ⟨2, ![E, 1]⟩ w) (e : Fin E) (k : Fin D) :
    (gatherRows2 N E D wf).start (ix2 e k) idx 1 = 0 := rfl

/-- The row axis is collapsed: no offset coordinate there … -/
theorem gatherRows2_offCoord0 (e : Fin E) (k : Fin D) : (gatherRows2 N E D wf).offCoord (ix2 e k) 0 = 0 := rfl

/-- … and the column axis carries the result's column. -/
theorem gatherRows2_offCoord1 (e : Fin E) (k : Fin D) : (gatherRows2 N E D wf).offCoord (ix2 e k) 1 = k.val := rfl

/-- THE GATHER OF ROWS READ AT `(e, k)`: the table at row `src e`, column `k`. -/
theorem gather_gatherRows2_apply {α : Type} (hN : 0 < N) (x : (⟨2, ![N, D]⟩ : Shape).Idx → α)
    (idx : IVec ⟨2, ![E, 1]⟩ w) (e : Fin E) (k : Fin D) :
    Host.gather (gatherRows2 N E D wf) x idx (ix2 e k) = x (ix2 (srcOf hN idx e) k) := by
  unfold Host.gather
  congr 1
  funext a
  refine Fin.ext ?_
  rcases fin2_cases a with rfl | rfl
  · show (gatherRows2 N E D wf).start (ix2 e k) idx 0 + (gatherRows2 N E D wf).batchCoord (ix2 e k) 0
        + (gatherRows2 N E D wf).offCoord (ix2 e k) 0 = (srcOf hN idx e).val
    rw [GatherDims.batchCoord_eq_zero _ _ _ List.not_mem_nil, gatherRows2_offCoord0, gatherRows2_start0]
    rfl
  · show (gatherRows2 N E D wf).start (ix2 e k) idx 1 + (gatherRows2 N E D wf).batchCoord (ix2 e k) 1
        + (gatherRows2 N E D wf).offCoord (ix2 e k) 1 = k.val
    rw [GatherDims.batchCoord_eq_zero _ _ _ List.not_mem_nil, gatherRows2_offCoord1, gatherRows2_start1]
    simp

/-- The same for any record with those dimension numbers and slice sizes. -/
theorem gather_rows2_apply {α : Type} (hN : 0 < N) (d : GatherDims ⟨2, ![N, D]⟩ ⟨2, ![E, 1]⟩ ⟨2, ![E, D]⟩)
    (ho : d.offsetDims = [1]) (hc : d.collapsedSliceDims = [0]) (hob : d.operandBatchingDims = [])
    (hsb : d.startIndicesBatchingDims = []) (hm : d.startIndexMap = [0]) (hv : d.indexVectorDim = 1)
    (hss : d.sliceSizes = ![1, D]) (x : (⟨2, ![N, D]⟩ : Shape).Idx → α) (idx : IVec ⟨2, ![E, 1]⟩ w) (e : Fin E) (k : Fin D) :
    Host.gather d x idx (ix2 e k) = x (ix2 (srcOf hN idx e) k) := by
  obtain ⟨od, cd, ob, sb, sm, iv, ss, wf⟩ := d
  dsimp only at ho hc hob hsb hm hv hss
  subst ho hc hob hsb hm hv hss
  exact gather_gatherRows2_apply wf hN x idx e k

end Gather2

/-! ## The gather of elements, rank 1: table `[N]`, indices `[E, 1]`, result `[E]` -/

/-- The dimension numbers of a gather of `E` elements of an `[N]` table: offset_dims `[]`, collapsed_slice_dims `[0]`,
    start_index_map `[0]`, index_vector_dim 1, slice_sizes `[1]`. -/
abbrev gatherRows1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

section Gather1
variable (wf : GatherDims.WF ⟨1, ![N]⟩ ⟨2, ![E, 1]⟩ ⟨1, ![E]⟩ [] [0] [] [0] [] 1 ![1])

/-- Result element `e` reads its start index at `[e, 0]`. -/
theorem gatherRows1_siIdx (e : Fin E) (c : Fin (gatherRows1 N E wf).startIndexMap.length) :
    (gatherRows1 N E wf).siIdx (ix1 e) c = ix2 e 0 := by
  funext b; refine Fin.ext ?_
  match b with
  | ⟨0, _⟩ => rfl
  | ⟨1, _⟩ => have := c.isLt; simp [GatherDims.siIdx]

/-- The slice starts at the signed index clamped into `[0, N - 1]`. -/
theorem gatherRows1_start0 (idx : IVec ⟨2, ![E, 1]⟩ w) (e : Fin E) :
    (gatherRows1 N E wf).start (ix1 e) idx 0 = min (idx (ix2 e 0)).toInt.toNat (N - 1) := by
  unfold GatherDims.start
  rw [dif_pos (show (0 : Fin 1) ∈ (gatherRows1 N E wf).startIndexMap from List.mem_singleton.mpr rfl),
    gatherRows1_siIdx]
  rfl

/-- The one axis is collapsed: no offset coordinate. -/
theorem gatherRows1_offCoord0 (e : Fin E) : (gatherRows1 N E wf).offCoord (ix1 e) 0 = 0 := rfl

/-- THE GATHER OF ELEMENTS READ AT `e`: the table at `src e`. -/
theorem gather_gatherRows1_apply {α : Type} (hN : 0 < N) (x : (⟨1, ![N]⟩ : Shape).Idx → α)
    (idx : IVec ⟨2, ![E, 1]⟩ w) (e : Fin E) :
    Host.gather (gatherRows1 N E wf) x idx (ix1 e) = x (ix1 (srcOf hN idx e)) := by
  unfold Host.gather
  congr 1
  funext a
  obtain rfl : a = 0 := Subsingleton.elim _ _
  refine Fin.ext ?_
  show (gatherRows1 N E wf).start (ix1 e) idx 0 + (gatherRows1 N E wf).batchCoord (ix1 e) 0
      + (gatherRows1 N E wf).offCoord (ix1 e) 0 = (srcOf hN idx e).val
  rw [GatherDims.batchCoord_eq_zero _ _ _ List.not_mem_nil, gatherRows1_offCoord0, gatherRows1_start0]
  rfl

/-- The same for any record with those dimension numbers and slice sizes. -/
theorem gather_rows1_apply {α : Type} (hN : 0 < N) (d : GatherDims ⟨1, ![N]⟩ ⟨2, ![E, 1]⟩ ⟨1, ![E]⟩)
    (ho : d.offsetDims = []) (hc : d.collapsedSliceDims = [0]) (hob : d.operandBatchingDims = [])
    (hsb : d.startIndicesBatchingDims = []) (hm : d.startIndexMap = [0]) (hv : d.indexVectorDim = 1)
    (hss : d.sliceSizes = ![1]) (x : (⟨1, ![N]⟩ : Shape).Idx → α) (idx : IVec ⟨2, ![E, 1]⟩ w) (e : Fin E) :
    Host.gather d x idx (ix1 e) = x (ix1 (srcOf hN idx e)) := by
  obtain ⟨od, cd, ob, sb, sm, iv, ss, wf⟩ := d
  dsimp only at ho hc hob hsb hm hv hss
  subst ho hc hob hsb hm hv hss
  exact gather_gatherRows1_apply wf hN x idx e

end Gather1

end Idealize.ShloMosaic.LibRows
-- ==== Proof.Ref.lean ====
/-
  THE REFERENCE PROGRAM'S RESULT IS THE NETWORK OF `SpecGCN.lean`, IN THE REFERENCE'S ORDER.

  The reference applies the weights to the node features and then aggregates along the edges: a layer is
  `h W` (a `dot_general`), a gather of the rows of `h W` at the edges' sources, the product of each gathered row with its
  edge's weight, the scatter-add of those rows at the edges' targets into zeros, and the bias added along the rows. After two
  layers (the first clipped below at zero) it sums the node rows of each graph by a scatter-add at the graph ids, divides by
  the graph's node count (a scatter-add of ones, never taken below one) and applies the linear head.

  Each stage is read here at an index `(row, column)`: the pointwise and layout stages by the generated reading lemmas,
  the gathers and the scatter-adds by the row lemmas of `LibRows.lean`. Composed, the result at graph `g` is
  `Cert.Spec.outR` of: the edges landing on each node, the edges' weights, the edges' sources, the nodes of each graph,
  and the argument arrays read as functions of their coordinates.
-/
import proofs.«428672_j24747601559656_4_alg».proof.Proof.Gen.ReferenceIdeal.Run
import proofs.«428672_j24747601559656_4_alg».proof.Proof.Gen.ReferenceIdeal.Read
import proofs.«428672_j24747601559656_4_alg».proof.Proof.SpecGCN
import proofs.«428672_j24747601559656_4_alg».proof.Proof.LibRows
import Idealize.ShloMosaic.Lib.IdealHost

noncomputable section

open scoped BigOperators

namespace Cert.RefV

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Idealize.ShloMosaic.LibRows

/-! ## The argument arrays, at the ideal instance -/

abbrev A0 : Type := FVec Ideal S50000x128 .f32
abbrev A1 : Type := IVec S2x1600000 32
abbrev A2 : Type := FVec Ideal S1600000 .f32
abbrev A3 : Type := IVec S50000 32
abbrev A4 : Type := FVec Ideal S128x64 .f32
abbrev A5 : Type := FVec Ideal S64 .f32
abbrev A6 : Type := FVec Ideal S64x64 .f32
abbrev A7 : Type := FVec Ideal S64 .f32
abbrev A8 : Type := FVec Ideal S64x1 .f32
abbrev A9 : Type := FVec Ideal S1 .f32

/-! ## Broadcasts read at coordinates -/

/-- An `[E]` array broadcast to a column `[E, 1]` and then along the rows to `[E, 64]`, read at `(e, q)`: its element `e`. -/
theorem bcastCol_apply {α : Type} (y : S1650000.Idx → α) (e : Fin 1650000) (q : Fin 64) :
    broadcastInDim S1650000x64 ![0, 1] bcast_S1650000x1_S1650000x64_0_1
      (broadcastInDim S1650000x1 ![0] bcast_S1650000_S1650000x1_0 y) (ix2 e q) = y (ix1 e) := by
  rw [broadcastInDim_apply _ bcast_S1650000x1_S1650000x64_0_1 _ (ix2 e q) (ix2 e 0) (fun a => match a with
      | ⟨0, _⟩ => by show e.val = if (1650000 : Nat) = 1 then 0 else e.val; rw [if_neg (by decide)]
      | ⟨1, _⟩ => by show 0 = if (1 : Nat) = 1 then 0 else q.val; rw [if_pos rfl]),
    broadcastInDim_apply _ bcast_S1650000_S1650000x1_0 y (ix2 e 0) (ix1 e) (fun a => match a with
      | ⟨0, _⟩ => by show e.val = if (1650000 : Nat) = 1 then 0 else e.val; rw [if_neg (by decide)])]

/-- A `[64]` array broadcast to a row `[1, 64]` and then down the columns to `[50000, 64]`, read at `(d, q)`: its element `q`. -/
theorem bcastRow_apply {α : Type} (b : S64.Idx → α) (d : Fin 50000) (q : Fin 64) :
    broadcastInDim S50000x64 ![0, 1] bcast_S1x64_S50000x64_0_1
      (broadcastInDim S1x64 ![1] bcast_S64_S1x64_1 b) (ix2 d q) = b (ix1 q) := by
  rw [broadcastInDim_apply _ bcast_S1x64_S50000x64_0_1 _ (ix2 d q) (ix2 0 q) (fun a => match a with
      | ⟨0, _⟩ => by show 0 = if (1 : Nat) = 1 then 0 else d.val; rw [if_pos rfl]
      | ⟨1, _⟩ => by show q.val = if (64 : Nat) = 1 then 0 else q.val; rw [if_neg (by decide)]),
    broadcastInDim_apply _ bcast_S64_S1x64_1 b (ix2 0 q) (ix1 q) (fun a => match a with
      | ⟨0, _⟩ => by show q.val = if (64 : Nat) = 1 then 0 else q.val; rw [if_neg (by decide)])]

/-- The zero constant broadcast to any shape is zero everywhere. -/
theorem zeros_apply {t : Shape} (dims : Fin S_.rank → Fin t.rank) (h : S_.BroadcastsInDim t dims) (i : t.Idx) :
    broadcastInDim t dims h (constant (F := Ideal) S_ .f32 0x00000000#32) i = 0 := by
  show Ideal.ofBits .f32 0x00000000#32 = 0
  exact Ideal.ofBits_zero_f32

/-- The constant one broadcast to any shape is one everywhere. -/
theorem ones_apply {t : Shape} (dims : Fin S_.rank → Fin t.rank) (h : S_.BroadcastsInDim t dims) (i : t.Idx) :
    broadcastInDim t dims h (constant (F := Ideal) S_ .f32 0x3F800000#32) i = 1 := by
  show Ideal.ofBits .f32 0x3F800000#32 = 1
  exact Ideal.ofBits_one_f32

/-! ## One layer's aggregation: gather the rows at the sources, scale by the edge weights, scatter-add at the targets -/

/-- The edges whose target index names node `d`. -/
def landing (dst : IVec S1650000x1 32) (d : Fin 50000) : Finset (Fin 1650000) :=
  Finset.univ.filter fun e : Fin 1650000 => rowOf dst e = some d

/-- The node an edge's source index names (clamped into the node range, as a gather clamps). -/
def source (src : IVec S1650000x1 32) (e : Fin 1650000) : Fin 50000 :=
  srcOf (by decide) src e

/-- The rows of `lin` gathered at the sources, each scaled by its edge's weight, scatter-added at the targets into an
    array that is zero: at `(d, q)` the sum over the edges landing on `d` of the weight times `lin` at the edge's source,
    which is `Cert.Spec.aggS`. Generic in the two index arrays, the weights and the table, so that both layers use it. -/
theorem conv_apply (dst src : IVec S1650000x1 32) (nrm : FVec Ideal S1650000 .f32) (lin z : FVec Ideal S50000x64 .f32)
    (hz : ∀ i, z i = 0) (d : Fin 50000) (q : Fin 64) :
    Host.scatterAdd (F := Ideal) scatter_S50000x64_S1650000x1_S1650000x64_1_0_0_1 z dst
      (mulf (broadcastInDim S1650000x64 ![0, 1] bcast_S1650000x1_S1650000x64_0_1
              (broadcastInDim S1650000x1 ![0] bcast_S1650000_S1650000x1_0 nrm))
            (Host.gather gather_S50000x64_S1650000x1_S1650000x64_1_0_n_n_0_1_164 lin src)) (ix2 d q)
    = Cert.Spec.aggS (landing dst) (fun e => nrm (ix1 e)) (source src) (fun n k => lin (ix2 n k)) d q := by
  rw [scatterAdd_rows2_apply scatter_S50000x64_S1650000x1_S1650000x64_1_0_0_1 rfl rfl rfl rfl, hz, zero_add]
  unfold Cert.Spec.aggS landing source
  refine Finset.sum_congr rfl fun e _ => ?_
  rw [mulf_apply, bcastCol_apply,
    gather_rows2_apply (by decide) gather_S50000x64_S1650000x1_S1650000x64_1_0_n_n_0_1_164 rfl rfl rfl rfl rfl rfl rfl]

/-! ## The dense stages -/

/-- `x W1` at `(d, q)`. -/
theorem v34_apply (a0 : A0) (a4 : A4) (d : Fin 50000) (q : Fin 64) :
    val_main_v34 (F := Ideal) a0 a4 (ix2 d q)
      = Cert.Spec.linS (fun n k => a0 (ix2 n k)) (fun (k : Fin 128) (p : Fin 64) => a4 (ix2 k p)) d q := by
  have el : ∀ k : Fin 128, lidx_main_v34 (ix2 d q) k = ix2 d k := fun k =>
    funext fun a => Fin.ext (by match a with | ⟨0, _⟩ => rfl | ⟨1, _⟩ => rfl)
  have er : ∀ k : Fin 128, ridx_main_v34 (ix2 d q) k = ix2 k q := fun k =>
    funext fun a => Fin.ext (by match a with | ⟨0, _⟩ => rfl | ⟨1, _⟩ => rfl)
  rw [val_main_v34_apply]
  simp only [el, er]
  rfl

/-! ## The argument arrays as functions of their coordinates -/

/-- Node features. -/
abbrev xF (a0 : A0) : Fin 50000 → Fin 128 → EReal := fun n k => a0 (ix2 n k)
/-- First layer's weights and bias. -/
abbrev w1F (a4 : A4) : Fin 128 → Fin 64 → EReal := fun k q => a4 (ix2 k q)
abbrev b1F (a5 : A5) : Fin 64 → EReal := fun q => a5 (ix1 q)
/-- Second layer's weights and bias. -/
abbrev w2F (a6 : A6) : Fin 64 → Fin 64 → EReal := fun k q => a6 (ix2 k q)
abbrev b2F (a7 : A7) : Fin 64 → EReal := fun q => a7 (ix1 q)
/-- The head's weights and bias. -/
abbrev wlF (a8 : A8) : Fin 64 → EReal := fun q => a8 (ix2 q 0)
abbrev blF (a9 : A9) : EReal := a9 (ix1 0)

/-! ## The first layer -/

section Layers
variable (a0 : A0) (a1 : A1) (a2 : A2) (a3 : A3) (a4 : A4) (a5 : A5) (a6 : A6) (a7 : A7) (a8 : A8) (a9 : A9)

/-- The edges landing on each node, by the target index array the reference scatters at. -/
abbrev landS : Fin 50000 → Finset (Fin 1650000) := landing (val_main_v46 (F := Ideal) a1)
/-- The edges' sources, by the source index array the reference gathers at. -/
abbrev srcE : Fin 1650000 → Fin 50000 := source (val_main_v41 (F := Ideal) a1)
/-- The edges' weights, as the reference computes them. -/
abbrev nrmE : Fin 1650000 → EReal := fun e => val_main_v33 (F := Ideal) a1 a2 (ix1 e)

/-- The first layer's zeros are zero. -/
theorem v45_zero (i : S50000x64.Idx) : val_main_v45 (F := Ideal) i = 0 := by
  unfold val_main_v45 val_main_cst_9
  exact zeros_apply _ _ i

/-- The first layer's aggregation at `(d, q)`. -/
theorem v47_apply (d : Fin 50000) (q : Fin 64) :
    val_main_v47 (F := Ideal) a0 a1 a2 a4 (ix2 d q)
      = Cert.Spec.aggS (landS a1) (nrmE a1 a2) (srcE a1) (Cert.Spec.linS (xF a0) (w1F a4)) d q := by
  unfold val_main_v47 val_main_v44 val_main_v43 val_main_v35 val_main_v42
  rw [conv_apply _ _ _ _ _ v45_zero,
    show (fun n k => val_main_v34 (F := Ideal) a0 a4 (ix2 n k)) = Cert.Spec.linS (xF a0) (w1F a4) from
      funext fun n => funext fun k => v34_apply a0 a4 n k]

/-- The first layer before the clip at `(d, q)`. -/
theorem v50_apply (d : Fin 50000) (q : Fin 64) :
    val_main_v50 (F := Ideal) a0 a1 a2 a4 a5 (ix2 d q)
      = Cert.Spec.layerR (landS a1) (nrmE a1 a2) (srcE a1) (xF a0) (w1F a4) (b1F a5) d q := by
  unfold val_main_v50 val_main_v49 val_main_v48
  rw [addf_apply, v47_apply, bcastRow_apply]
  rfl

/-- The first layer's output: clipped below at zero. -/
abbrev h1F : Fin 50000 → Fin 64 → EReal := fun d q =>
  max (Cert.Spec.layerR (landS a1) (nrmE a1 a2) (srcE a1) (xF a0) (w1F a4) (b1F a5) d q) 0

theorem v51_apply (d : Fin 50000) (q : Fin 64) :
    val_main_v51 (F := Ideal) a0 a1 a2 a4 a5 (ix2 d q) = h1F a0 a1 a2 a4 a5 d q := by
  unfold val_main_v51 val_main_call1_v0 val_main_call1_cst
  rw [maximumf_apply, v50_apply, zeros_apply]

/-! ## The second layer -/

/-- `h1 W2` at `(d, q)`. -/
theorem v52_apply (d : Fin 50000) (q : Fin 64) :
    val_main_v52 (F := Ideal) a0 a1 a2 a4 a5 a6 (ix2 d q)
      = Cert.Spec.linS (h1F a0 a1 a2 a4 a5) (w2F a6) d q := by
  have el : ∀ k : Fin 64, lidx_main_v52 (ix2 d q) k = ix2 d k := fun k =>
    funext fun a => Fin.ext (by match a with | ⟨0, _⟩ => rfl | ⟨1, _⟩ => rfl)
  have er : ∀ k : Fin 64, ridx_main_v52 (ix2 d q) k = ix2 k q := fun k =>
    funext fun a => Fin.ext (by match a with | ⟨0, _⟩ => rfl | ⟨1, _⟩ => rfl)
  rw [val_main_v52_apply]
  simp only [el, er, v51_apply]
  rfl

/-- The second layer scatters at the same target indices and gathers at the same source indices as the first. -/
theorem v64_eq : val_main_v64 (F := Ideal) a1 = val_main_v46 (F := Ideal) a1 := rfl
theorem v59_eq : val_main_v59 (F := Ideal) a1 = val_main_v41 (F := Ideal) a1 := rfl

theorem v63_zero (i : S50000x64.Idx) : val_main_v63 (F := Ideal) i = 0 := by
  unfold val_main_v63 val_main_cst_12
  exact zeros_apply _ _ i

/-- The second layer's aggregation at `(d, q)`. -/
theorem v65_apply (d : Fin 50000) (q : Fin 64) :
    val_main_v65 (F := Ideal) a0 a1 a2 a4 a5 a6 (ix2 d q)
      = Cert.Spec.aggS (landS a1) (nrmE a1 a2) (srcE a1) (Cert.Spec.linS (h1F a0 a1 a2 a4 a5) (w2F a6)) d q := by
  unfold val_main_v65 val_main_v62 val_main_v61 val_main_v53 val_main_v60
  rw [conv_apply _ _ _ _ _ v63_zero, v64_eq, v59_eq,
    show (fun n k => val_main_v52 (F := Ideal) a0 a1 a2 a4 a5 a6 (ix2 n k))
        = Cert.Spec.linS (h1F a0 a1 a2 a4 a5) (w2F a6) from
      funext fun n => funext fun k => v52_apply a0 a1 a2 a4 a5 a6 n k]

/-- The second layer's output. -/
abbrev h2F : Fin 50000 → Fin 64 → EReal :=
  Cert.Spec.layerR (landS a1) (nrmE a1 a2) (srcE a1) (h1F a0 a1 a2 a4 a5) (w2F a6) (b2F a7)

theorem v68_apply (d : Fin 50000) (q : Fin 64) :
    val_main_v68 (F := Ideal) a0 a1 a2 a4 a5 a6 a7 (ix2 d q) = h2F a0 a1 a2 a4 a5 a6 a7 d q := by
  unfold val_main_v68 val_main_v67 val_main_v66
  rw [addf_apply, v65_apply, bcastRow_apply]
  rfl

end Layers

/-! ## The mean over each graph's nodes and the head -/

/-- The nodes whose graph id names graph `g`. -/
def members (gid : IVec S50000x1 32) (g : Fin 512) : Finset (Fin 50000) :=
  Finset.univ.filter fun i : Fin 50000 => rowOf gid i = some g

/-- A `[512]` array broadcast to a column `[512, 1]` and then along the rows to `[512, 64]`, read at `(g, q)`: its element `g`. -/
theorem bcastCol512_apply {α : Type} (y : S512.Idx → α) (g : Fin 512) (q : Fin 64) :
    broadcastInDim S512x64 ![0, 1] bcast_S512x1_S512x64_0_1
      (broadcastInDim S512x1 ![0] bcast_S512_S512x1_0 y) (ix2 g q) = y (ix1 g) := by
  rw [broadcastInDim_apply _ bcast_S512x1_S512x64_0_1 _ (ix2 g q) (ix2 g 0) (fun a => match a with
      | ⟨0, _⟩ => by show g.val = if (512 : Nat) = 1 then 0 else g.val; rw [if_neg (by decide)]
      | ⟨1, _⟩ => by show 0 = if (1 : Nat) = 1 then 0 else q.val; rw [if_pos rfl]),
    broadcastInDim_apply _ bcast_S512_S512x1_0 y (ix2 g 0) (ix1 g) (fun a => match a with
      | ⟨0, _⟩ => by show g.val = if (512 : Nat) = 1 then 0 else g.val; rw [if_neg (by decide)])]

section Pool
variable (a0 : A0) (a1 : A1) (a2 : A2) (a3 : A3) (a4 : A4) (a5 : A5) (a6 : A6) (a7 : A7) (a8 : A8) (a9 : A9)

/-- The nodes of each graph, by the graph-id index array the reference scatters at. -/
abbrev memB : Fin 512 → Finset (Fin 50000) := members (val_main_v74 (F := Ideal) a3)

/-- The counts and the sums scatter at the same graph ids. -/
theorem v71_eq : val_main_v71 (F := Ideal) a3 = val_main_v74 (F := Ideal) a3 := rfl

/-- The node count of graph `g`: a one for each of its nodes. -/
theorem v72_apply (g : Fin 512) :
    val_main_v72 (F := Ideal) a3 (ix1 g) = ∑ i ∈ memB a3 g, (1 : EReal) := by
  unfold val_main_v72 val_main_v70 val_main_cst_14 val_main_v69 val_main_cst_13
  rw [scatterAdd_rows1_apply scatter_S512_S50000x1_S50000_n_0_0_1 rfl rfl rfl rfl, zeros_apply, zero_add, v71_eq]
  exact Finset.sum_congr rfl fun i _ => ones_apply _ _ _

/-- The sum of the second layer's rows over the nodes of graph `g`, at column `q`. -/
theorem v75_apply (g : Fin 512) (q : Fin 64) :
    val_main_v75 (F := Ideal) a0 a1 a2 a3 a4 a5 a6 a7 (ix2 g q)
      = ∑ i ∈ memB a3 g, h2F a0 a1 a2 a4 a5 a6 a7 i q := by
  unfold val_main_v75 val_main_v73 val_main_cst_15
  rw [scatterAdd_rows2_apply scatter_S512x64_S50000x1_S50000x64_1_0_0_1 rfl rfl rfl rfl, zeros_apply, zero_add]
  exact Finset.sum_congr rfl fun i _ => v68_apply a0 a1 a2 a4 a5 a6 a7 i q

/-- The mean at `(g, q)`: the sum divided by the count, the count never below one. -/
theorem v80_apply (g : Fin 512) (q : Fin 64) :
    val_main_v80 (F := Ideal) a0 a1 a2 a3 a4 a5 a6 a7 (ix2 g q)
      = Ideal.div (∑ i ∈ memB a3 g, h2F a0 a1 a2 a4 a5 a6 a7 i q) (max (∑ i ∈ memB a3 g, (1 : EReal)) 1) := by
  unfold val_main_v80 val_main_v79 val_main_v78 val_main_v77 val_main_v76 val_main_cst_16
  rw [hostDivf_apply, v75_apply, bcastCol512_apply, maximumf_apply, v72_apply, ones_apply]

/-- The head's bias at `(g, 0)`. -/
theorem v83_apply (g : Fin 512) : val_main_v83 (F := Ideal) a9 (ix2 g 0) = blF a9 := by
  rw [val_main_v83_apply, val_main_v82_apply]
  exact congrArg a9 (funext fun a => Fin.ext (by match a with | ⟨0, _⟩ => rfl))

/-- THE REFERENCE'S RESULT AT GRAPH `g`: the network in the reference's order. -/
theorem v84_apply (g : Fin 512) :
    val_main_v84 (F := Ideal) a0 a1 a2 a3 a4 a5 a6 a7 a8 a9 (ix2 g 0)
      = Cert.Spec.outR (landS a1) (nrmE a1 a2) (srcE a1) (memB a3) (xF a0) (w1F a4) (b1F a5) (w2F a6) (b2F a7)
          (wlF a8) (blF a9) g := by
  have el : ∀ k : Fin 64, lidx_main_v81 (ix2 g 0) k = ix2 g k := fun k =>
    funext fun a => Fin.ext (by match a with | ⟨0, _⟩ => rfl | ⟨1, _⟩ => rfl)
  have er : ∀ k : Fin 64, ridx_main_v81 (ix2 g 0) k = ix2 k 0 := fun k =>
    funext fun a => Fin.ext (by match a with | ⟨0, _⟩ => rfl | ⟨1, _⟩ => rfl)
  rw [val_main_v84_apply, val_main_v81_apply, v83_apply, Ideal.addf_def]
  simp only [el, er, v80_apply]
  rfl

end Pool

/-! ## The whole result array, and the run -/

section Run
variable (a0 : A0) (a1 : A1) (a2 : A2) (a3 : A3) (a4 : A4) (a5 : A5) (a6 : A6) (a7 : A7) (a8 : A8) (a9 : A9)

/-- The reference's result as a function of the argument arrays: at `(g, 0)` the network's output for graph `g`. -/
def outV : FVec Ideal S512x1 .f32 := fun i =>
  Cert.Spec.outR (landS a1) (nrmE a1 a2) (srcE a1) (memB a3) (xF a0) (w1F a4) (b1F a5) (w2F a6) (b2F a7)
    (wlF a8) (blF a9) (i 0)

/-- The last stage is that function. -/
theorem v84_eq_outV :
    val_main_v84 (F := Ideal) a0 a1 a2 a3 a4 a5 a6 a7 a8 a9 = outV a0 a1 a2 a3 a4 a5 a6 a7 a8 a9 := by
  funext i
  obtain ⟨g, z, rfl⟩ : ∃ (g : Fin 512) (z : Fin 1), i = ix2 g z := ⟨i 0, i 1, eq_ix2 i⟩
  obtain rfl : z = 0 := Subsingleton.elim _ _
  exact v84_apply a0 a1 a2 a3 a4 a5 a6 a7 a8 a9 g

end Run

/-- The run's result term at `(g, 0)`: the network's output for graph `g`, of the launch contents of the arguments. -/
theorem ref_value (m : (ℓ : Loc nD τ sig) → Buf (Elt Ideal) ℓ) (c : Dev nD) (g : Fin 512) :
    Cert.ReferenceIdeal.Value.res_main_v84 (F := Ideal) m c (ix2 g 0)
      = Cert.Spec.outR (landS (m ((c.tc : Thread nD τ).loc main_arg1)))
          (nrmE (m ((c.tc : Thread nD τ).loc main_arg1)) (m ((c.tc : Thread nD τ).loc main_arg2)))
          (srcE (m ((c.tc : Thread nD τ).loc main_arg1)))
          (memB (m ((c.tc : Thread nD τ).loc main_arg3)))
          (xF (m ((c.tc : Thread nD τ).loc main_arg0)))
          (w1F (m ((c.tc : Thread nD τ).loc main_arg4))) (b1F (m ((c.tc : Thread nD τ).loc main_arg5)))
          (w2F (m ((c.tc : Thread nD τ).loc main_arg6))) (b2F (m ((c.tc : Thread nD τ).loc main_arg7)))
          (wlF (m ((c.tc : Thread nD τ).loc main_arg8))) (blF (m ((c.tc : Thread nD τ).loc main_arg9))) g := by
  rw [val_main_v84_eq]
  exact v84_apply _ _ _ _ _ _ _ _ _ _ g

/-- EVERY WEAKLY FAIR EXECUTION OF THE REFERENCE TERMINATES WITH ITS RESULT THE NETWORK'S OUTPUT of the arguments' launch
    contents, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v84)
        = outV (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono
    (fun _ h c => ⟨(h c).1.trans ((val_main_v84_eq m c).trans (v84_eq_outV _ _ _ _ _ _ _ _ _ _)), (h c).2⟩)
    (Cert.ReferenceIdeal.Value.run (F := Ideal) m ρ)

end Cert.RefV

end
-- ==== Proof.Chain.lean ====
/-
  THE EDGE NORMALISATION BOTH PROGRAMS BEGIN WITH, as terms of the operations (that every entry of it is a real number
  when every edge weight is, is proved in the module after this one).

  From the edge list (two rows of node numbers) and the edge weights the programs compute the symmetric normalisation of
  a graph convolution: the source and destination rows each with one self-loop per node appended; the weights with a one
  appended per self-loop; the weighted in-degree of each node, as an accumulating scatter of the weights at the
  destinations; the scale of a node, the reciprocal square root of its degree where that is above zero and zero
  elsewhere; and for each edge the product of the scale at its source, its weight and the scale at its destination.

  Each definition below is ONE operation over the definitions before it, spelt as the printed program spells it, so
  that the programs' own terms are these by unfolding names only.
-/
import proofs.«428672_j24747601559656_4_alg».proof.ReferenceIdeal
import Idealize.ShloMosaic.PureOps.Ideal
import Idealize.ShloMosaic.Lib.ValueIdx
import Idealize.ShloMosaic.Lib.IdealHost
import Idealize.ShloMosaic.Lib.Pipeline.Value

noncomputable section

open scoped BigOperators

namespace Cert.Chain

open Cert.ReferenceIdeal Cert.ReferenceIdeal.Facts₀
open Idealize.ShloMosaic Idealize.ShloMosaic.ValueIdx

variable [Facts₀]

/-! ## The terms -/

/-- Row 0 of the edge list, as a one-row array. -/
def slice0 (ei : IVec S2x1600000 32) : IVec S1x1600000 32 :=
  extractStridedSlice S1x1600000 ![0, 0] ei slices_S2x1600000_S1x1600000_0_0

/-- Row 1 of the edge list, as a one-row array. -/
def slice1 (ei : IVec S2x1600000 32) : IVec S1x1600000 32 :=
  extractStridedSlice S1x1600000 ![1, 0] ei slices_S2x1600000_S1x1600000_1_0

/-- The sources of the given edges. -/
def row0 (ei : IVec S2x1600000 32) : IVec S1600000 32 :=
  shapeCast S1600000 (slice0 ei) shapeCasts_S1x1600000_S1600000

/-- The destinations of the given edges. -/
def row1 (ei : IVec S2x1600000 32) : IVec S1600000 32 :=
  shapeCast S1600000 (slice1 ei) shapeCasts_S1x1600000_S1600000

/-- The node numbers in order: both ends of the self-loops. -/
def loops : IVec S50000 32 := iotaInDim S50000 32 0

/-- The sources of all edges, the self-loops after the given ones. -/
def src (ei : IVec S2x1600000 32) : IVec S1650000 32 :=
  concatenate S1650000 0 [⟨S1600000, row0 ei⟩, ⟨S50000, loops⟩] concatenates_S1600000_S50000_S1650000_d0

/-- The destinations of all edges, the self-loops after the given ones. -/
def dst (ei : IVec S2x1600000 32) : IVec S1650000 32 :=
  concatenate S1650000 0 [⟨S1600000, row1 ei⟩, ⟨S50000, loops⟩] concatenates_S1600000_S50000_S1650000_d0

/-- The constant one. -/
def oneS : FVec Ideal S_ .f32 := constant S_ .f32 0x3F800000#32

/-- The weight of every self-loop: one. -/
def ones : FVec Ideal S50000 .f32 := broadcastInDim S50000 ![] bcast_S_S50000 oneS

/-- The weights of all edges, the self-loops' after the given ones. -/
def wgt (ea : FVec Ideal S1600000 .f32) : FVec Ideal S1650000 .f32 :=
  concatenate S1650000 0 [⟨S1600000, ea⟩, ⟨S50000, ones⟩] concatenates_S1600000_S50000_S1650000_d0

/-- The constant zero. -/
def zeroS : FVec Ideal S_ .f32 := constant S_ .f32 0x00000000#32

/-- Zero at every node: what the degrees accumulate into, and what they are compared with. -/
def zeros : FVec Ideal S50000 .f32 := broadcastInDim S50000 ![] bcast_S_S50000 zeroS

/-- The scatter index of every accumulation over the edges: the destinations, one index vector of length one per edge. -/
def dstIdx (ei : IVec S2x1600000 32) : IVec S1650000x1 32 :=
  broadcastInDim S1650000x1 ![0] bcast_S1650000_S1650000x1_0 (dst ei)

/-- The weighted in-degree of every node. -/
def deg (ei : IVec S2x1600000 32) (ea : FVec Ideal S1600000 .f32) : FVec Ideal S50000 .f32 :=
  Host.scatterAdd scatter_S50000_S1650000x1_S1650000_n_0_0_1 zeros (dstIdx ei) (wgt ea)

/-- Where the degree is above zero. -/
def degPos (ei : IVec S2x1600000 32) (ea : FVec Ideal S1600000 .f32) : IVec S50000 1 :=
  cmpf .ogt (deg ei ea) zeros

/-- The small constant the degree is kept above. -/
def epsS : FVec Ideal S_ .f32 := constant S_ .f32 0x2B8CBCCC#32

/-- That constant at every node. -/
def epss : FVec Ideal S50000 .f32 := broadcastInDim S50000 ![] bcast_S_S50000 epsS

/-- The degree kept above the small constant. -/
def degClamp (ei : IVec S2x1600000 32) (ea : FVec Ideal S1600000 .f32) : FVec Ideal S50000 .f32 :=
  maximumf (deg ei ea) epss

/-- Its reciprocal square root. -/
def degRsqrt (ei : IVec S2x1600000 32) (ea : FVec Ideal S1600000 .f32) : FVec Ideal S50000 .f32 :=
  Host.rsqrt (degClamp ei ea)

/-- The zero the selection answers where the degree is not above zero, as the outlined selection spells it. -/
def elseS : FVec Ideal S_ .f32 := id zeroS

/-- That zero at every node. -/
def elses : FVec Ideal S50000 .f32 := broadcastInDim S50000 ![] bcast_S_S50000 elseS

/-- The scale of every node: the reciprocal square root of its degree where that is above zero, zero elsewhere. -/
def dis (ei : IVec S2x1600000 32) (ea : FVec Ideal S1600000 .f32) : FVec Ideal S50000 .f32 :=
  select (degPos ei ea) (degRsqrt ei ea) elses

/-- The integer zero at every edge. -/
def zerosI : IVec S1650000 32 := broadcastInDim S1650000 ![] bcast_S_S1650000 (constantI S_ 32 0#32)

/-- The number of nodes at every edge. -/
def countsI : IVec S1650000 32 := broadcastInDim S1650000 ![] bcast_S_S1650000 (constantI S_ 32 50000#32)

/-- Where a node number is below zero. -/
def isNeg (v : IVec S1650000 32) : IVec S1650000 1 := cmpi .slt v zerosI

/-- A node number with the number of nodes added. -/
def shifted (v : IVec S1650000 32) : IVec S1650000 32 := addi v countsI

/-- A node number counted from the end when it is below zero. -/
def wrapped (v : IVec S1650000 32) : IVec S1650000 32 := select (isNeg v) (shifted v) v

/-- The gather index at the sources: one index vector of length one per edge. -/
def srcIdxN (ei : IVec S2x1600000 32) : IVec S1650000x1 32 :=
  broadcastInDim S1650000x1 ![0] bcast_S1650000_S1650000x1_0 (wrapped (src ei))

/-- The gather index at the destinations. -/
def dstIdxN (ei : IVec S2x1600000 32) : IVec S1650000x1 32 :=
  broadcastInDim S1650000x1 ![0] bcast_S1650000_S1650000x1_0 (wrapped (dst ei))

/-- The scale at the source of every edge. -/
def disSrc (ei : IVec S2x1600000 32) (ea : FVec Ideal S1600000 .f32) : FVec Ideal S1650000 .f32 :=
  Host.gather gather_S50000_S1650000x1_S1650000_n_0_n_n_0_1_1 (dis ei ea) (srcIdxN ei)

/-- That scale times the weight. -/
def nrmHalf (ei : IVec S2x1600000 32) (ea : FVec Ideal S1600000 .f32) : FVec Ideal S1650000 .f32 :=
  mulf (disSrc ei ea) (wgt ea)

/-- The scale at the destination of every edge. -/
def disDst (ei : IVec S2x1600000 32) (ea : FVec Ideal S1600000 .f32) : FVec Ideal S1650000 .f32 :=
  Host.gather gather_S50000_S1650000x1_S1650000_n_0_n_n_0_1_1 (dis ei ea) (dstIdxN ei)

/-- The normalised weight of every edge: scale at the source, times weight, times scale at the destination. -/
def nrm (ei : IVec S2x1600000 32) (ea : FVec Ideal S1600000 .f32) : FVec Ideal S1650000 .f32 :=
  mulf (nrmHalf ei ea) (disDst ei ea)

end Cert.Chain

end
-- ==== Proof.RefChain.lean ====
/-
  THE REFERENCE'S RESULT OVER THE EDGE CHAIN'S OWN NAMES.

  The index arrays the reference scatters and gathers at, and the edge weights it multiplies by, are the terms
  `Chain.lean` names: both are the same operations of the edge list and the given weights, so the equations hold by
  unfolding names. With them the result read in `Ref.lean` is `Cert.Spec.outR` of the edges landing on each node (those whose
  target index names it), the chain's normalised weights, the edges' sources (the node the source index names) and each
  graph's nodes (those whose graph id names it).
-/
import proofs.«428672_j24747601559656_4_alg».proof.Proof.Ref
import proofs.«428672_j24747601559656_4_alg».proof.Proof.Chain

noncomputable section

open scoped BigOperators

namespace Cert.RefV

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Idealize.ShloMosaic.LibRows

section Chain
variable (a0 : A0) (a1 : A1) (a2 : A2) (a3 : A3) (a4 : A4) (a5 : A5) (a6 : A6) (a7 : A7) (a8 : A8) (a9 : A9)

/-- The index arrays the reference scatters and gathers at, and its edge weights, are the edge chain's terms: both are
    the same operations of the edge list and the given weights, by unfolding names. -/
theorem dstIdx_eq : val_main_v46 (F := Ideal) a1 = Cert.Chain.dstIdx a1 := rfl
theorem srcIdxN_eq : val_main_v41 (F := Ideal) a1 = Cert.Chain.srcIdxN a1 := rfl
theorem nrm_eq : val_main_v33 (F := Ideal) a1 a2 = Cert.Chain.nrm a1 a2 := rfl
/-- The graph-id index array is the graph ids as a column. -/
theorem gid_eq : val_main_v74 (F := Ideal) a3 = broadcastInDim S50000x1 ![0] bcast_S50000_S50000x1_0 a3 := rfl

/-- THE REFERENCE'S RESULT AT GRAPH `g`, over the edge chain: the edges landing on a node are those whose target index
    names it, an edge's weight is the chain's normalised weight, its source the node its source index names, and a graph's
    nodes are those whose graph id names it. -/
theorem ref_value_chain (g : Fin 512) :
    val_main_v84 (F := Ideal) a0 a1 a2 a3 a4 a5 a6 a7 a8 a9 (ix2 g 0)
      = Cert.Spec.outR
          (fun d : Fin 50000 => Finset.univ.filter fun e : Fin 1650000 => rowOf (Cert.Chain.dstIdx a1) e = some d)
          (fun e : Fin 1650000 => Cert.Chain.nrm a1 a2 (ix1 e))
          (fun e : Fin 1650000 => srcOf (N := 50000) (by decide) (Cert.Chain.srcIdxN a1) e)
          (fun g : Fin 512 => Finset.univ.filter fun i : Fin 50000 =>
            rowOf (broadcastInDim S50000x1 ![0] bcast_S50000_S50000x1_0 a3) i = some g)
          (fun n k => a0 (ix2 n k)) (fun (k : Fin 128) (q : Fin 64) => a4 (ix2 k q)) (fun q => a5 (ix1 q))
          (fun (k : Fin 64) (q : Fin 64) => a6 (ix2 k q)) (fun q => a7 (ix1 q)) (fun q => a8 (ix2 q 0)) (a9 (ix1 0)) g :=
  v84_apply a0 a1 a2 a3 a4 a5 a6 a7 a8 a9 g

end Chain

/-- The run, with the result spelt over the edge chain. -/
theorem ref_run_chain (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v84)
        = (fun i : S512x1.Idx => Cert.Spec.outR
          (fun d : Fin 50000 => Finset.univ.filter fun e : Fin 1650000 =>
            rowOf (Cert.Chain.dstIdx (m ((c.tc : Thread nD τ).loc main_arg1))) e = some d)
          (fun e : Fin 1650000 =>
            Cert.Chain.nrm (m ((c.tc : Thread nD τ).loc main_arg1)) (m ((c.tc : Thread nD τ).loc main_arg2)) (ix1 e))
          (fun e : Fin 1650000 =>
            srcOf (N := 50000) (by decide) (Cert.Chain.srcIdxN (m ((c.tc : Thread nD τ).loc main_arg1))) e)
          (fun g : Fin 512 => Finset.univ.filter fun i : Fin 50000 =>
            rowOf (broadcastInDim S50000x1 ![0] bcast_S50000_S50000x1_0 (m ((c.tc : Thread nD τ).loc main_arg3))) i
              = some g)
          (fun n k => m ((c.tc : Thread nD τ).loc main_arg0) (ix2 n k))
          (fun (k : Fin 128) (q : Fin 64) => m ((c.tc : Thread nD τ).loc main_arg4) (ix2 k q))
          (fun q => m ((c.tc : Thread nD τ).loc main_arg5) (ix1 q))
          (fun (k : Fin 64) (q : Fin 64) => m ((c.tc : Thread nD τ).loc main_arg6) (ix2 k q))
          (fun q => m ((c.tc : Thread nD τ).loc main_arg7) (ix1 q))
          (fun q => m ((c.tc : Thread nD τ).loc main_arg8) (ix2 q 0))
          (m ((c.tc : Thread nD τ).loc main_arg9) (ix1 0)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ref_run m ρ

end Cert.RefV

end
-- ==== Proof.SpecOps.lean ====
/-
  The operations of the two programs on the reals among the extended reals: each takes reals to a real, away from the
  corners where the extended reals answer an infinity (a quotient by zero, the reciprocal square root of zero), and the
  constants the programs spell are reals. With these every intermediate value of the two programs is a real whenever
  the inputs are, which is what the exchange of sums in the specification needs.
-/
import proofs.«428672_j24747601559656_4_alg».proof.Proof.Spec
import Idealize.ShloMosaic.PureOps.Ideal
import Idealize.ShloMosaic.PureOps.Float

noncomputable section

namespace Cert.Spec

open Idealize.ShloMosaic

/-! ### The constants the two programs spell -/

/-- The pattern `0x00000000` denotes `0`. -/
theorem ofBits_zero : Ideal.ofBits .f32 0x00000000#32 = 0 := by
  simp [Ideal.ofBits, Ideal.ieee]

/-- The pattern `0x3F800000` denotes `1`. -/
theorem ofBits_one : Ideal.ofBits .f32 0x3F800000#32 = 1 := by
  simp [Ideal.ofBits, Ideal.ieee, -EReal.coe_mul]; norm_num

/-- The pattern `0x2B8CBCCC` (exponent field `87`, fraction field `834764`) denotes
    `(2 ^ 23 + 834764) * 2 ^ (87 - 127 - 23) = 9223372 * 2 ^ (-63)`, the single-precision number nearest `1e-12`. -/
theorem ofBits_eps : Ideal.ofBits .f32 0x2B8CBCCC#32 = ((9223372 * (2 : ℝ) ^ (-63 : ℤ) : ℝ) : EReal) := by
  simp [Ideal.ofBits, Ideal.ieee, -EReal.coe_mul]

theorem isReal_ofBits_zero : IsReal (Ideal.ofBits .f32 0x00000000#32) := by
  rw [ofBits_zero]; exact isReal_zero

theorem isReal_ofBits_one : IsReal (Ideal.ofBits .f32 0x3F800000#32) := by
  rw [ofBits_one]; exact isReal_one

theorem isReal_ofBits_eps : IsReal (Ideal.ofBits .f32 0x2B8CBCCC#32) := by
  rw [ofBits_eps]; exact isReal_coe _

/-- That constant is above zero. -/
theorem ofBits_eps_pos : (0 : EReal) < Ideal.ofBits .f32 0x2B8CBCCC#32 := by
  rw [ofBits_eps, EReal.coe_pos]; positivity

/-! ### Maximum -/

/-- The instance's maximum is the maximum of the order, so it is a real on reals. -/
theorem isReal_maximumf {φ : FTy} {x y : Ideal φ} (hx : IsReal x) (hy : IsReal y) :
    IsReal (FloatOps.maximumf x y) :=
  hx.max hy

/-- A maximum is above zero when its second operand is. -/
theorem max_pos_right {x y : EReal} (hy : 0 < y) : 0 < max x y := lt_max_of_lt_right hy

/-- The maximum with the constant `0x2B8CBCCC` is a real above zero whenever the other operand is a real. -/
theorem isReal_max_eps {x : EReal} (hx : IsReal x) : IsReal (max x (Ideal.ofBits .f32 0x2B8CBCCC#32)) :=
  hx.max isReal_ofBits_eps

theorem max_eps_pos (x : EReal) : 0 < max x (Ideal.ofBits .f32 0x2B8CBCCC#32) :=
  max_pos_right ofBits_eps_pos

/-! ### Reciprocal square root -/

/-- At a real above zero the instance's reciprocal square root is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a real above zero is a real. -/
theorem isReal_rsqrt {x : EReal} (hx : IsReal x) (hpos : 0 < x) : IsReal (Ideal.rsqrt x) := by
  obtain ⟨r, rfl⟩ := hx
  rw [rsqrt_coe_pos (EReal.coe_pos.mp hpos)]
  exact isReal_coe _

/-- The same with the bound from below by a real constant above zero. -/
theorem isReal_rsqrt_of_le {x : EReal} {c : ℝ} (hc : 0 < c) (hx : IsReal x) (hcx : (c : EReal) ≤ x) :
    IsReal (Ideal.rsqrt x) :=
  isReal_rsqrt hx (lt_of_lt_of_le (EReal.coe_pos.mpr hc) hcx)

/-- The reciprocal square root of a real above zero is above zero. -/
theorem rsqrt_pos {x : EReal} (hx : IsReal x) (hpos : 0 < x) : 0 < Ideal.rsqrt x := by
  obtain ⟨r, rfl⟩ := hx
  have hr : 0 < r := EReal.coe_pos.mp hpos
  rw [rsqrt_coe_pos hr, EReal.coe_pos]
  exact inv_pos.mpr (Real.sqrt_pos.mpr hr)

/-- The host's and the kernel's operation of that name are this function. -/
theorem isReal_hostUnary_rsqrt {φ : FTy} {x : Ideal φ} (hx : IsReal x) (hpos : 0 < x) :
    IsReal (FloatOps.hostUnary .rsqrt x) :=
  isReal_rsqrt hx hpos

theorem isReal_floatOps_rsqrt {φ : FTy} {x : Ideal φ} (hx : IsReal x) (hpos : 0 < x) :
    IsReal (FloatOps.rsqrt x) :=
  isReal_rsqrt hx hpos

/-- What the programs compute: the reciprocal square root of the maximum with the constant. -/
theorem isReal_rsqrt_max_eps {x : EReal} (hx : IsReal x) :
    IsReal (Ideal.rsqrt (max x (Ideal.ofBits .f32 0x2B8CBCCC#32))) :=
  isReal_rsqrt (isReal_max_eps hx) (max_eps_pos x)

/-! ### Quotient -/

/-- Off zero the instance's quotient of two reals is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- The quotient of a real by a real other than zero is a real. -/
theorem isReal_div {x y : EReal} (hx : IsReal x) (hy : IsReal y) (hy0 : y ≠ 0) : IsReal (Ideal.div x y) := by
  obtain ⟨a, rfl⟩ := hx
  obtain ⟨b, rfl⟩ := hy
  have hb : b ≠ 0 := fun h => hy0 (by rw [h, EReal.coe_zero])
  rw [div_coe_coe a hb]
  exact isReal_coe _

theorem isReal_divf {φ : FTy} {x y : Ideal φ} (hx : IsReal x) (hy : IsReal y) (hy0 : y ≠ 0) :
    IsReal (FloatOps.divf x y) :=
  isReal_div hx hy hy0

theorem isReal_hostDivf {φ : FTy} {x y : Ideal φ} (hx : IsReal x) (hy : IsReal y) (hy0 : y ≠ 0) :
    IsReal (FloatOps.hostDivf x y) :=
  isReal_div hx hy hy0

/-! ### Comparison and selection -/

/-- The ordered "greater than" comparison is the bit of `y < x`. -/
theorem cmp_ogt (x y : EReal) : Ideal.cmp .ogt x y = BitVec.ofBool (decide (y < x)) := rfl

theorem cmpf_ogt {φ : FTy} (x y : Ideal φ) : FloatOps.cmpf .ogt x y = BitVec.ofBool (decide (y < x)) := rfl

/-- A selection on that comparison is the choice by `y < x`. -/
theorem select_cmp_ogt {α : Type} (x y : EReal) (a b : α) :
    Scalar.select (Ideal.cmp .ogt x y) a b = if y < x then a else b := by
  rw [cmp_ogt, Scalar.select]
  by_cases h : y < x
  · simp [h]
  · simp [h]

/-- A selection between two reals is a real, whatever the bit. -/
theorem isReal_select (c : BitVec 1) {a b : EReal} (ha : IsReal a) (hb : IsReal b) : IsReal (Scalar.select c a b) := by
  unfold Scalar.select
  split
  · exact ha
  · exact hb

/-- What the programs compute for the scale of a node of degree `x`: the reciprocal square root of `max x ε` where `0 < x`,
    else `0`; a real when `x` is. -/
theorem isReal_select_rsqrt {x z : EReal} (hx : IsReal x) (hz : IsReal z) :
    IsReal (Scalar.select (Ideal.cmp .ogt x z) (Ideal.rsqrt (max x (Ideal.ofBits .f32 0x2B8CBCCC#32))) (0 : EReal)) :=
  isReal_select _ (isReal_rsqrt_max_eps hx) isReal_zero

end Cert.Spec

end
-- ==== Proof.ChainReal.lean ====
/-
  EVERY ENTRY OF THE EDGE NORMALISATION IS A REAL NUMBER when every edge weight is.

  The normalisation is built by the chain of operations of the module before this one. Reals go in and reals come out at
  every stage: a weight is a given real or the constant one (a concatenation read at an index); a degree is zero plus a
  finite sum of weights (the accumulating scatter at the ideal instance); the maximum of a real and a constant above zero
  is a real above zero, where the reciprocal square root is a real; a selection answers one of two reals; a gather reads
  one entry of its operand; a product of reals is a real. Each of these is first stated for the operation at ANY shapes
  and operands, then applied to the stage it is needed at.
-/
import proofs.«428672_j24747601559656_4_alg».proof.Proof.Chain
import proofs.«428672_j24747601559656_4_alg».proof.Proof.Spec
import proofs.«428672_j24747601559656_4_alg».proof.Proof.SpecOps
import Idealize.ShloMosaic.PureOps.Ideal
import Idealize.ShloMosaic.Lib.ValueIdx
import Idealize.ShloMosaic.Lib.IdealHost
import Idealize.ShloMosaic.Lib.Pipeline.Value

noncomputable section

open scoped BigOperators

namespace Cert.Chain

open Cert.ReferenceIdeal Cert.ReferenceIdeal.Facts₀ Cert.Spec
open Idealize.ShloMosaic Idealize.ShloMosaic.ValueIdx

/-! ## Real in, real out: the operations at any shapes -/

section AnyShape
variable {s si su t : Shape} {w : Nat} {φ : FTy}

/-- An accumulating scatter of reals into reals has real entries: each is an operand entry plus a finite sum of
    updates. -/
theorem isReal_scatterAdd (d : ScatterDims s si su) (x : FVec Ideal s φ) (idx : IVec si w) (upd : FVec Ideal su φ)
    (hx : ∀ i, IsReal (x i)) (hu : ∀ j, IsReal (upd j)) (i : s.Idx) : IsReal (Host.scatterAdd d x idx upd i) := by
  show IsReal (Ideal.hostScatterAdd d x idx upd i)
  unfold Ideal.hostScatterAdd
  exact (hx i).add (IsReal.sum _ fun j _ => hu j)

/-- A gather of an array of reals has real entries: each is one entry of the array. -/
theorem isReal_gather (d : GatherDims s si t) (x : FVec Ideal s φ) (idx : IVec si w) (hx : ∀ i, IsReal (x i))
    (j : t.Idx) : IsReal (Host.gather d x idx j) :=
  hx (d.operandIdx j idx)

/-- An entrywise product of reals is real. -/
theorem isReal_mulf (a b : FVec Ideal s φ) (ha : ∀ i, IsReal (a i)) (hb : ∀ i, IsReal (b i)) (i : s.Idx) :
    IsReal (mulf a b i) := by
  rw [mulf_apply]; exact (ha i).mul (hb i)

/-- An entrywise selection between reals is real. -/
theorem isReal_selectv (c : IVec s 1) (a b : FVec Ideal s φ) (ha : ∀ i, IsReal (a i)) (hb : ∀ i, IsReal (b i))
    (i : s.Idx) : IsReal (select c a b i) := by
  rw [select_apply]; exact isReal_select _ (ha i) (hb i)

/-- The reciprocal square root of the maximum of a real and the small constant is real. -/
theorem isReal_rsqrt_max (x e : FVec Ideal s .f32) (hx : ∀ i, IsReal (x i))
    (he : ∀ i, e i = Ideal.ofBits .f32 0x2B8CBCCC#32) (i : s.Idx) : IsReal (Host.rsqrt (maximumf x e) i) := by
  show IsReal (FloatOps.hostUnary .rsqrt (maximumf x e i))
  rw [Ideal.hostUnary_rsqrt_def, maximumf_apply, he i]
  exact isReal_rsqrt_max_eps (hx i)

end AnyShape

variable [Facts₀]

/-! ## The constants at an index -/

theorem zeros_apply (i : S50000.Idx) : zeros i = 0 := by
  refine (broadcastInDim_scalar_apply bcast_S_S50000 zeroS i).trans ?_
  show Ideal.ofBits .f32 0x00000000#32 = 0
  exact ofBits_zero

theorem elses_apply (i : S50000.Idx) : elses i = 0 := by
  refine (broadcastInDim_scalar_apply bcast_S_S50000 elseS i).trans ?_
  show Ideal.ofBits .f32 0x00000000#32 = 0
  exact ofBits_zero

theorem ones_apply (i : S50000.Idx) : ones i = 1 := by
  refine (broadcastInDim_scalar_apply bcast_S_S50000 oneS i).trans ?_
  show Ideal.ofBits .f32 0x3F800000#32 = 1
  exact ofBits_one

theorem epss_apply (i : S50000.Idx) : epss i = Ideal.ofBits .f32 0x2B8CBCCC#32 :=
  broadcastInDim_scalar_apply bcast_S_S50000 epsS i

/-! ## The weights: a given weight, or the one of a self-loop -/

/-- Below the number of given edges the weight is the given one. -/
theorem wgt_apply_lt (ea : FVec Ideal S1600000 .f32) (e : S1650000.Idx) (hlt : (e 0).val < 1600000) :
    wgt ea e = ea (ix1 ⟨(e 0).val, hlt⟩) :=
  concatenate_pair_apply_left (t := S1650000) (s₁ := S1600000) (s₂ := S50000) 0 ea ones
    concatenates_S1600000_S50000_S1650000_d0 e rfl (ix1 ⟨(e 0).val, hlt⟩)
    (fun b => match b with | ⟨0, _⟩ => rfl)

/-- From there on it is one. -/
theorem wgt_apply_ge (ea : FVec Ideal S1600000 .f32) (e : S1650000.Idx) (hge : 1600000 ≤ (e 0).val) :
    wgt ea e = 1 := by
  have he : (e 0).val < 1650000 := (e 0).isLt
  refine (concatenate_pair_apply_right (t := S1650000) (s₁ := S1600000) (s₂ := S50000) 0 ea ones
    concatenates_S1600000_S50000_S1650000_d0 e rfl rfl (ix1 ⟨(e 0).val - 1600000, by omega⟩)
    (fun b hb => absurd (Subsingleton.elim _ _) hb) ?_).trans (ones_apply _)
  show (e 0).val - 1600000 + 1600000 = (e 0).val
  omega

/-- Every weight is a real when the given ones are. -/
theorem wgt_real (ea : FVec Ideal S1600000 .f32) (h : ∀ i, IsReal (ea i)) (e : S1650000.Idx) : IsReal (wgt ea e) := by
  by_cases hlt : (e 0).val < 1600000
  · rw [wgt_apply_lt ea e hlt]; exact h _
  · rw [wgt_apply_ge ea e (Nat.le_of_not_lt hlt)]; exact isReal_one

/-! ## The degrees, the scales, the normalised weights -/

theorem zeros_real (i : S50000.Idx) : IsReal (zeros i) := by
  rw [zeros_apply]; exact isReal_zero

theorem elses_real (i : S50000.Idx) : IsReal (elses i) := by
  rw [elses_apply]; exact isReal_zero

/-- A degree is zero plus a finite sum of weights. -/
theorem deg_real (ei : IVec S2x1600000 32) (ea : FVec Ideal S1600000 .f32) (h : ∀ i, IsReal (ea i)) :
    ∀ i, IsReal (deg ei ea i) := by
  intro i
  unfold deg
  exact isReal_scatterAdd _ _ _ _ zeros_real (wgt_real ea h) i

/-- A scale is the reciprocal square root of a real above zero, or zero. -/
theorem dis_real (ei : IVec S2x1600000 32) (ea : FVec Ideal S1600000 .f32) (h : ∀ i, IsReal (ea i)) :
    ∀ i, IsReal (dis ei ea i) := by
  intro i
  unfold dis degRsqrt degClamp
  exact isReal_selectv _ _ _ (isReal_rsqrt_max _ _ (deg_real ei ea h) epss_apply) elses_real i

/-- EVERY NORMALISED WEIGHT IS A REAL when every given weight is: the product of two scales and a weight. -/
theorem nrm_real (ei : IVec S2x1600000 32) (ea : FVec Ideal S1600000 .f32) (h : ∀ i, IsReal (ea i)) :
    ∀ e, IsReal (nrm ei ea e) := by
  intro e
  unfold nrm nrmHalf disSrc disDst
  exact isReal_mulf _ _
    (isReal_mulf _ _ (isReal_gather _ _ _ (dis_real ei ea h)) (wgt_real ea h))
    (isReal_gather _ _ _ (dis_real ei ea h)) e

end Cert.Chain

end
-- ==== Proof.FinIn.lean ====
/-
  FINITENESS OF THE INPUTS, READ BACK. The precondition `finite_inputs` is the conjunction, over the eight float
  inputs, of "every element x of the array has |x| < +∞". At the ideal instance an element is an extended real,
  |x| is max x (-x), the pattern 0x7F800000 denotes ⊤, and max x (-x) < ⊤ rules out x = ⊤ and x = ⊥: what is
  left is the inclusion of a real number. So the precondition gives, for each float input, that every entry is
  (the inclusion of) a real.
-/
import proofs.«428672_j24747601559656_4_alg».proof.Pre_finite_inputs
import Idealize.ShloMosaic.PureOps.Ideal
import Idealize.ShloMosaic.Lib.ReduceAll
import Idealize.ShloMosaic.Lib.ValueIdx

noncomputable section

namespace Cert.FinIn

open Idealize.ShloMosaic
open Cert.Pre_finite_inputs

/-- The scalar shape has one index. -/
instance subsingleton_S_ : Subsingleton S_.Idx := ⟨fun a b => funext fun d => d.elim0⟩

/-- The pattern of +∞ denotes ⊤. -/
theorem ofBits_inf : Ideal.ofBits .f32 0x7F800000#32 = (⊤ : EReal) := by simp [Ideal.ofBits, Ideal.ieee]

/-- One element: an extended real whose absolute value max x (-x) is strictly below +∞ is a real. -/
theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  induction x using EReal.rec with
  | bot => simp at h
  | coe r => exact ⟨r, rfl⟩
  | top => simp at h

/-- One array: `jnp.all(jnp.isfinite(a))` as printed (abs, compare below the splat of +∞, reduce by `and` over all
    axes into the scalar shape) being 1 says every entry of `a` is a real. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf a) (broadcastInDim s ![] hb (constant (F := Ideal) S_ .f32 0x7F800000#32))) init hr hu j = 1#1) :
    ∀ i, ∃ r : ℝ, a i = (r : EReal) := by
  intro i
  have hi := Host.reduce_andi_all _ init hr hu j e i
  exact real_of_abs_lt_inf (a i) hi

/-- THE PRECONDITION DECODED: every entry of every float input is a real. -/
theorem real_of_pre [Cert.Pre_finite_inputs.Facts]
    (a0 : FVec Ideal S50000x128 .f32) (a1 : IVec S2x1600000 32) (a2 : FVec Ideal S1600000 .f32) (a3 : IVec S50000 32)
    (a4 : FVec Ideal S128x64 .f32) (a5 : FVec Ideal S64 .f32) (a6 : FVec Ideal S64x64 .f32) (a7 : FVec Ideal S64 .f32)
    (a8 : FVec Ideal S64x1 .f32) (a9 : FVec Ideal S1 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a2 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal)) ∧ (∀ i, ∃ r : ℝ, a9 i = (r : EReal)) := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨h0, h2⟩, h4⟩, h5⟩, h6⟩, h7⟩, h8⟩, h9⟩ := e
  exact ⟨real_of_all a0 _ _ _ _ _ h0, real_of_all a2 _ _ _ _ _ h2, real_of_all a4 _ _ _ _ _ h4,
    real_of_all a5 _ _ _ _ _ h5, real_of_all a6 _ _ _ _ _ h6, real_of_all a7 _ _ _ _ _ h7,
    real_of_all a8 _ _ _ _ _ h8, real_of_all a9 _ _ _ _ _ h9⟩

end Cert.FinIn

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KI.Val0.lean ====
/-
  THE VALUE of region 0 (the dense step) at the ideal numbers: what the result array holds after all 250 grid points, as
  ONE function of the three arrays the region reads, for any contents of the core's buffers at entry.
  Point t writes rows [200 t, 200 t + 200) of the result; each written element is row p of the aggregated block times
  column q of the weight matrix (the product into a zero accumulator is the plain sum over the 128 contracted entries),
  plus the bias row at q, clipped below at zero. The aggregated block at point t is rows [200 t, 200 t + 200) of the
  aggregated array and the other two blocks are the whole weight matrix and bias row, so every written block is a
  restriction of one whole-array function; row r of the result lies in the block of point r / 200, so the blocks cover it.
-/
import proofs.«428672_j24747601559656_4_alg».proof.Proof.KI.Reg0
import proofs.«428672_j24747601559656_4_alg».proof.Proof.LibMatmul
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The three arrays the region reads, as it finds them, at their literal types. -/
abbrev agg0 (c : Dev nD) : Vec Ideal S50000x128 .f32 := V c main_v46
abbrev wgt0 (c : Dev nD) : Vec Ideal S128x64 .f32 := V c main_arg4
abbrev bias0 (c : Dev nD) : Vec Ideal S1x64 .f32 := V c main_v47

/-- The dense step at row p and column q: row p of the aggregated array times column q of the weight matrix, plus the
    bias at q, clipped below at zero. -/
def dense0 (agg : Vec Ideal S50000x128 .f32) (w : Vec Ideal S128x64 .f32) (b : Vec Ideal S1x64 .f32)
    (p : Fin 50000) (q : Fin 64) : EReal :=
  max ((∑ k : Fin 128, agg (ix2 p k) * w (ix2 k q)) + b (ix2 (0 : Fin 1) q)) 0

/-- The whole result array as one function of the three input arrays. -/
abbrev G0 (agg : Vec Ideal S50000x128 .f32) (w : Vec Ideal S128x64 .f32) (b : Vec Ideal S1x64 .f32) :
    Vec Ideal S50000x64 .f32 := fun i => dense0 agg w b (i 0) (i 1)

/-- The body's payload at (p, q): the product into the zero accumulator is the plain sum, the bias row is broadcast over
    the rows, the maximum with the zero splat is the maximum with 0. -/
theorem pay0_apply (x0 : Vec Ideal S200x128 .f32) (x1 : Vec Ideal S128x64 .f32) (x2 : Vec Ideal S1x64 .f32)
    (p : Fin 200) (q : Fin 64) :
    k0_pay1 (F := Ideal) x0 x1 x2 (ix2 p q)
      = max ((∑ k : Fin 128, x0 (ix2 p k) * x1 (ix2 k q)) + x2 (ix2 (0 : Fin 1) q)) 0 := by
  unfold k0_pay1
  show max (matmul dot_S200x128_S128x64_S200x64_1_0_0_1_n_n none (shapeCast S200x128 x0 shapeCasts_S200x128_S200x128) x1 (constant (F := Ideal) S200x64 .f32 0x00000000#32) (ix2 p q)
      + broadcastTo S200x64 (shapeCast S1x64 x2 shapeCasts_S1x64_S1x64) broadcasts_S1x64_S200x64 (ix2 p q)) (Ideal.ofBits .f32 0x00000000#32) = _
  rw [shapeCast_self, shapeCast_self, Ideal.ofBits_zero_f32]
  refine congrArg₂ max (congrArg₂ (· + ·) ?_ ?_) rfl
  · exact Cert.Matmul.matmul_plain_apply none x0 x1 p q
  · exact broadcastTo_1b_ab_apply x2 broadcasts_S1x64_S200x64 p q

/-- One element of a block against one element of the array: when the first input block is rows [200 n, 200 n + 200) of
    the aggregated array and the other two blocks are the whole weight matrix and bias row, the payload at y is the dense
    step at the array index i that sits at y in block n. -/
theorem block0_eq (agg : Vec Ideal S50000x128 .f32) (w : Vec Ideal S128x64 .f32) (b : Vec Ideal S1x64 .f32)
    (x0 : Vec Ideal S200x128 .f32) (x1 : Vec Ideal S128x64 .f32) (x2 : Vec Ideal S1x64 .f32)
    (n : Nat) (y : S200x64.Idx) (i : S50000x64.Idx)
    (h0 : ∀ (p : Fin 200) (k : Fin 128) (P : Fin 50000), P.val = n * 200 + p.val → x0 (ix2 p k) = agg (ix2 P k))
    (h1 : x1 = w) (h2 : x2 = b)
    (hi0 : (i 0).val = n * 200 + (y 0).val) (hi1 : (i 1).val = (y 1).val) :
    k0_pay1 (F := Ideal) x0 x1 x2 y = G0 agg w b i := by
  obtain ⟨p, q, rfl⟩ : ∃ (p : Fin 200) (q : Fin 64), y = ix2 p q := ⟨y 0, y 1, eq_ix2 y⟩
  obtain ⟨P, Q, rfl⟩ : ∃ (P : Fin 50000) (Q : Fin 64), i = ix2 P Q := ⟨i 0, i 1, eq_ix2 i⟩
  subst h1 h2
  have hQ : Q = q := Fin.ext hi1
  subst hQ
  refine (pay0_apply x0 x1 x2 p Q).trans ?_
  show max (_ + _) 0 = max (_ + _) 0
  refine congrArg₂ max (congrArg₂ (· + ·) (Finset.sum_congr rfl fun k _ => ?_) rfl) rfl
  rw [h0 p k P hi0]

theorem zero_off0 : (![0, 0] : Fin 2 → Nat) = fun _ => 0 := funext fun a => by fin_cases a <;> rfl

/-- The printed index maps, decided over the grid: the first input and the output move down one block of rows per point,
    the weight matrix and the bias row stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of the dense step of the three arrays as the region finds them. -/
theorem flushed0_eq (c : Dev nD) (t : Fin cfg0.N) :
    (dat0 (F := Ideal) V c).flushed 3 t
      = ((cfg0.win 3).blk t).view.read (Elt Ideal) (G0 (agg0 V c) (wgt0 V c) (bias0 V c)) := by
  show (cfg0.win 3).cut (grid0.coords t) ((dat0 (F := Ideal) V c).after 3 t) = _
  rw [after0_3]
  unfold out0_3
  rw [View.canon_unit_zero zero_off0]
  simp only [View.ld_unit_zero (S := S200x128) zero_off0, View.ld_unit_zero (S := S128x64) zero_off0, View.ld_unit_zero (S := S1x64) zero_off0]
  obtain ⟨e00, e01, e10, e11, e20, e21, e30, e31⟩ := idx_facts0 t
  funext j
  show k0_pay1 (F := Ideal) (iblk0 V c 0 t) (iblk0 V c 1 t) (iblk0 V c 2 t) ((cfg0.win 3).xinj (grid0.coords t) j)
    = G0 (agg0 V c) (wgt0 V c) (bias0 V c) (((cfg0.win 3).blk t).view.emb j)
  refine block0_eq (agg0 V c) (wgt0 V c) (bias0 V c) (iblk0 V c 0 t) (iblk0 V c 1 t) (iblk0 V c 2 t) t.val
    ((cfg0.win 3).xinj (grid0.coords t) j) (((cfg0.win 3).blk t).view.emb j) ?_ ?_ ?_ ?_ ?_
  · intro p k P hP
    show V c main_v46 (((cfg0.win 0).blk t).view.emb (ix2 p k)) = V c main_v46 (ix2 P k)
    refine congrArg (V c main_v46) (funext fun a => Fin.ext ?_)
    match a with
    | ⟨0, _⟩ => show win0_0.index t (0 : Fin 2) * 200 + 1 * p.val = P.val; rw [e00, hP]; omega
    | ⟨1, _⟩ => show win0_0.index t (1 : Fin 2) * 128 + 1 * k.val = k.val; rw [e01]; omega
  · funext y
    show V c main_arg4 (((cfg0.win 1).blk t).view.emb y) = V c main_arg4 y
    refine congrArg (V c main_arg4) (funext fun a => Fin.ext ?_)
    match a with
    | ⟨0, _⟩ => show win0_1.index t (0 : Fin 2) * 128 + 1 * (y 0).val = (y 0).val; rw [e10]; omega
    | ⟨1, _⟩ => show win0_1.index t (1 : Fin 2) * 64 + 1 * (y 1).val = (y 1).val; rw [e11]; omega
  · funext y
    show V c main_v47 (((cfg0.win 2).blk t).view.emb y) = V c main_v47 y
    refine congrArg (V c main_v47) (funext fun a => Fin.ext ?_)
    match a with
    | ⟨0, _⟩ => show win0_2.index t (0 : Fin 2) * 1 + 1 * (y 0).val = (y 0).val; rw [e20]; omega
    | ⟨1, _⟩ => show win0_2.index t (1 : Fin 2) * 64 + 1 * (y 1).val = (y 1).val; rw [e21]; omega
  · show win0_3.index t (0 : Fin 2) * 200 + 1 * (j 0).val = t.val * 200 + (j 0).val
    rw [e30]; omega
  · show win0_3.index t (1 : Fin 2) * 64 + 1 * (j 1).val = (j 1).val
    rw [e31]; omega

/-- An index of the result array is in point t's block iff each coordinate is in the block's range on its axis. -/
theorem mem_blk0 (t : Fin cfg0.N) (i : S50000x64.Idx) :
    i ∈ ((cfg0.win 3).blk t).view.set ↔ ∀ a : Fin 2, win0_3.index t a * S200x64.size a ≤ (i a).val ∧ (i a).val < win0_3.index t a * S200x64.size a + S200x64.size a := by
  show i ∈ ((View.whole main_v48).slice (win0_3.rect t)).set ↔ _
  rw [View.set_slice_whole, Rect.mem_set_unit]
  exact Iff.rfl

/-- Every row of the result is in some point's block: row r is in the block of point r / 200. -/
theorem cover0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 250 := N_0
  have ht : (i 0).val / 200 < cfg0.N := by rw [hN]; omega
  obtain ⟨e00, e01, e10, e11, e20, e21, e30, e31⟩ := idx_facts0 ⟨(i 0).val / 200, ht⟩
  refine ⟨⟨(i 0).val / 200, ht⟩, flush0_3 _, ?_⟩
  rw [mem_blk0]
  intro a
  match a with
  | ⟨0, _⟩ =>
    show win0_3.index ⟨(i 0).val / 200, ht⟩ (0 : Fin 2) * 200 ≤ (i 0).val ∧ (i 0).val < win0_3.index ⟨(i 0).val / 200, ht⟩ (0 : Fin 2) * 200 + 200
    rw [e30]; show (i 0).val / 200 * 200 ≤ (i 0).val ∧ (i 0).val < (i 0).val / 200 * 200 + 200; omega
  | ⟨1, _⟩ =>
    show win0_3.index ⟨(i 0).val / 200, ht⟩ (1 : Fin 2) * 64 ≤ (i 1).val ∧ (i 1).val < win0_3.index ⟨(i 0).val / 200, ht⟩ (1 : Fin 2) * 64 + 64
    rw [e31]; omega

/-- THE RESULT ARRAY of region 0 after all 250 points: the dense step of the three input arrays, index by index. -/
theorem val0 (c : Dev nD) :
    (dat0 (F := Ideal) V c).arrAt 3 cfg0.N = G0 (agg0 V c) (wgt0 V c) (bias0 V c) :=
  (dat0 (F := Ideal) V c).arrAt_eq_of_cover 3 (G0 (agg0 V c) (wgt0 V c) (bias0 V c)) (fun t _ => flushed0_eq V c t) cover0

end Cert.KernelIdeal.HandV

end
-- ==== Proof.KI.Val1.lean ====
/-
  THE VALUE of region 1 (the second dense step, with no clipping) at the ideal numbers: what the result array holds after
  all 250 grid points, as ONE function of the three arrays the region reads, for any contents of the core's buffers at entry.
  Point t writes rows [200 t, 200 t + 200) of the result; each written element is row p of the input block times column q
  of the 64 by 64 weight matrix (the product into a zero accumulator is the plain sum over the 64 contracted entries), plus
  the bias row at q. The input block at point t is rows [200 t, 200 t + 200) of the input array and the other two blocks are
  the whole weight matrix and bias row, so every written block is a restriction of one whole-array function; row r of the
  result lies in the block of point r / 200, so the blocks cover it.
-/
import proofs.«428672_j24747601559656_4_alg».proof.Proof.KI.Reg1
import proofs.«428672_j24747601559656_4_alg».proof.Proof.LibMatmul
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The three arrays the region reads, as it finds them, at their literal types. -/
abbrev agg1 (c : Dev nD) : Vec Ideal S50000x64 .f32 := V c main_v61
abbrev wgt1 (c : Dev nD) : Vec Ideal S64x64 .f32 := V c main_arg6
abbrev bias1 (c : Dev nD) : Vec Ideal S1x64 .f32 := V c main_v62

/-- The dense step at row p and column q: row p of the input array times column q of the weight matrix, plus the bias
    at q. -/
def dense1 (agg : Vec Ideal S50000x64 .f32) (w : Vec Ideal S64x64 .f32) (b : Vec Ideal S1x64 .f32)
    (p : Fin 50000) (q : Fin 64) : EReal :=
  (∑ k : Fin 64, agg (ix2 p k) * w (ix2 k q)) + b (ix2 (0 : Fin 1) q)

/-- The whole result array as one function of the three input arrays. -/
abbrev G1 (agg : Vec Ideal S50000x64 .f32) (w : Vec Ideal S64x64 .f32) (b : Vec Ideal S1x64 .f32) :
    Vec Ideal S50000x64 .f32 := fun i => dense1 agg w b (i 0) (i 1)

/-- The body's payload at (p, q): the product into the zero accumulator is the plain sum, the bias row is broadcast over
    the rows. -/
theorem pay1_apply (x0 : Vec Ideal S200x64 .f32) (x1 : Vec Ideal S64x64 .f32) (x2 : Vec Ideal S1x64 .f32)
    (p : Fin 200) (q : Fin 64) :
    k1_pay1 (F := Ideal) x0 x1 x2 (ix2 p q)
      = (∑ k : Fin 64, x0 (ix2 p k) * x1 (ix2 k q)) + x2 (ix2 (0 : Fin 1) q) := by
  unfold k1_pay1
  show matmul dot_S200x64_S64x64_S200x64_1_0_0_1_n_n none (shapeCast S200x64 x0 shapeCasts_S200x64_S200x64) x1 (constant (F := Ideal) S200x64 .f32 0x00000000#32) (ix2 p q)
      + broadcastTo S200x64 (shapeCast S1x64 x2 shapeCasts_S1x64_S1x64) broadcasts_S1x64_S200x64 (ix2 p q) = _
  rw [shapeCast_self, shapeCast_self]
  refine congrArg₂ (· + ·) ?_ ?_
  · exact Cert.Matmul.matmul_plain_apply none x0 x1 p q
  · exact broadcastTo_1b_ab_apply x2 broadcasts_S1x64_S200x64 p q

/-- One element of a block against one element of the array: when the first input block is rows [200 n, 200 n + 200) of
    the input array and the other two blocks are the whole weight matrix and bias row, the payload at y is the dense step
    at the array index i that sits at y in block n. -/
theorem block1_eq (agg : Vec Ideal S50000x64 .f32) (w : Vec Ideal S64x64 .f32) (b : Vec Ideal S1x64 .f32)
    (x0 : Vec Ideal S200x64 .f32) (x1 : Vec Ideal S64x64 .f32) (x2 : Vec Ideal S1x64 .f32)
    (n : Nat) (y : S200x64.Idx) (i : S50000x64.Idx)
    (h0 : ∀ (p : Fin 200) (k : Fin 64) (P : Fin 50000), P.val = n * 200 + p.val → x0 (ix2 p k) = agg (ix2 P k))
    (h1 : x1 = w) (h2 : x2 = b)
    (hi0 : (i 0).val = n * 200 + (y 0).val) (hi1 : (i 1).val = (y 1).val) :
    k1_pay1 (F := Ideal) x0 x1 x2 y = G1 agg w b i := by
  obtain ⟨p, q, rfl⟩ : ∃ (p : Fin 200) (q : Fin 64), y = ix2 p q := ⟨y 0, y 1, eq_ix2 y⟩
  obtain ⟨P, Q, rfl⟩ : ∃ (P : Fin 50000) (Q : Fin 64), i = ix2 P Q := ⟨i 0, i 1, eq_ix2 i⟩
  subst h1 h2
  have hQ : Q = q := Fin.ext hi1
  subst hQ
  refine (pay1_apply x0 x1 x2 p Q).trans ?_
  show _ + _ = _ + _
  refine congrArg₂ (· + ·) (Finset.sum_congr rfl fun k _ => ?_) rfl
  rw [h0 p k P hi0]

theorem zero_off1 : (![0, 0] : Fin 2 → Nat) = fun _ => 0 := funext fun a => by fin_cases a <;> rfl

/-- The printed index maps, decided over the grid: the first input and the output move down one block of rows per point,
    the weight matrix and the bias row stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT t WRITES BACK is block t of the dense step of the three arrays as the region finds them. -/
theorem flushed1_eq (c : Dev nD) (t : Fin cfg1.N) :
    (dat1 (F := Ideal) V c).flushed 3 t
      = ((cfg1.win 3).blk t).view.read (Elt Ideal) (G1 (agg1 V c) (wgt1 V c) (bias1 V c)) := by
  show (cfg1.win 3).cut (grid1.coords t) ((dat1 (F := Ideal) V c).after 3 t) = _
  rw [after1_3]
  unfold out1_3
  rw [View.canon_unit_zero zero_off1]
  simp only [View.ld_unit_zero (S := S200x64) zero_off1, View.ld_unit_zero (S := S64x64) zero_off1, View.ld_unit_zero (S := S1x64) zero_off1]
  obtain ⟨e00, e01, e10, e11, e20, e21, e30, e31⟩ := idx_facts1 t
  funext j
  show k1_pay1 (F := Ideal) (iblk1 V c 0 t) (iblk1 V c 1 t) (iblk1 V c 2 t) ((cfg1.win 3).xinj (grid1.coords t) j)
    = G1 (agg1 V c) (wgt1 V c) (bias1 V c) (((cfg1.win 3).blk t).view.emb j)
  refine block1_eq (agg1 V c) (wgt1 V c) (bias1 V c) (iblk1 V c 0 t) (iblk1 V c 1 t) (iblk1 V c 2 t) t.val
    ((cfg1.win 3).xinj (grid1.coords t) j) (((cfg1.win 3).blk t).view.emb j) ?_ ?_ ?_ ?_ ?_
  · intro p k P hP
    show V c main_v61 (((cfg1.win 0).blk t).view.emb (ix2 p k)) = V c main_v61 (ix2 P k)
    refine congrArg (V c main_v61) (funext fun a => Fin.ext ?_)
    match a with
    | ⟨0, _⟩ => show win1_0.index t (0 : Fin 2) * 200 + 1 * p.val = P.val; rw [e00, hP]; omega
    | ⟨1, _⟩ => show win1_0.index t (1 : Fin 2) * 64 + 1 * k.val = k.val; rw [e01]; omega
  · funext y
    show V c main_arg6 (((cfg1.win 1).blk t).view.emb y) = V c main_arg6 y
    refine congrArg (V c main_arg6) (funext fun a => Fin.ext ?_)
    match a with
    | ⟨0, _⟩ => show win1_1.index t (0 : Fin 2) * 64 + 1 * (y 0).val = (y 0).val; rw [e10]; omega
    | ⟨1, _⟩ => show win1_1.index t (1 : Fin 2) * 64 + 1 * (y 1).val = (y 1).val; rw [e11]; omega
  · funext y
    show V c main_v62 (((cfg1.win 2).blk t).view.emb y) = V c main_v62 y
    refine congrArg (V c main_v62) (funext fun a => Fin.ext ?_)
    match a with
    | ⟨0, _⟩ => show win1_2.index t (0 : Fin 2) * 1 + 1 * (y 0).val = (y 0).val; rw [e20]; omega
    | ⟨1, _⟩ => show win1_2.index t (1 : Fin 2) * 64 + 1 * (y 1).val = (y 1).val; rw [e21]; omega
  · show win1_3.index t (0 : Fin 2) * 200 + 1 * (j 0).val = t.val * 200 + (j 0).val
    rw [e30]; omega
  · show win1_3.index t (1 : Fin 2) * 64 + 1 * (j 1).val = (j 1).val
    rw [e31]; omega

/-- An index of the result array is in point t's block iff each coordinate is in the block's range on its axis. -/
theorem mem_blk1 (t : Fin cfg1.N) (i : S50000x64.Idx) :
    i ∈ ((cfg1.win 3).blk t).view.set ↔ ∀ a : Fin 2, win1_3.index t a * S200x64.size a ≤ (i a).val ∧ (i a).val < win1_3.index t a * S200x64.size a + S200x64.size a := by
  show i ∈ ((View.whole main_v63).slice (win1_3.rect t)).set ↔ _
  rw [View.set_slice_whole, Rect.mem_set_unit]
  exact Iff.rfl

/-- Every row of the result is in some point's block: row r is in the block of point r / 200. -/
theorem cover1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 250 := N_1
  have ht : (i 0).val / 200 < cfg1.N := by rw [hN]; omega
  obtain ⟨e00, e01, e10, e11, e20, e21, e30, e31⟩ := idx_facts1 ⟨(i 0).val / 200, ht⟩
  refine ⟨⟨(i 0).val / 200, ht⟩, flush1_3 _, ?_⟩
  rw [mem_blk1]
  intro a
  match a with
  | ⟨0, _⟩ =>
    show win1_3.index ⟨(i 0).val / 200, ht⟩ (0 : Fin 2) * 200 ≤ (i 0).val ∧ (i 0).val < win1_3.index ⟨(i 0).val / 200, ht⟩ (0 : Fin 2) * 200 + 200
    rw [e30]; show (i 0).val / 200 * 200 ≤ (i 0).val ∧ (i 0).val < (i 0).val / 200 * 200 + 200; omega
  | ⟨1, _⟩ =>
    show win1_3.index ⟨(i 0).val / 200, ht⟩ (1 : Fin 2) * 64 ≤ (i 1).val ∧ (i 1).val < win1_3.index ⟨(i 0).val / 200, ht⟩ (1 : Fin 2) * 64 + 64
    rw [e31]; omega

/-- THE RESULT ARRAY of region 1 after all 250 points: the dense step of the three input arrays, index by index. -/
theorem val1 (c : Dev nD) :
    (dat1 (F := Ideal) V c).arrAt 3 cfg1.N = G1 (agg1 V c) (wgt1 V c) (bias1 V c) :=
  (dat1 (F := Ideal) V c).arrAt_eq_of_cover 3 (G1 (agg1 V c) (wgt1 V c) (bias1 V c)) (fun t _ => flushed1_eq V c t) cover1

end Cert.KernelIdeal.HandV

end
-- ==== Proof.KI.Pay2.lean ====
/-
  The values the pooling kernel stores, read at an index, on the extended reals.

  At each grid point the kernel holds a block of 200 node rows (200 x 64 features) and the 200 graph ids of those nodes.
  It forms the 200 x 512 one-hot matrix "node r belongs to graph g", adds its transpose times the feature block to the
  running 512 x 64 per-graph feature sums, and adds its column sums to the running 512 x 1 per-graph node counts. At the
  last point it divides each feature sum by the count (never below one), multiplies by the 64 x 1 head weights and adds
  the bias.
-/
import proofs.«428672_j24747601559656_4_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«428672_j24747601559656_4_alg».proof.Proof.LibMatmul
import proofs.«428672_j24747601559656_4_alg».proof.Proof.SpecOps
import proofs.«428672_j24747601559656_4_alg».proof.Proof.SpecGCN

noncomputable section

namespace Cert.KernelIdeal.HandV

open scoped BigOperators
open Cert.KernelIdeal Cert.KernelIdeal.Gen
open Idealize.ShloMosaic Idealize.ShloMosaic.ValueIdx

/-! ### The one-hot entry -/

/-- Entry (r, g) of the one-hot matrix: one when node r of the block has graph id g, else zero. -/
def mask (ids : Vec Ideal S200x1 .i32) (r : Fin 200) (g : Fin 512) : EReal :=
  if (ids (ix2 r 0)).toInt = (g.val : Int) then 1 else 0

/-- A lane number below 512, as a 32-bit word, reads back signed as itself. -/
theorem toInt_ofNat_lane (g : Fin 512) : (BitVec.ofNat 32 g.val).toInt = (g.val : Int) := by
  have hg := g.isLt
  have hn : (BitVec.ofNat 32 g.val).toNat = g.val := by
    rw [BitVec.toNat_ofNat]; omega
  rw [BitVec.toInt_eq_toNat_of_lt (by rw [hn]; omega), hn]

/-- A 32-bit word equals the word of a lane number below 512 exactly when it reads signed as that number. -/
theorem eq_ofNat_lane_iff (x : BitVec 32) (g : Fin 512) : x = BitVec.ofNat 32 g.val ↔ x.toInt = (g.val : Int) := by
  constructor
  · intro h; rw [h, toInt_ofNat_lane]
  · intro h; exact BitVec.eq_of_toInt_eq (h.trans (toInt_ofNat_lane g).symm)

/-- The comparison bit, widened to 32 bits and converted to a float, is one where the words are equal and zero elsewhere. -/
theorem sitofp_extui_cmpi_eq (x y : BitVec 32) :
    (FloatOps.sitofp (F := Ideal) .f32 ((IntOp.cmpi .eq x y).setWidth 32) : EReal) = if x = y then 1 else 0 := by
  show ((((IntOp.cmpi .eq x y).setWidth 32).toInt : ℝ) : EReal) = _
  unfold IntOp.cmpi
  by_cases h : x = y
  · subst h; simp
  · have hb : (x == y) = false := beq_eq_false_iff_ne.mpr h
    simp [hb, h]

/-! ### The one-hot matrix at an index -/

/-- The ids column broadcast along the 512 lanes reads, at (r, g), the id of node r. -/
theorem bcast_ids_apply (ids : Vec Ideal S200x1 .i32) (r : Fin 200) (g : Fin 512) :
    broadcastTo S200x512 (shapeCast S200x1 ids shapeCasts_S200x1_S200x1) broadcasts_S200x1_S200x512 (ix2 r g)
      = ids (ix2 r 0) := by
  rw [shapeCast_self]
  refine broadcastTo_apply ids broadcasts_S200x1_S200x512 (ix2 r g) (ix2 r (0 : Fin 1)) fun a => ?_
  match a with
  | ⟨0, _⟩ =>
    show r.val = if (200 : Nat) = 1 then 0 else r.val
    rw [if_neg (by decide)]
  | ⟨1, _⟩ =>
    show (0 : Nat) = if (1 : Nat) = 1 then 0 else g.val
    rw [if_pos rfl]

/-- The kernel compares the broadcast id with the lane number as 32-bit words; for a lane below 512 that is the
    equality of the id, read signed, with the lane number. -/
theorem k2_pay3_apply (ids : Vec Ideal S200x1 .i32) (r : Fin 200) (g : Fin 512) :
    k2_pay3 (F := Ideal) ids (ix2 r g) = mask ids r g := by
  unfold k2_pay3 mask
  show FloatOps.sitofp (F := Ideal) .f32 ((IntOp.cmpi .eq
      (broadcastTo S200x512 (shapeCast S200x1 ids shapeCasts_S200x1_S200x1) broadcasts_S200x1_S200x512 (ix2 r g))
      (iota .tc S200x512 32 [1] iota_S200x512_d1_w32 (ix2 r g))).setWidth 32) = _
  rw [bcast_ids_apply, iota_single_apply, sitofp_extui_cmpi_eq]
  show (if ids (ix2 r 0) = BitVec.ofNat 32 g.val then (1 : EReal) else 0) = _
  exact if_congr (eq_ofNat_lane_iff _ g) rfl rfl

/-! ### The two zero splats -/

theorem k2_pay1_apply (g : Fin 512) (q : Fin 64) : k2_pay1 (F := Ideal) (ix2 g q) = 0 := by
  unfold k2_pay1
  rw [shapeCast_self]
  exact Cert.Spec.ofBits_zero

theorem k2_pay2_apply (g : Fin 512) : k2_pay2 (F := Ideal) (ix2 g 0) = 0 := by
  unfold k2_pay2
  rw [shapeCast_self]
  exact Cert.Spec.ofBits_zero

/-! ### The pooling product: both operands contracted along their rows -/

theorem lhs_pool_0 (i : S512x64.Idx) (q : dot_S200x512_S200x64_S512x64_0_0_1_1_n_n.contr.Idx) :
    (dot_S200x512_S200x64_S512x64_0_0_1_1_n_n.lhsIdx i q 0).val = (q ⟨0, by decide⟩).val :=
  dot_S200x512_S200x64_S512x64_0_0_1_1_n_n.lhsIdx_val_of_single rfl i q
theorem lhs_pool_1 (i : S512x64.Idx) (q : dot_S200x512_S200x64_S512x64_0_0_1_1_n_n.contr.Idx) :
    (dot_S200x512_S200x64_S512x64_0_0_1_1_n_n.lhsIdx i q 1).val = (i 0).val := by
  unfold DotDims.lhsIdx
  rw [dif_neg (show ¬(1 : Fin S200x512.rank) ∈ dot_S200x512_S200x64_S512x64_0_0_1_1_n_n.lhsBatch by decide), dif_pos (show (1 : Fin S200x512.rank) ∈ dot_S200x512_S200x64_S512x64_0_0_1_1_n_n.lhsNonContracting by decide)]
  rfl
theorem rhs_pool_0 (i : S512x64.Idx) (q : dot_S200x512_S200x64_S512x64_0_0_1_1_n_n.contr.Idx) :
    (dot_S200x512_S200x64_S512x64_0_0_1_1_n_n.rhsIdx i q 0).val = (q ⟨0, by decide⟩).val :=
  dot_S200x512_S200x64_S512x64_0_0_1_1_n_n.rhsIdx_val_of_single rfl i q
theorem rhs_pool_1 (i : S512x64.Idx) (q : dot_S200x512_S200x64_S512x64_0_0_1_1_n_n.contr.Idx) :
    (dot_S200x512_S200x64_S512x64_0_0_1_1_n_n.rhsIdx i q 1).val = (i 1).val := by
  unfold DotDims.rhsIdx
  rw [dif_neg (show ¬(1 : Fin S200x64.rank) ∈ dot_S200x512_S200x64_S512x64_0_0_1_1_n_n.rhsBatch by decide), dif_pos (show (1 : Fin S200x64.rank) ∈ dot_S200x512_S200x64_S512x64_0_0_1_1_n_n.rhsNonContracting by decide)]
  rfl

/-- The product of the transposed one-hot matrix with the feature block, into a zero accumulator, reads at (g, q) the sum
    over the block's rows k of the left operand at (k, g) times the right operand at (k, q). -/
theorem matmul_pool_apply (l : FVec Ideal S200x512 .f32) (r : FVec Ideal S200x64 .f32) (g : Fin 512) (q : Fin 64) :
    FloatOps.matmul dot_S200x512_S200x64_S512x64_0_0_1_1_n_n none l r (constant (F := Ideal) S512x64 .f32 0x00000000#32) (ix2 g q)
      = ∑ k : Fin 200, l (ix2 k g) * r (ix2 k q) := by
  rw [Ideal.matmul_constant_zero_apply, ← Equiv.sum_comp (contrEquiv1 dot_S200x512_S200x64_S512x64_0_0_1_1_n_n 200 rfl rfl).symm]
  refine Finset.sum_congr rfl fun k _ => ?_
  have hk := contrEquiv1_symm_val dot_S200x512_S200x64_S512x64_0_0_1_1_n_n 200 rfl rfl k
  have el : dot_S200x512_S200x64_S512x64_0_0_1_1_n_n.lhsIdx (ix2 g q) ((contrEquiv1 dot_S200x512_S200x64_S512x64_0_0_1_1_n_n 200 rfl rfl).symm k) = ix2 k g := funext fun a => Fin.ext (by
    match a with
    | ⟨0, _⟩ => exact (lhs_pool_0 _ _).trans hk
    | ⟨1, _⟩ => exact lhs_pool_1 _ _)
  have er : dot_S200x512_S200x64_S512x64_0_0_1_1_n_n.rhsIdx (ix2 g q) ((contrEquiv1 dot_S200x512_S200x64_S512x64_0_0_1_1_n_n 200 rfl rfl).symm k) = ix2 k q := funext fun a => Fin.ext (by
    match a with
    | ⟨0, _⟩ => exact (rhs_pool_0 _ _).trans hk
    | ⟨1, _⟩ => exact rhs_pool_1 _ _)
  rw [el, er]

/-- The feature sums after a point: the sums before it plus, for graph g and feature q, the features of the block's nodes
    that belong to g. -/
theorem k2_pay4_apply (blk : Vec Ideal S200x64 .f32) (ids : Vec Ideal S200x1 .i32) (s : Vec Ideal S512x64 .f32)
    (g : Fin 512) (q : Fin 64) :
    k2_pay4 (F := Ideal) blk ids s (ix2 g q) = s (ix2 g q) + ∑ r : Fin 200, mask ids r g * blk (ix2 r q) := by
  unfold k2_pay4
  rw [shapeCast_self, shapeCast_self]
  show s (ix2 g q) + FloatOps.matmul dot_S200x512_S200x64_S512x64_0_0_1_1_n_n none (k2_pay3 (F := Ideal) ids) blk
      (constant (F := Ideal) S512x64 .f32 0x00000000#32) (ix2 g q) = _
  rw [matmul_pool_apply]
  refine congrArg (s (ix2 g q) + ·) (Finset.sum_congr rfl fun r _ => ?_)
  rw [k2_pay3_apply]

/-! ### The node counts -/

/-- The node counts after a point: the counts before it plus, for graph g, the number of the block's nodes that belong
    to g (the column sum of the one-hot matrix). -/
theorem k2_pay5_apply (ids : Vec Ideal S200x1 .i32) (cnt : Vec Ideal S512x1 .f32) (g : Fin 512) :
    k2_pay5 (F := Ideal) ids cnt (ix2 g 0) = cnt (ix2 g 0) + ∑ r : Fin 200, mask ids r g := by
  unfold k2_pay5
  rw [shapeCast_self]
  show cnt (ix2 g 0) + shapeCast S512x1 (multiReduction (F := Ideal) .add [0] S512 (k2_pay3 (F := Ideal) ids) 0x00000000#32
      reduces_S200x512_S512 (.inl rfl) rfl) shapeCasts_S512_S512x1 (ix2 g 0) = _
  refine congrArg (cnt (ix2 g 0) + ·) ?_
  refine (shapeCast_apply _ shapeCasts_S512_S512x1 (ix2 g (0 : Fin 1)) (ix1 g) ?_).trans ?_
  · rw [Shape.rowMajor_val_one, Shape.rowMajor_val_two]
    show g.val = g.val * 1 + 0
    omega
  · refine (Ideal.multiReduction_add_single (k2_pay3 (F := Ideal) ids) 0x00000000#32 reduces_S200x512_S512 (.inl rfl) rfl
      (ix1 g)).trans ?_
    show ∑ k : Fin 200, k2_pay3 (F := Ideal) ids (reduces_S200x512_S512.lift (ix1 g) k) = _
    refine Finset.sum_congr rfl fun r _ => ?_
    have e : reduces_S200x512_S512.lift (ix1 g) r = ix2 r g :=
      funext fun a => Fin.ext (by match a with | ⟨0, _⟩ => rfl | ⟨1, _⟩ => rfl)
    rw [e, k2_pay3_apply]

/-! ### The head -/

/-- A 512 x 1 column broadcast along 64 lanes reads, at (g, q), the column at g. -/
theorem bcast_col_apply (v : Vec Ideal S512x1 .f32) (g : Fin 512) (q : Fin 64) :
    broadcastTo S512x64 v broadcasts_S512x1_S512x64 (ix2 g q) = v (ix2 g 0) := by
  refine broadcastTo_apply v broadcasts_S512x1_S512x64 (ix2 g q) (ix2 g (0 : Fin 1)) fun a => ?_
  match a with
  | ⟨0, _⟩ =>
    show g.val = if (512 : Nat) = 1 then 0 else g.val
    rw [if_neg (by decide)]
  | ⟨1, _⟩ =>
    show (0 : Nat) = if (1 : Nat) = 1 then 0 else q.val
    rw [if_pos rfl]

/-- The 1 x 1 bias broadcast down the 512 rows reads its one entry everywhere. -/
theorem bcast_bias_apply (v : Vec Ideal S1x1 .f32) (g : Fin 512) :
    broadcastTo S512x1 (shapeCast S1x1 v shapeCasts_S1x1_S1x1) broadcasts_S1x1_S512x1 (ix2 g 0) = v (ix2 0 0) := by
  rw [shapeCast_self]
  refine broadcastTo_apply v broadcasts_S1x1_S512x1 (ix2 g (0 : Fin 1)) (ix2 (0 : Fin 1) (0 : Fin 1)) fun a => ?_
  match a with
  | ⟨0, _⟩ =>
    show (0 : Nat) = if (1 : Nat) = 1 then 0 else g.val
    rw [if_pos rfl]
  | ⟨1, _⟩ =>
    show (0 : Nat) = if (1 : Nat) = 1 then 0 else 0
    rw [if_pos rfl]

/-- The output at graph g: the mean features (the sums over the count, the count never below one) times the head weights,
    plus the bias. The change of float format before the product is the identity on the extended reals. -/
theorem k2_pay6_apply (s : Vec Ideal S512x64 .f32) (cnt : Vec Ideal S512x1 .f32) (wl : Vec Ideal S64x1 .f32)
    (bl : Vec Ideal S1x1 .f32) (g : Fin 512) :
    k2_pay6 (F := Ideal) s cnt wl bl (ix2 g 0)
      = (∑ q : Fin 64, Ideal.div (s (ix2 g q)) (max (cnt (ix2 g 0)) 1) * wl (ix2 q 0)) + bl (ix2 0 0) := by
  unfold k2_pay6
  show FloatOps.matmul dot_S512x64_S64x1_S512x1_1_0_0_1_n_n none
        (truncf (F := Ideal) .bf16 (divf s (broadcastTo S512x64 (maximumf cnt (broadcast S512x1 (Scalar.ofBits (F := Ideal) .f32 0x3F800000#32)))
          broadcasts_S512x1_S512x64)) bitsLt_bf16_f32)
        (truncf (F := Ideal) .bf16 wl bitsLt_bf16_f32) (constant (F := Ideal) S512x1 .f32 0x00000000#32) (ix2 g 0)
      + broadcastTo S512x1 (shapeCast S1x1 bl shapeCasts_S1x1_S1x1) broadcasts_S1x1_S512x1 (ix2 g 0) = _
  rw [bcast_bias_apply]
  refine congrArg (· + bl (ix2 0 0)) ?_
  refine (Cert.Matmul.matmul_plain_apply none _ _ g (0 : Fin 1)).trans ?_
  refine Finset.sum_congr rfl fun q _ => ?_
  show Ideal.div (s (ix2 g q)) (broadcastTo S512x64 (maximumf cnt (broadcast S512x1 (Scalar.ofBits (F := Ideal) .f32 0x3F800000#32)))
      broadcasts_S512x1_S512x64 (ix2 g q)) * wl (ix2 q 0) = _
  rw [bcast_col_apply]
  show Ideal.div (s (ix2 g q)) (max (cnt (ix2 g 0)) (Ideal.ofBits .f32 0x3F800000#32)) * wl (ix2 q 0) = _
  rw [Cert.Spec.ofBits_one]

end Cert.KernelIdeal.HandV

end
-- ==== Proof.KI.Val2.lean ====
/-
  The value of the pooling region: what the output array holds after the grid of 250 points.

  Point t reads rows [200 t, 200 t + 200) of the node features (50000 x 64) and of the graph ids (50000 x 1). The feature
  accumulator after point n holds, at (g, q), the sum over the nodes i < 200 (n + 1) whose id is g of the feature (i, q);
  the count accumulator holds the number of those nodes. After the last point every node has been met once, so the sums
  range over all the nodes of graph g. The last point alone writes the output block back, and that block is the whole
  512 x 1 output array: the mean features times the head weights plus the bias.
-/
import proofs.«428672_j24747601559656_4_alg».proof.Proof.KI.Pay2
import proofs.«428672_j24747601559656_4_alg».proof.Proof.KI.Reg2
import proofs.«428672_j24747601559656_4_alg».proof.Proof.LibRows
import Idealize.ShloMosaic.Lib.Pipeline.Value
import Mathlib.Logic.Equiv.Fin.Basic
import Mathlib.Algebra.BigOperators.Fin
import Mathlib.Data.Fintype.BigOperators

set_option maxRecDepth 16384

noncomputable section

namespace Cert.KernelIdeal.HandV

open scoped BigOperators
open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ### The arrays and the blocks, at their literal types -/

/-- The node features, the graph ids, the head weights and the bias, as the region finds them. -/
abbrev featArr (c : Dev nD) : Vec Ideal S50000x64 .f32 := V c main_v63
abbrev idArr (c : Dev nD) : Vec Ideal S50000x1 .i32 := V c main_v64
abbrev wArr (c : Dev nD) : Vec Ideal S64x1 .f32 := V c main_arg8
abbrev bArr (c : Dev nD) : Vec Ideal S1x1 .f32 := V c main_v65

/-- Their blocks at point t. -/
abbrev featBlk (c : Dev nD) (t : Fin cfg2.N) : Vec Ideal S200x64 .f32 := iblk2 V c 0 t
abbrev idBlk (c : Dev nD) (t : Fin cfg2.N) : Vec Ideal S200x1 .i32 := iblk2 V c 1 t
abbrev wBlk (c : Dev nD) (t : Fin cfg2.N) : Vec Ideal S64x1 .f32 := iblk2 V c 2 t
abbrev bBlk (c : Dev nD) (t : Fin cfg2.N) : Vec Ideal S1x1 .f32 := iblk2 V c 3 t

/-- The printed index maps over the grid: the two row windows move with the point, the three whole windows stay. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem N2 : cfg2.N = 250 := N_2

/-- Node r of block t is node 200 t + r of the graph batch. -/
def node (t : Fin cfg2.N) (r : Fin 200) : Fin 50000 :=
  ⟨200 * t.val + r.val, by have h : t.val < 250 := lt_of_lt_of_eq t.isLt N2; have := r.isLt; omega⟩

/-- A feature block's entry (r, q) is the array's entry (200 t + r, q). -/
theorem featBlk_apply (c : Dev nD) (t : Fin cfg2.N) (r : Fin 200) (q : Fin 64) :
    featBlk V c t (ix2 r q) = featArr V c (ix2 (node t r) q) := by
  obtain ⟨e0, e1, -⟩ := idx_facts2 t
  show iblk2 V c 0 t (ix2 r q) = V c main_v63 (ix2 (node t r) q)
  unfold iblk2
  rw [View.read_apply]
  show V c main_v63 _ = V c main_v63 _
  congr 1
  funext a
  apply Fin.ext
  match a with
  | ⟨0, _⟩ => show win2_0.index t 0 * 200 + 1 * r.val = 200 * t.val + r.val; rw [e0]; omega
  | ⟨1, _⟩ => show win2_0.index t 1 * 64 + 1 * q.val = q.val; rw [e1]; omega

/-- An id block's entry (r, 0) is the array's entry (200 t + r, 0). -/
theorem idBlk_apply (c : Dev nD) (t : Fin cfg2.N) (r : Fin 200) :
    idBlk V c t (ix2 r 0) = idArr V c (ix2 (node t r) 0) := by
  obtain ⟨-, -, e0, e1, -⟩ := idx_facts2 t
  show iblk2 V c 1 t (ix2 r 0) = V c main_v64 (ix2 (node t r) 0)
  unfold iblk2
  rw [View.read_apply]
  show V c main_v64 _ = V c main_v64 _
  congr 1
  funext a
  apply Fin.ext
  match a with
  | ⟨0, _⟩ => show win2_1.index t 0 * 200 + 1 * r.val = 200 * t.val + r.val; rw [e0]; omega
  | ⟨1, _⟩ => show win2_1.index t 1 * 1 + 1 * 0 = 0; rw [e1]

/-- The weights' block is the whole weight column, -/
theorem wBlk_apply (c : Dev nD) (t : Fin cfg2.N) (q : Fin 64) : wBlk V c t (ix2 q 0) = wArr V c (ix2 q 0) := by
  obtain ⟨-, -, -, -, e0, e1, -⟩ := idx_facts2 t
  show iblk2 V c 2 t (ix2 q 0) = V c main_arg8 (ix2 q 0)
  unfold iblk2
  rw [View.read_apply]
  show V c main_arg8 _ = V c main_arg8 _
  congr 1
  funext a
  apply Fin.ext
  match a with
  | ⟨0, _⟩ => show win2_2.index t 0 * 64 + 1 * q.val = q.val; rw [e0]; omega
  | ⟨1, _⟩ => show win2_2.index t 1 * 1 + 1 * 0 = 0; rw [e1]

/-- and the bias's block the one bias. -/
theorem bBlk_apply (c : Dev nD) (t : Fin cfg2.N) : bBlk V c t (ix2 0 0) = bArr V c (ix2 0 0) := by
  obtain ⟨-, -, -, -, -, -, e0, e1, -⟩ := idx_facts2 t
  show iblk2 V c 3 t (ix2 0 0) = V c main_v65 (ix2 0 0)
  unfold iblk2
  rw [View.read_apply]
  show V c main_v65 _ = V c main_v65 _
  congr 1
  funext a
  apply Fin.ext
  match a with
  | ⟨0, _⟩ => show win2_3.index t 0 * 1 + 1 * 0 = 0; rw [e0]
  | ⟨1, _⟩ => show win2_3.index t 1 * 1 + 1 * 0 = 0; rw [e1]

/-! ### Regrouping the blocks' sums into the sum over all nodes -/

/-- Node r of block t, for t below 250: node 200 t + r. -/
def nodeOf (t : ℕ) (h : t < 250) (r : Fin 200) : Fin 50000 := ⟨200 * t + r.val, by have := r.isLt; omega⟩

/-- The sum over 250 blocks of the sums over their 200 rows is the sum over all 50000 nodes. -/
theorem sum_blocks {M : Type*} [AddCommMonoid M] (f : Fin 50000 → M) :
    ∑ t : Fin 250, ∑ r : Fin 200, f (nodeOf t.val t.isLt r) = ∑ i : Fin 50000, f i := by
  rw [← Equiv.sum_comp ((finProdFinEquiv (m := 250) (n := 200)).trans (finCongr (by norm_num : 250 * 200 = 50000))) f,
    Fintype.sum_prod_type]
  refine Finset.sum_congr rfl fun t _ => Finset.sum_congr rfl fun r _ => congrArg f (Fin.ext ?_)
  simp [nodeOf, finProdFinEquiv]
  omega

/-- The same with the blocks counted by a range of naturals, as an induction over the grid leaves them. -/
theorem sum_range_blocks {M : Type*} [AddCommMonoid M] (f : Fin 50000 → M) :
    ∑ t ∈ Finset.range 250, (if h : t < 250 then ∑ r : Fin 200, f (nodeOf t h r) else 0) = ∑ i : Fin 50000, f i := by
  rw [← Fin.sum_univ_eq_sum_range (fun t => if h : t < 250 then ∑ r : Fin 200, f (nodeOf t h r) else 0) 250, ← sum_blocks f]
  refine Finset.sum_congr rfl fun t _ => ?_
  rw [dif_pos t.isLt]

/-- A sum weighted by an indicator is the sum over the indices it selects. -/
theorem sum_ind_mul {ι : Type*} [Fintype ι] (p : ι → Prop) [DecidablePred p] (f : ι → EReal) :
    ∑ i, (if p i then (1 : EReal) else 0) * f i = ∑ i ∈ Finset.univ.filter p, f i := by
  rw [Finset.sum_filter]
  refine Finset.sum_congr rfl fun i _ => ?_
  split
  · rw [one_mul]
  · rw [zero_mul]

/-- The sum of an indicator counts the indices it selects. -/
theorem sum_ind {ι : Type*} [Fintype ι] (p : ι → Prop) [DecidablePred p] :
    ∑ i, (if p i then (1 : EReal) else 0) = ∑ i ∈ Finset.univ.filter p, (1 : EReal) := by
  rw [Finset.sum_filter]

/-! ### The stores' contents at an index -/

theorem init0_apply (g : Fin 512) (q : Fin 64) : acc2_init0 (F := Ideal) (ix2 g q) = 0 := by
  rw [acc2_init0_eq]; exact k2_pay1_apply g q
theorem init1_apply (g : Fin 512) : acc2_init1 (F := Ideal) (ix2 g 0) = 0 := by
  rw [acc2_init1_eq]; exact k2_pay2_apply g
theorem step0_apply (x0 : Vec Ideal S200x64 .f32) (x1 : Vec Ideal S200x1 .i32) (s0 : Vec Ideal S512x64 .f32)
    (g : Fin 512) (q : Fin 64) :
    acc2_step0 x0 x1 s0 (ix2 g q) = s0 (ix2 g q) + ∑ r : Fin 200, mask x1 r g * x0 (ix2 r q) := by
  rw [acc2_step0_eq]; exact k2_pay4_apply x0 x1 s0 g q
theorem step1_apply (x1 : Vec Ideal S200x1 .i32) (s1 : Vec Ideal S512x1 .f32) (g : Fin 512) :
    acc2_step1 x1 s1 (ix2 g 0) = s1 (ix2 g 0) + ∑ r : Fin 200, mask x1 r g := by
  rw [acc2_step1_eq]; exact k2_pay5_apply x1 s1 g
theorem out_apply (s0 : Vec Ideal S512x64 .f32) (s1 : Vec Ideal S512x1 .f32) (x2 : Vec Ideal S64x1 .f32)
    (x3 : Vec Ideal S1x1 .f32) (g : Fin 512) :
    out2_4 s0 s1 x2 x3 (ix2 g 0)
      = (∑ q : Fin 64, Ideal.div (s0 (ix2 g q)) (max (s1 (ix2 g 0)) 1) * x2 (ix2 q 0)) + x3 (ix2 0 0) := by
  rw [out2_4_eq]; exact k2_pay6_apply s0 s1 x2 x3 g

/-! ### One point's contribution, over the arrays -/

/-- Whether node i belongs to graph g, as an extended real. -/
def ind (c : Dev nD) (i : Fin 50000) (g : Fin 512) : EReal :=
  if (idArr V c (ix2 i 0)).toInt = (g.val : Int) then 1 else 0

/-- Point t, for t below 250. -/
abbrev gp (t : ℕ) (h : t < 250) : Fin cfg2.N := ⟨t, lt_of_lt_of_eq h N2.symm⟩

/-- The one-hot entry of a block is the indicator of the node under it. -/
theorem mask_idBlk (c : Dev nD) (t : Fin cfg2.N) (r : Fin 200) (g : Fin 512) :
    mask (idBlk V c t) r g = ind V c (node t r) g := by
  unfold mask ind
  rw [idBlk_apply]

theorem pt0_eq (c : Dev nD) (g : Fin 512) (q : Fin 64) (t : ℕ) (h : t < 250) :
    ∑ r : Fin 200, mask (idBlk V c (gp t h)) r g * featBlk V c (gp t h) (ix2 r q)
      = ∑ r : Fin 200, ind V c (nodeOf t h r) g * featArr V c (ix2 (nodeOf t h r) q) := by
  refine Finset.sum_congr rfl fun r _ => ?_
  rw [mask_idBlk, featBlk_apply]
  rfl

theorem pt1_eq (c : Dev nD) (g : Fin 512) (t : ℕ) (h : t < 250) :
    ∑ r : Fin 200, mask (idBlk V c (gp t h)) r g = ∑ r : Fin 200, ind V c (nodeOf t h r) g := by
  refine Finset.sum_congr rfl fun r _ => ?_
  rw [mask_idBlk]
  rfl

/-! ### The two accumulators after point n -/

/-- The feature sums after point n: over the blocks met so far, the features of the nodes of graph g. -/
theorem acc0_apply (c : Dev nD) (g : Fin 512) (q : Fin 64) : ∀ (n : ℕ) (hn : n < cfg2.N),
    (accAt2 V c n hn).1 (ix2 g q)
      = ∑ t ∈ Finset.range (n + 1),
          (if h : t < 250 then ∑ r : Fin 200, ind V c (nodeOf t h r) g * featArr V c (ix2 (nodeOf t h r) q) else 0)
  | 0, hn => by
    rw [accAt2_zero]
    dsimp only
    refine (step0_apply (featBlk V c ⟨0, hn⟩) (idBlk V c ⟨0, hn⟩) acc2_init0 g q).trans ?_
    rw [init0_apply, zero_add, Finset.sum_range_one, dif_pos (by decide : (0 : ℕ) < 250)]
    exact pt0_eq V c g q 0 (by decide)
  | n + 1, hn => by
    have h250 : n + 1 < 250 := lt_of_lt_of_eq hn N2
    rw [accAt2_succ]
    dsimp only
    refine (step0_apply (featBlk V c ⟨n + 1, hn⟩) (idBlk V c ⟨n + 1, hn⟩) _ g q).trans ?_
    rw [acc0_apply c g q n (Nat.lt_of_succ_lt hn), Finset.sum_range_succ _ (n + 1), dif_pos h250]
    exact congrArg (_ + ·) (pt0_eq V c g q (n + 1) h250)

/-- The node counts after point n: over the blocks met so far, the number of nodes of graph g. -/
theorem acc1_apply (c : Dev nD) (g : Fin 512) : ∀ (n : ℕ) (hn : n < cfg2.N),
    (accAt2 V c n hn).2 (ix2 g 0)
      = ∑ t ∈ Finset.range (n + 1), (if h : t < 250 then ∑ r : Fin 200, ind V c (nodeOf t h r) g else 0)
  | 0, hn => by
    rw [accAt2_zero]
    dsimp only
    refine (step1_apply (idBlk V c ⟨0, hn⟩) acc2_init1 g).trans ?_
    rw [init1_apply, zero_add, Finset.sum_range_one, dif_pos (by decide : (0 : ℕ) < 250)]
    exact pt1_eq V c g 0 (by decide)
  | n + 1, hn => by
    have h250 : n + 1 < 250 := lt_of_lt_of_eq hn N2
    rw [accAt2_succ]
    dsimp only
    refine (step1_apply (idBlk V c ⟨n + 1, hn⟩) _ g).trans ?_
    rw [acc1_apply c g n (Nat.lt_of_succ_lt hn), Finset.sum_range_succ _ (n + 1), dif_pos h250]
    exact congrArg (_ + ·) (pt1_eq V c g (n + 1) h250)

/-! ### After the last point -/

/-- The nodes of graph g: those whose id, read signed, is g. -/
abbrev graphNodes (c : Dev nD) (g : Fin 512) : Finset (Fin 50000) :=
  Finset.univ.filter fun i : Fin 50000 => LibRows.rowOf (N := 512) (idArr V c) i = some g

theorem graphNodes_eq (c : Dev nD) (g : Fin 512) :
    (Finset.univ.filter fun i : Fin 50000 => (idArr V c (ix2 i 0)).toInt = (g.val : Int)) = graphNodes V c g :=
  Finset.filter_congr fun i _ => (LibRows.rowOf_eq_some_iff (idArr V c) i g).symm

/-- After all 250 points the feature sums range over all the nodes of graph g, -/
theorem sums_final (c : Dev nD) (g : Fin 512) (q : Fin 64) (h : 249 < cfg2.N) :
    (accAt2 V c 249 h).1 (ix2 g q) = ∑ i ∈ graphNodes V c g, featArr V c (ix2 i q) := by
  rw [acc0_apply V c g q 249 h]
  refine (sum_range_blocks fun i => ind V c i g * featArr V c (ix2 i q)).trans ?_
  rw [← graphNodes_eq]
  exact sum_ind_mul (fun i : Fin 50000 => (idArr V c (ix2 i 0)).toInt = (g.val : Int)) fun i => featArr V c (ix2 i q)

/-- and the counts are the number of nodes of graph g. -/
theorem count_final (c : Dev nD) (g : Fin 512) (h : 249 < cfg2.N) :
    (accAt2 V c 249 h).2 (ix2 g 0) = ∑ i ∈ graphNodes V c g, (1 : EReal) := by
  rw [acc1_apply V c g 249 h]
  refine (sum_range_blocks fun i => ind V c i g).trans ?_
  rw [← graphNodes_eq]
  exact sum_ind (fun i : Fin 50000 => (idArr V c (ix2 i 0)).toInt = (g.val : Int))

/-! ### The output array -/

/-- The last point. -/
abbrev tLast : Fin cfg2.N := ⟨249, by rw [N2]; decide⟩

/-- The output block the last point leaves. -/
abbrev outBlk (c : Dev nD) : Vec Ideal S512x1 .f32 :=
  out2_4 (accAt2 V c 249 tLast.isLt).1 (accAt2 V c 249 tLast.isLt).2 (wBlk V c tLast) (bBlk V c tLast)

/-- The one write-back, at the last point, writes that block: it is the whole 512 x 1 array read at zero offsets. -/
theorem flushed4_eq (c : Dev nD) (t : Fin cfg2.N) (hf : (cfg2.win 4).flush t = true) :
    (dat2 V c).flushed 4 t = ((cfg2.win 4).blk t).view.read (Elt Ideal) (outBlk V c) := by
  have h : t.val = 249 := by have := (flush2_4 t).mp hf; have := lt_of_lt_of_eq t.isLt N2; omega
  obtain rfl : t = tLast := Fin.ext h
  show (cfg2.win 4).cut (grid2.coords tLast) ((dat2 V c).after 4 tLast) = _
  rw [after2_4]
  have hz' : (fun a => win2_4.index tLast a * main_v66.ty.shape.size a) = fun _ => 0 :=
    funext fun a => by fin_cases a <;> decide
  exact (Memref.read_access_unit_zero (Elt Ideal) main_v66 hz' (fun a => by rw [congrFun hz' a]; simp) (outBlk V c)).symm

/-- So the output array ends holding the last point's block. -/
theorem arr4_final (c : Dev nD) : (dat2 V c).arrAt 4 cfg2.N = outBlk V c :=
  (dat2 V c).arrAt_eq_of_cover 4 (outBlk V c) (flushed4_eq V c) fun i =>
    ⟨tLast, (flush2_4 tLast).mpr rfl, by
      show i ∈ ((View.whole main_v66).slice (win2_4.rect tLast)).set
      rw [View.set_slice_whole, Rect.mem_set_unit]
      intro a
      have h0 : (i 0 : Nat) < 512 := (i 0).isLt
      have h1 : (i 1 : Nat) < 1 := (i 1).isLt
      match a with
      | ⟨0, _⟩ => show win2_4.index tLast 0 * win2_4.size 0 ≤ (i 0 : Nat) ∧ (i 0 : Nat) < win2_4.index tLast 0 * win2_4.size 0 + win2_4.xsize (grid2.coords tLast) 0
                  rw [show win2_4.index tLast 0 * win2_4.size 0 = 0 from by decide +kernel, show win2_4.xsize (grid2.coords tLast) 0 = 512 from by decide +kernel]; omega
      | ⟨1, _⟩ => show win2_4.index tLast 1 * win2_4.size 1 ≤ (i 1 : Nat) ∧ (i 1 : Nat) < win2_4.index tLast 1 * win2_4.size 1 + win2_4.xsize (grid2.coords tLast) 1
                  rw [show win2_4.index tLast 1 * win2_4.size 1 = 0 from by decide +kernel, show win2_4.xsize (grid2.coords tLast) 1 = 1 from by decide +kernel]; omega⟩

/-- THE VALUE OF THE REGION: the output array at graph g is the head of the mean, over the nodes of g, of the node
    features. -/
theorem val2 (c : Dev nD) (g : Fin 512) :
    ((dat2 (F := Ideal) V c).arrAt 4 cfg2.N : Vec Ideal S512x1 .f32) (ix2 g 0)
      = Cert.Spec.head (graphNodes V c) (fun i q => featArr V c (ix2 i q)) (fun q => wArr V c (ix2 q 0))
          (bArr V c (ix2 0 0)) g := by
  rw [arr4_final V c]
  refine (out_apply (accAt2 V c 249 tLast.isLt).1 (accAt2 V c 249 tLast.isLt).2 (wBlk V c tLast) (bBlk V c tLast) g).trans ?_
  unfold Cert.Spec.head
  rw [bBlk_apply]
  refine congrArg (· + bArr V c (ix2 0 0)) (Finset.sum_congr rfl fun q _ => ?_)
  rw [sums_final, count_final, wBlk_apply]

end Cert.KernelIdeal.HandV

end
-- ==== Proof.KI.HostVal.lean ====
/-
  WHAT THE KERNEL PROGRAM'S HOST STRETCHES COMPUTE, as values, from ANY contents of the TensorCore's buffers.

  @main runs five stretches of host operations around its three kernel regions. The first three prepare region 0's
  operands: the edge normalisation (the source and destination columns with the self-loops appended, the weights with a
  one per self-loop, the weighted in-degree, its reciprocal square root where it is positive, and for every edge the
  product of the scale at its source, its weight and the scale at its destination), then the aggregation of the node
  features over the edges — a gather of the source rows, each scaled by its edge's normalised weight, accumulated by a
  scatter into the destination rows of a zero array — and the bias row as a one-row matrix. The fourth stretch
  aggregates region 0's result the same way, recomputing the wrapped source index and the destination index from the
  two columns, and reshapes the second bias row. The fifth reshapes the graph numbers into a column and the last bias
  into a one-by-one matrix.

  Every statement is about `StableHlo.after ops U`, the fold of a stretch's operations over arbitrary contents `U`, so
  that it can be used at whatever contents the run reaches the stretch with. The normalisation is stated as the terms
  of `Cert.Chain`, which the reference program's operations unfold to as well; an accumulating scatter read at row
  `d`, column `k` is the sum over the edges whose destination is `d` (`LibRows.scatterAdd_rows2_apply`), a gather read at
  edge `e` is the table's row at the edge's clamped source (`LibRows.gather_rows2_apply`), which makes the aggregation
  `Cert.Spec.aggS` index by index.
-/
import proofs.«428672_j24747601559656_4_alg».proof.Proof.Gen.KernelIdeal.Launch
import proofs.«428672_j24747601559656_4_alg».proof.Proof.Gen.ReferenceIdeal
import proofs.«428672_j24747601559656_4_alg».proof.Proof.Chain
import proofs.«428672_j24747601559656_4_alg».proof.Proof.LibRows
import proofs.«428672_j24747601559656_4_alg».proof.Proof.Spec
import Idealize.ShloMosaic.Lib.StableHlo.Run
import Idealize.ShloMosaic.PureOps.Ideal
import Idealize.ShloMosaic.Lib.ValueIdx
import Idealize.ShloMosaic.Lib.IdealHost
import Idealize.ShloMosaic.Lib.Pipeline.Value

set_option maxRecDepth 16384

noncomputable section

namespace Cert.KernelIdeal.HandV

open Cert.KernelIdeal Cert.KernelIdeal.Gen
open Idealize.ShloMosaic Idealize.ShloMosaic.TcCoe Idealize.ShloMosaic.ValueIdx Idealize.ShloMosaic.StableHlo
open Idealize.ShloMosaic.LibRows
open scoped BigOperators

/-! ## Layout operations read at an index, for any sizes -/

section Layout
variable {α : Type} {E D : Nat}

/-- A column `[E]` viewed as an `[E, 1]` array reads the column's entry. -/
theorem col_apply (h : (⟨1, ![E]⟩ : Shape).BroadcastsInDim ⟨2, ![E, 1]⟩ ![0]) (v : (⟨1, ![E]⟩ : Shape).Idx → α) (e : Fin E) :
    broadcastInDim ⟨2, ![E, 1]⟩ ![0] h v (ix2 e 0) = v (ix1 e) := by
  refine broadcastInDim_apply _ h v (ix2 e 0) (ix1 e) fun a => ?_
  match a with
  | ⟨0, _⟩ =>
    show e.val = if E = 1 then 0 else e.val
    have := e.isLt
    split <;> omega

/-- An `[E, 1]` array broadcast along its unit axis to `[E, D]` reads the entry of its row. -/
theorem wide_apply (h : (⟨2, ![E, 1]⟩ : Shape).BroadcastsInDim ⟨2, ![E, D]⟩ ![0, 1]) (c : (⟨2, ![E, 1]⟩ : Shape).Idx → α)
    (e : Fin E) (k : Fin D) :
    broadcastInDim ⟨2, ![E, D]⟩ ![0, 1] h c (ix2 e k) = c (ix2 e 0) := by
  refine broadcastInDim_apply _ h c (ix2 e k) (ix2 e 0) fun a => ?_
  match a with
  | ⟨0, _⟩ =>
    show e.val = if E = 1 then 0 else e.val
    have := e.isLt
    split <;> omega
  | ⟨1, _⟩ =>
    show (0 : Nat) = if (1 : Nat) = 1 then 0 else k.val
    rfl

/-- A vector `[D]` reshaped to a one-row matrix `[1, D]` reads the vector's entry. -/
theorem row_apply (h : (⟨1, ![D]⟩ : Shape).ShapeCasts ⟨2, ![1, D]⟩) (v : (⟨1, ![D]⟩ : Shape).Idx → α) (q : Fin D) :
    shapeCast ⟨2, ![1, D]⟩ v h (ix2 0 q) = v (ix1 q) := by
  refine shapeCast_apply v h (ix2 0 q) (ix1 q) ?_
  rw [Shape.rowMajor_val_two, Shape.rowMajor_val_one]
  show q.val = 0 * D + q.val
  omega

/-- A vector `[E]` reshaped to a one-column matrix `[E, 1]` reads the vector's entry. -/
theorem colCast_apply (h : (⟨1, ![E]⟩ : Shape).ShapeCasts ⟨2, ![E, 1]⟩) (v : (⟨1, ![E]⟩ : Shape).Idx → α) (i : Fin E) :
    shapeCast ⟨2, ![E, 1]⟩ v h (ix2 i 0) = v (ix1 i) := by
  refine shapeCast_apply v h (ix2 i 0) (ix1 i) ?_
  rw [Shape.rowMajor_val_two, Shape.rowMajor_val_one]
  show i.val = i.val * 1 + 0
  omega

end Layout

/-- The contents of the TensorCore's buffers, at the ideal instance. -/
abbrev Vals := Valuation τ sig (Elt Ideal)

variable (U : Vals)

/-- A column of node numbers as the `[E, 1]` index array a scatter or a gather takes. -/
abbrev eIdx (v : IVec S1650000 32) : IVec S1650000x1 32 := broadcastInDim S1650000x1 ![0] bcast_S1650000_S1650000x1_0 v

/-- A column of edge values as an `[E, 1]` array. -/
abbrev eCol (v : FVec Ideal S1650000 .f32) : FVec Ideal S1650000x1 .f32 := broadcastInDim S1650000x1 ![0] bcast_S1650000_S1650000x1_0 v

/-- The edges whose scatter index names row `d`. -/
abbrev edgesAt (I : IVec S1650000x1 32) (d : Fin 50000) : Finset (Fin 1650000) :=
  Finset.univ.filter fun e : Fin 1650000 => rowOf (N := 50000) I e = some d

/-- The `[E, 1]` array of a column reads the column's entry. -/
theorem eCol_apply (v : FVec Ideal S1650000 .f32) (e : Fin 1650000) : eCol v (ix2 e 0) = v (ix1 e) :=
  col_apply bcast_S1650000_S1650000x1_0 v e

/-! ## The first stretch: the two columns, the weights, the degrees and their scale -/

set_option maxHeartbeats 4000000 in
theorem A_v5 : (StableHlo.after (hostOps0 (F := Ideal)) U main_v5 : IVec S1650000 32) = Cert.Chain.src (U main_arg1) := by
  dsimp only [hostOps0]; after_results_simp <;> rfl

set_option maxHeartbeats 4000000 in
theorem A_v6 : (StableHlo.after (hostOps0 (F := Ideal)) U main_v6 : IVec S1650000 32) = Cert.Chain.dst (U main_arg1) := by
  dsimp only [hostOps0]; after_results_simp <;> rfl

set_option maxHeartbeats 4000000 in
theorem A_v8 : (StableHlo.after (hostOps0 (F := Ideal)) U main_v8 : FVec Ideal S1650000 .f32) = Cert.Chain.wgt (U main_arg2) := by
  dsimp only [hostOps0]; after_results_simp <;> rfl

set_option maxHeartbeats 4000000 in
theorem A_v13 : (StableHlo.after (hostOps0 (F := Ideal)) U main_v13 : IVec S50000 1) = Cert.Chain.degPos (U main_arg1) (U main_arg2) := by
  dsimp only [hostOps0]; after_results_simp <;> rfl

set_option maxHeartbeats 4000000 in
theorem A_v16 : (StableHlo.after (hostOps0 (F := Ideal)) U main_v16 : FVec Ideal S50000 .f32) = Cert.Chain.degRsqrt (U main_arg1) (U main_arg2) := by
  dsimp only [hostOps0]; after_results_simp <;> rfl

set_option maxHeartbeats 4000000 in
theorem A_cst3 : (StableHlo.after (hostOps0 (F := Ideal)) U main_cst_3 : FVec Ideal S_ .f32) = Cert.Chain.zeroS := by
  dsimp only [hostOps0]; after_results_simp <;> rfl

set_option maxHeartbeats 4000000 in
theorem A_arg0 : (StableHlo.after (hostOps0 (F := Ideal)) U main_arg0 : FVec Ideal S50000x128 .f32) = U main_arg0 := by
  dsimp only [hostOps0]; after_results_simp <;> rfl

set_option maxHeartbeats 4000000 in
theorem A_arg5 : (StableHlo.after (hostOps0 (F := Ideal)) U main_arg5 : FVec Ideal S64 .f32) = U main_arg5 := by
  dsimp only [hostOps0]; after_results_simp <;> rfl

/-! ## The second stretch: the selection of the scale -/

theorem B_v17 : (StableHlo.after (hostOps0_1 (F := Ideal)) U main_v17 : FVec Ideal S50000 .f32)
    = select (U main_v13 : IVec S50000 1) (U main_v16 : FVec Ideal S50000 .f32)
        (broadcastInDim S50000 ![] bcast_S_S50000 (id (U main_cst_3 : FVec Ideal S_ .f32))) := by
  dsimp only [hostOps0_1]; after_results_simp <;> rfl

theorem B_v5 : (StableHlo.after (hostOps0_1 (F := Ideal)) U main_v5 : IVec S1650000 32) = U main_v5 := by
  dsimp only [hostOps0_1]; after_results_simp <;> rfl
theorem B_v6 : (StableHlo.after (hostOps0_1 (F := Ideal)) U main_v6 : IVec S1650000 32) = U main_v6 := by
  dsimp only [hostOps0_1]; after_results_simp <;> rfl
theorem B_v8 : (StableHlo.after (hostOps0_1 (F := Ideal)) U main_v8 : FVec Ideal S1650000 .f32) = U main_v8 := by
  dsimp only [hostOps0_1]; after_results_simp <;> rfl
theorem B_arg0 : (StableHlo.after (hostOps0_1 (F := Ideal)) U main_arg0 : FVec Ideal S50000x128 .f32) = U main_arg0 := by
  dsimp only [hostOps0_1]; after_results_simp <;> rfl
theorem B_arg5 : (StableHlo.after (hostOps0_1 (F := Ideal)) U main_arg5 : FVec Ideal S64 .f32) = U main_arg5 := by
  dsimp only [hostOps0_1]; after_results_simp <;> rfl

/-! ## The third stretch: the normalised weights and the first aggregation -/

set_option maxHeartbeats 4000000 in
theorem C_v33 : (StableHlo.after (hostOps0_2 (F := Ideal)) U main_v33 : FVec Ideal S1650000 .f32)
    = mulf (F := Ideal) (φ := .f32)
        (mulf (F := Ideal) (φ := .f32)
          (Host.gather gather_S50000_S1650000x1_S1650000_n_0_n_n_0_1_1 (U main_v17 : FVec Ideal S50000 .f32) (eIdx (Cert.Chain.wrapped (U main_v5))))
          (U main_v8 : FVec Ideal S1650000 .f32))
        (Host.gather gather_S50000_S1650000x1_S1650000_n_0_n_n_0_1_1 (U main_v17 : FVec Ideal S50000 .f32) (eIdx (Cert.Chain.wrapped (U main_v6)))) := by
  dsimp only [hostOps0_2]; after_results_simp <;> rfl

set_option maxHeartbeats 4000000 in
theorem C_v5 : (StableHlo.after (hostOps0_2 (F := Ideal)) U main_v5 : IVec S1650000 32) = U main_v5 := by
  dsimp only [hostOps0_2]; after_results_simp <;> rfl

set_option maxHeartbeats 4000000 in
theorem C_v6 : (StableHlo.after (hostOps0_2 (F := Ideal)) U main_v6 : IVec S1650000 32) = U main_v6 := by
  dsimp only [hostOps0_2]; after_results_simp <;> rfl

set_option maxHeartbeats 4000000 in
theorem C_v46 : (StableHlo.after (hostOps0_2 (F := Ideal)) U main_v46 : FVec Ideal S50000x128 .f32)
    = Host.scatterAdd (F := Ideal) scatter_S50000x128_S1650000x1_S1650000x128_1_0_0_1
        (broadcastInDim S50000x128 ![] bcast_S_S50000x128 (constant (F := Ideal) S_ .f32 0x00000000#32))
        (eIdx (U main_v6))
        (mulf (F := Ideal) (φ := .f32)
          (broadcastInDim S1650000x128 ![0, 1] bcast_S1650000x1_S1650000x128_0_1
            (eCol (StableHlo.after (hostOps0_2 (F := Ideal)) U main_v33 : FVec Ideal S1650000 .f32)))
          (Host.gather gather_S50000x128_S1650000x1_S1650000x128_1_0_n_n_0_1_1128 (U main_arg0 : FVec Ideal S50000x128 .f32)
            (eIdx (Cert.Chain.wrapped (U main_v5))))) := by
  dsimp only [hostOps0_2]; after_results_simp <;> rfl

set_option maxHeartbeats 4000000 in
theorem C_v47 : (StableHlo.after (hostOps0_2 (F := Ideal)) U main_v47 : FVec Ideal S1x64 .f32)
    = fun i => shapeCast S1x64 (U main_arg5 : FVec Ideal S64 .f32) shapeCasts_S64_S1x64 i := by
  dsimp only [hostOps0_2]; after_results_simp <;> rfl

/-! ## Region 0's entry: the three stretches in turn -/

/-- The contents region 0 is entered from. -/
abbrev U3 : Vals := StableHlo.after (hostOps0_2 (F := Ideal)) (StableHlo.after (hostOps0_1 (F := Ideal)) (StableHlo.after (hostOps0 (F := Ideal)) U))

/-- The source column with the self-loops appended. -/
theorem hv_v5 : (U3 U main_v5 : IVec S1650000 32) = Cert.Chain.src (U main_arg1) :=
  (C_v5 _).trans ((B_v5 _).trans (A_v5 U))

/-- The destination column with the self-loops appended. -/
theorem hv_v6 : (U3 U main_v6 : IVec S1650000 32) = Cert.Chain.dst (U main_arg1) :=
  (C_v6 _).trans ((B_v6 _).trans (A_v6 U))

/-- The normalised weight of every edge. -/
theorem hv_v33 : (U3 U main_v33 : FVec Ideal S1650000 .f32) = Cert.Chain.nrm (U main_arg1) (U main_arg2) := by
  refine (C_v33 _).trans ?_
  rw [B_v17, B_v5, B_v6, B_v8, A_v13, A_v16, A_cst3, A_v5, A_v6, A_v8]
  rfl

/-- The bias row of the first layer as a one-row matrix. -/
theorem hv_v47 (q : Fin 64) : (U3 U main_v47 : FVec Ideal S1x64 .f32) (ix2 0 q) = (U main_arg5 : FVec Ideal S64 .f32) (ix1 q) := by
  refine (congrFun (C_v47 _) (ix2 0 q)).trans ?_
  rw [B_arg5, A_arg5]
  exact row_apply shapeCasts_S64_S1x64 _ q

/-- The first aggregation as an accumulating scatter of the scaled source rows. -/
theorem U3_v46 : (U3 U main_v46 : FVec Ideal S50000x128 .f32)
    = Host.scatterAdd (F := Ideal) scatter_S50000x128_S1650000x1_S1650000x128_1_0_0_1
        (broadcastInDim S50000x128 ![] bcast_S_S50000x128 (constant (F := Ideal) S_ .f32 0x00000000#32))
        (Cert.Chain.dstIdx (U main_arg1))
        (mulf (F := Ideal) (φ := .f32)
          (broadcastInDim S1650000x128 ![0, 1] bcast_S1650000x1_S1650000x128_0_1 (eCol (Cert.Chain.nrm (U main_arg1) (U main_arg2))))
          (Host.gather gather_S50000x128_S1650000x1_S1650000x128_1_0_n_n_0_1_1128 (U main_arg0 : FVec Ideal S50000x128 .f32)
            (Cert.Chain.srcIdxN (U main_arg1)))) := by
  refine (C_v46 _).trans ?_
  have h33 : (StableHlo.after (hostOps0_2 (F := Ideal)) (StableHlo.after (hostOps0_1 (F := Ideal)) (StableHlo.after (hostOps0 (F := Ideal)) U)) main_v33 : FVec Ideal S1650000 .f32)
      = Cert.Chain.nrm (U main_arg1) (U main_arg2) := hv_v33 U
  rw [h33, B_v6, A_v6, B_v5, A_v5, B_arg0, A_arg0]
  rfl

/-- Region 0's aggregated operand, index by index: at node `d`, feature `k`, the sum over the edges landing on `d` of
    the edge's normalised weight times the feature of its source node. -/
theorem hv_v46 (d : Fin 50000) (k : Fin 128) :
    (U3 U main_v46 : FVec Ideal S50000x128 .f32) (ix2 d k)
      = Cert.Spec.aggS (edgesAt (Cert.Chain.dstIdx (U main_arg1)))
          (fun e => Cert.Chain.nrm (U main_arg1) (U main_arg2) (ix1 e))
          (srcOf (by decide : 0 < 50000) (Cert.Chain.srcIdxN (U main_arg1)))
          (fun n j => (U main_arg0 : FVec Ideal S50000x128 .f32) (ix2 n j)) d k := by
  rw [U3_v46]
  refine (scatterAdd_rows2_apply (N := 50000) (E := 1650000) (D := 128) (w := 32)
    scatter_S50000x128_S1650000x1_S1650000x128_1_0_0_1 rfl rfl rfl rfl _ _ _ d k).trans ?_
  unfold Cert.Spec.aggS
  rw [broadcastInDim_scalar_apply, constant_apply, Ideal.ofBits_zero_f32, zero_add]
  refine Finset.sum_congr rfl fun e _ => ?_
  rw [mulf_apply, wide_apply, eCol_apply,
    gather_rows2_apply (by decide : 0 < 50000) gather_S50000x128_S1650000x1_S1650000x128_1_0_n_n_0_1_1128 rfl rfl rfl rfl rfl rfl rfl]

/-! ## The fourth stretch: region 1's entry -/

variable (U' : Vals)

set_option maxHeartbeats 4000000 in
theorem D_v61 : (StableHlo.after (hostOps1 (F := Ideal)) U' main_v61 : FVec Ideal S50000x64 .f32)
    = Host.scatterAdd (F := Ideal) scatter_S50000x64_S1650000x1_S1650000x64_1_0_0_1
        (broadcastInDim S50000x64 ![] bcast_S_S50000x64 (constant (F := Ideal) S_ .f32 0x00000000#32))
        (eIdx (U' main_v6))
        (mulf (F := Ideal) (φ := .f32)
          (broadcastInDim S1650000x64 ![0, 1] bcast_S1650000x1_S1650000x64_0_1 (eCol (U' main_v33)))
          (Host.gather gather_S50000x64_S1650000x1_S1650000x64_1_0_n_n_0_1_164 (U' main_v48 : FVec Ideal S50000x64 .f32)
            (eIdx (Cert.Chain.wrapped (U' main_v5))))) := by
  dsimp only [hostOps1]; after_results_simp <;> rfl

set_option maxHeartbeats 4000000 in
theorem D_v62 : (StableHlo.after (hostOps1 (F := Ideal)) U' main_v62 : FVec Ideal S1x64 .f32)
    = fun i => shapeCast S1x64 (U' main_arg7 : FVec Ideal S64 .f32) shapeCasts_S64_S1x64 i := by
  dsimp only [hostOps1]; after_results_simp <;> rfl

/-- Region 1's aggregated operand, index by index: the same sum over the edges landing on `d`, of the normalised weight
    held in the weights' buffer times the row region 0 left at the edge's source. -/
theorem hv_v61 (d : Fin 50000) (k : Fin 64) :
    (StableHlo.after (hostOps1 (F := Ideal)) U' main_v61 : FVec Ideal S50000x64 .f32) (ix2 d k)
      = Cert.Spec.aggS (edgesAt (eIdx (U' main_v6)))
          (fun e => (U' main_v33 : FVec Ideal S1650000 .f32) (ix1 e))
          (srcOf (by decide : 0 < 50000) (eIdx (Cert.Chain.wrapped (U' main_v5))))
          (fun n j => (U' main_v48 : FVec Ideal S50000x64 .f32) (ix2 n j)) d k := by
  rw [D_v61]
  refine (scatterAdd_rows2_apply (N := 50000) (E := 1650000) (D := 64) (w := 32)
    scatter_S50000x64_S1650000x1_S1650000x64_1_0_0_1 rfl rfl rfl rfl _ _ _ d k).trans ?_
  unfold Cert.Spec.aggS
  rw [broadcastInDim_scalar_apply, constant_apply, Ideal.ofBits_zero_f32, zero_add]
  refine Finset.sum_congr rfl fun e _ => ?_
  rw [mulf_apply, wide_apply, eCol_apply,
    gather_rows2_apply (by decide : 0 < 50000) gather_S50000x64_S1650000x1_S1650000x64_1_0_n_n_0_1_164 rfl rfl rfl rfl rfl rfl rfl]

/-- The bias row of the second layer as a one-row matrix. -/
theorem hv_v62 (q : Fin 64) :
    (StableHlo.after (hostOps1 (F := Ideal)) U' main_v62 : FVec Ideal S1x64 .f32) (ix2 0 q) = (U' main_arg7 : FVec Ideal S64 .f32) (ix1 q) := by
  refine (congrFun (D_v62 _) (ix2 0 q)).trans ?_
  exact row_apply shapeCasts_S64_S1x64 _ q

/-! ## The fifth stretch: region 2's entry -/

variable (U'' : Vals)

/-- The graph numbers as a column. -/
theorem hv_v64 (i : Fin 50000) :
    (StableHlo.after (hostOps2 (F := Ideal)) U'' main_v64 : IVec S50000x1 32) (ix2 i 0) = (U'' main_arg3 : IVec S50000 32) (ix1 i) := by
  have h : (StableHlo.after (hostOps2 (F := Ideal)) U'' main_v64 : IVec S50000x1 32)
      = fun i => shapeCast S50000x1 (U'' main_arg3 : IVec S50000 32) shapeCasts_S50000_S50000x1 i := by
    dsimp only [hostOps2]; after_results_simp <;> rfl
  refine (congrFun h (ix2 i 0)).trans ?_
  exact colCast_apply shapeCasts_S50000_S50000x1 _ i

/-- The last bias as a one-by-one matrix. -/
theorem hv_v65 :
    (StableHlo.after (hostOps2 (F := Ideal)) U'' main_v65 : FVec Ideal S1x1 .f32) (ix2 0 0) = (U'' main_arg9 : FVec Ideal S1 .f32) (ix1 0) := by
  have h : (StableHlo.after (hostOps2 (F := Ideal)) U'' main_v65 : FVec Ideal S1x1 .f32)
      = fun i => shapeCast S1x1 (U'' main_arg9 : FVec Ideal S1 .f32) shapeCasts_S1_S1x1 i := by
    dsimp only [hostOps2]; after_results_simp <;> rfl
  refine (congrFun h (ix2 0 0)).trans ?_
  exact row_apply shapeCasts_S1_S1x1 _ 0

end Cert.KernelIdeal.HandV

end
-- ==== Proof.KI.Bridge.lean ====
/-
  THE KERNEL PROGRAM'S RESULT AS THE NETWORK OF `SpecGCN.lean`, IN THE KERNEL PROGRAM'S ORDER.

  The run of the kernel program leaves, at its last boundary, the output array at what the pooling region's pipeline
  leaves there. Read backwards through the boundaries:
  the pooling region's output at graph g is the head of the mean, over the nodes whose graph id is g, of the rows of the
  array it reads, with the head's weights and bias; that array is what the second dense region left, row d of the
  aggregated first-layer output times the second weight matrix plus the second bias; the aggregated array is, by the host
  operations between the two dense regions, the sum over the edges landing on d of the edge's normalised weight times the
  row at the edge's source of what the first dense region left; and that is the same dense step, clipped below at zero, of
  the node features aggregated along the same edges with the same weights.
  The edges' weights, targets and sources are computed once, before the first region, from the edge list and the edge
  weights; no region and no later host operation writes them, so the second aggregation reads what the first did. The
  arguments are written by nothing, so wherever one is read it holds its launch contents. The graph ids reach the pooling
  region as a column holding id i at (i, 0); the row a scatter index names depends only on those entries, so the nodes of
  each graph may be read off any index array with the same entries, in particular the broadcast the reference builds.
  Composed, the output at (g, 0) is `Cert.Spec.outK` of: the edges landing on each node, the edges' weights, the edges'
  sources, the nodes of each graph, and the argument arrays read as functions of their coordinates. Nothing here is
  algebra: every step reads one boundary's contents off the one before.
-/
import proofs.«428672_j24747601559656_4_alg».proof.Proof.KI.Run
import proofs.«428672_j24747601559656_4_alg».proof.Proof.KI.Val0
import proofs.«428672_j24747601559656_4_alg».proof.Proof.KI.Val1
import proofs.«428672_j24747601559656_4_alg».proof.Proof.KI.Val2
import proofs.«428672_j24747601559656_4_alg».proof.Proof.KI.HostVal
import proofs.«428672_j24747601559656_4_alg».proof.Proof.Chain
import proofs.«428672_j24747601559656_4_alg».proof.Proof.SpecGCN
import proofs.«428672_j24747601559656_4_alg».proof.Proof.LibRows
import proofs.«428672_j24747601559656_4_alg».proof.Proof.Gen.ReferenceIdeal
import Idealize.ShloMosaic.PureOps.Ideal
import Idealize.ShloMosaic.Lib.ValueIdx
import Idealize.ShloMosaic.Lib.Pipeline.Value

set_option maxRecDepth 16384

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Idealize.ShloMosaic.Pipeline (Dat)

/-- The edges whose index names node d. -/
abbrev brS (I : IVec S1650000x1 32) (d : Fin 50000) : Finset (Fin 1650000) :=
  Finset.univ.filter fun e : Fin 1650000 => LibRows.rowOf (N := 50000) I e = some d
/-- A list of node numbers as one index vector of length one per edge. -/
abbrev brI (v : IVec S1650000 32) : IVec S1650000x1 32 := broadcastInDim S1650000x1 ![0] bcast_S1650000_S1650000x1_0 v

/-! ## The scatter row depends only on the index values -/

/-- Two index arrays with the same entries name the same rows. -/
theorem rowOf_congr {N E w : Nat} (I J : IVec ⟨2, ![E, 1]⟩ w) (h : ∀ e : Fin E, I (ix2 e 0) = J (ix2 e 0)) (e : Fin E) :
    LibRows.rowOf (N := N) I e = LibRows.rowOf (N := N) J e := by
  apply Option.ext
  intro r
  rw [LibRows.rowOf_eq_some_iff, LibRows.rowOf_eq_some_iff, h e]

section Bridge
variable (m : (ℓ : Loc nD τ sig) → Buf (Elt Ideal) ℓ) (c : Dev nD)

/-! ## The arguments as launched, and the network's data read off them -/

abbrev arg0 : Vec Ideal S50000x128 .f32 := m ((c.tc : Thread nD τ).loc main_arg0)
abbrev arg1 : IVec S2x1600000 32 := m ((c.tc : Thread nD τ).loc main_arg1)
abbrev arg2 : Vec Ideal S1600000 .f32 := m ((c.tc : Thread nD τ).loc main_arg2)
abbrev arg3 : IVec S50000 32 := m ((c.tc : Thread nD τ).loc main_arg3)
abbrev arg4 : Vec Ideal S128x64 .f32 := m ((c.tc : Thread nD τ).loc main_arg4)
abbrev arg5 : Vec Ideal S64 .f32 := m ((c.tc : Thread nD τ).loc main_arg5)
abbrev arg6 : Vec Ideal S64x64 .f32 := m ((c.tc : Thread nD τ).loc main_arg6)
abbrev arg7 : Vec Ideal S64 .f32 := m ((c.tc : Thread nD τ).loc main_arg7)
abbrev arg8 : Vec Ideal S64x1 .f32 := m ((c.tc : Thread nD τ).loc main_arg8)
abbrev arg9 : Vec Ideal S1 .f32 := m ((c.tc : Thread nD τ).loc main_arg9)

/-- The edges landing on each node. -/
abbrev edS : Fin 50000 → Finset (Fin 1650000) := fun d : Fin 50000 => Finset.univ.filter fun e : Fin 1650000 =>
  LibRows.rowOf (Cert.Chain.dstIdx (arg1 m c)) e = some d
/-- The edges' normalised weights. -/
abbrev edN : Fin 1650000 → EReal := fun e : Fin 1650000 => Cert.Chain.nrm (arg1 m c) (arg2 m c) (ix1 e)
/-- The edges' sources. -/
abbrev edSrc : Fin 1650000 → Fin 50000 := fun e : Fin 1650000 =>
  LibRows.srcOf (N := 50000) (by decide) (Cert.Chain.srcIdxN (arg1 m c)) e
abbrev xF : Fin 50000 → Fin 128 → EReal := fun n k => arg0 m c (ix2 n k)
abbrev w1F : Fin 128 → Fin 64 → EReal := fun (k : Fin 128) (q : Fin 64) => arg4 m c (ix2 k q)
abbrev b1F : Fin 64 → EReal := fun q => arg5 m c (ix1 q)
abbrev w2F : Fin 64 → Fin 64 → EReal := fun (k : Fin 64) (q : Fin 64) => arg6 m c (ix2 k q)
abbrev b2F : Fin 64 → EReal := fun q => arg7 m c (ix1 q)
abbrev wlF : Fin 64 → EReal := fun q => arg8 m c (ix2 q 0)
abbrev blF : EReal := arg9 m c (ix1 0)
/-- The first layer's output, clipped below at zero, and the second layer's. -/
abbrev h1F : Fin 50000 → Fin 64 → EReal := fun d q =>
  max (Cert.Spec.layerK (edS m c) (edN m c) (edSrc m c) (xF m c) (w1F m c) (b1F m c) d q) 0
abbrev h2F : Fin 50000 → Fin 64 → EReal :=
  Cert.Spec.layerK (edS m c) (edN m c) (edSrc m c) (h1F m c) (w2F m c) (b2F m c)

/-! ## A reference nothing has written yet holds its launch contents -/

theorem W4_launch (r : Ref sig .tc) (h0 : r ∉ hostOps0_W) (h1 : r ∉ hostOps0_1_W) (h2 : r ∉ hostOps0_2_W)
    (h3 : ∀ w, Pipeline.arrRef spec0 w ≠ r) : W4 m c (Proc.devRef .tc r) = m ((c : Thread nD τ).loc r) :=
  (W4_of_ne m c r h3).trans (W3_launch m c r h0 h1 h2)
theorem W5_launch (r : Ref sig .tc) (h0 : r ∉ hostOps0_W) (h1 : r ∉ hostOps0_1_W) (h2 : r ∉ hostOps0_2_W)
    (h3 : ∀ w, Pipeline.arrRef spec0 w ≠ r) (h4 : r ∉ hostOps1_W) : W5 m c (Proc.devRef .tc r) = m ((c : Thread nD τ).loc r) :=
  (W5_of m c r h4).trans (W4_launch m c r h0 h1 h2 h3)
theorem W6_launch (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) :
    W6 m c (Proc.devRef .tc r) = m ((c : Thread nD τ).loc r) :=
  (W6_of_ne m c r h5).trans (W5_launch m c r h0 h1 h2 h3 h4)
theorem W7_launch (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r)
    (h6 : r ∉ hostOps2_W) : W7 m c (Proc.devRef .tc r) = m ((c : Thread nD τ).loc r) :=
  (W7_of m c r h6).trans (W6_launch m c r h0 h1 h2 h3 h4 h5)

/-! ## The edge data at region 0's entry and exit -/

theorem W3_v33 : W3 m c main_v33 = Cert.Chain.nrm (arg1 m c) (arg2 m c) := hv_v33 (W0 m c)
theorem W3_v5 : W3 m c main_v5 = Cert.Chain.src (arg1 m c) := hv_v5 (W0 m c)
theorem W3_v6 : W3 m c main_v6 = Cert.Chain.dst (arg1 m c) := hv_v6 (W0 m c)
theorem W4_v33 : W4 m c main_v33 = Cert.Chain.nrm (arg1 m c) (arg2 m c) :=
  (W4_of_ne m c main_v33 (by decide)).trans (W3_v33 m c)
theorem W4_v5 : W4 m c main_v5 = Cert.Chain.src (arg1 m c) := (W4_of_ne m c main_v5 (by decide)).trans (W3_v5 m c)
theorem W4_v6 : W4 m c main_v6 = Cert.Chain.dst (arg1 m c) := (W4_of_ne m c main_v6 (by decide)).trans (W3_v6 m c)

/-- The index arrays the second aggregation builds again from the node lists are the first one's. -/
theorem brI_dst (a : IVec S2x1600000 32) : brI (Cert.Chain.dst a) = Cert.Chain.dstIdx a := rfl
theorem brI_src (a : IVec S2x1600000 32) : brI (Cert.Chain.wrapped (Cert.Chain.src a)) = Cert.Chain.srcIdxN a := rfl

/-! ## The first layer -/

/-- The aggregated features region 0 reads. -/
theorem W3_v46 (d : Fin 50000) (k : Fin 128) :
    W3 m c main_v46 (ix2 d k) = Cert.Spec.aggS (edS m c) (edN m c) (edSrc m c) (xF m c) d k := hv_v46 (W0 m c) d k
/-- The bias row region 0 reads. -/
theorem W3_v47 (q : Fin 64) : W3 m c main_v47 (ix2 0 q) = b1F m c q := hv_v47 (W0 m c) q
/-- The weights region 0 reads. -/
theorem W3_arg4 : W3 m c main_arg4 = arg4 m c := W3_launch m c main_arg4 (by decide) (by decide) (by decide)

/-- Region 0 leaves the first layer's clipped output. -/
theorem W4_v48 (d : Fin 50000) (q : Fin 64) : W4 m c main_v48 (ix2 d q) = h1F m c d q := by
  rw [W4_main_v48, val0]
  show dense0 (W3 m c main_v46) (W3 m c main_arg4) (W3 m c main_v47) d q = _
  show max ((∑ k : Fin 128, agg0 (V3r m) c (ix2 d k) * wgt0 (V3r m) c (ix2 k q)) + bias0 (V3r m) c (ix2 (0 : Fin 1) q)) 0
    = max ((∑ k : Fin 128, Cert.Spec.aggS (edS m c) (edN m c) (edSrc m c) (xF m c) d k * w1F m c k q) + b1F m c q) 0
  exact congrArg₂ max (congrArg₂ (· + ·) (Finset.sum_congr rfl fun k _ =>
    congrArg₂ (· * ·) (W3_v46 m c d k) (congrFun (W3_arg4 m c) (ix2 k q))) (W3_v47 m c q)) rfl

/-! ## The second layer -/

/-- The aggregated features region 1 reads. -/
theorem W5_v61 (d : Fin 50000) (k : Fin 64) :
    W5 m c main_v61 (ix2 d k) = Cert.Spec.aggS (edS m c) (edN m c) (edSrc m c) (h1F m c) d k := by
  refine (hv_v61 (W4 m c) d k).trans ?_
  show Cert.Spec.aggS (brS (brI (W4 m c main_v6))) (fun e => W4 m c main_v33 (ix1 e))
      (LibRows.srcOf (by decide : 0 < 50000) (brI (Cert.Chain.wrapped (W4 m c main_v5)))) (fun n j => W4 m c main_v48 (ix2 n j)) d k = _
  rw [W4_v6, W4_v5, W4_v33, brI_dst, brI_src,
    show (fun n j => W4 m c main_v48 (ix2 n j)) = h1F m c from funext fun n => funext fun j => W4_v48 m c n j]
/-- The bias row region 1 reads. -/
theorem W5_v62 (q : Fin 64) : W5 m c main_v62 (ix2 0 q) = b2F m c q :=
  (hv_v62 (W4 m c) q).trans (congrFun (W4_launch m c main_arg7 (by decide) (by decide) (by decide) (by decide)) (ix1 q))
/-- The weights region 1 reads. -/
theorem W5_arg6 : W5 m c main_arg6 = arg6 m c :=
  W5_launch m c main_arg6 (by decide) (by decide) (by decide) (by decide) (by decide)

/-- Region 1 leaves the second layer's output. -/
theorem W6_v63 (d : Fin 50000) (q : Fin 64) : W6 m c main_v63 (ix2 d q) = h2F m c d q := by
  rw [W6_main_v63, val1]
  show dense1 (W5 m c main_v61) (W5 m c main_arg6) (W5 m c main_v62) d q = _
  show (∑ k : Fin 64, agg1 (V5r m) c (ix2 d k) * wgt1 (V5r m) c (ix2 k q)) + bias1 (V5r m) c (ix2 (0 : Fin 1) q)
    = (∑ k : Fin 64, Cert.Spec.aggS (edS m c) (edN m c) (edSrc m c) (h1F m c) d k * w2F m c k q) + b2F m c q
  exact congrArg₂ (· + ·) (Finset.sum_congr rfl fun k _ =>
    congrArg₂ (· * ·) (W5_v61 m c d k) (congrFun (W5_arg6 m c) (ix2 k q))) (W5_v62 m c q)

/-! ## What the pooling region reads -/

theorem W7_v63 (d : Fin 50000) (q : Fin 64) : W7 m c main_v63 (ix2 d q) = h2F m c d q :=
  (congrFun (W7_of m c main_v63 (by decide)) (ix2 d q)).trans (W6_v63 m c d q)
theorem W7_arg8 : W7 m c main_arg8 = arg8 m c :=
  W7_launch m c main_arg8 (by decide) (by decide) (by decide) (by decide) (by decide) (by decide) (by decide)
theorem W7_v65 : W7 m c main_v65 (ix2 0 0) = blF m c :=
  (hv_v65 (W6 m c)).trans (congrFun (W6_launch m c main_arg9 (by decide) (by decide) (by decide) (by decide) (by decide) (by decide)) (ix1 0))
theorem W7_v64 (i : Fin 50000) : W7 m c main_v64 (ix2 i 0) = arg3 m c (ix1 i) :=
  (hv_v64 (W6 m c) i).trans (congrFun (W6_launch m c main_arg3 (by decide) (by decide) (by decide) (by decide) (by decide) (by decide)) (ix1 i))

/-! ## The result -/

/-- THE KERNEL PROGRAM'S RESULT AT GRAPH g is the network, features aggregated first, of the launch contents of its
    arguments; the graphs' nodes may be read off any index array holding the graph ids. -/
theorem kernel_value (gid : IVec S50000x1 32) (hg : ∀ i : Fin 50000, gid (ix2 i 0) = arg3 m c (ix1 i)) (g : Fin 512) :
    ((dat2 (F := Ideal) (V7r m) c).arrAt 4 cfg2.N : Vec Ideal S512x1 .f32) (ix2 g 0)
      = Cert.Spec.outK (edS m c) (edN m c) (edSrc m c)
          (fun g : Fin 512 => Finset.univ.filter fun i : Fin 50000 => LibRows.rowOf gid i = some g)
          (xF m c) (w1F m c) (b1F m c) (w2F m c) (b2F m c) (wlF m c) (blF m c) g := by
  refine (val2 (V7r m) c g).trans ?_
  unfold Cert.Spec.outK
  have hB : graphNodes (V7r m) c = fun g : Fin 512 => Finset.univ.filter fun i : Fin 50000 => LibRows.rowOf gid i = some g :=
    funext fun g => Finset.filter_congr fun i _ => by
      rw [rowOf_congr (idArr (V7r m) c) gid (fun e => (W7_v64 m c e).trans (hg e).symm) i]
  have hh : (fun i q => featArr (V7r m) c (ix2 i q)) = h2F m c := funext fun i => funext fun q => W7_v63 m c i q
  have hw : (fun q => wArr (V7r m) c (ix2 q 0)) = wlF m c := funext fun q => congrFun (W7_arg8 m c) (ix2 q 0)
  have hb : bArr (V7r m) c (ix2 0 0) = blF m c := W7_v65 m c
  rw [hB, hh, hw, hb]

end Bridge

/-! ## The run -/

/-- The reference's graph-id index array, the ids broadcast along a new last axis, holds id i at (i, 0). -/
theorem refGid_apply (a : IVec S50000 32) (i : Fin 50000) :
    broadcastInDim Cert.ReferenceIdeal.S50000x1 ![0] Cert.ReferenceIdeal.Facts₀.bcast_S50000_S50000x1_0 a (ix2 i 0) = a (ix1 i) :=
  broadcastInDim_apply _ Cert.ReferenceIdeal.Facts₀.bcast_S50000_S50000x1_0 a (ix2 i 0) (ix1 i) (fun x => match x with
    | ⟨0, _⟩ => by show i.val = if (50000 : Nat) = 1 then 0 else i.val; rw [if_neg (by decide)])

open Idealize.ShloMosaic.LibRows Idealize.ShloMosaic.ValueIdx in
/-- EVERY WEAKLY FAIR EXECUTION OF THE KERNEL PROGRAM TERMINATES WITH ITS RESULT THE NETWORK'S OUTPUT, each layer's
    features aggregated before the weights are applied, of the launch contents of its arguments, and the arguments
    unchanged: the run's last boundary read at the output array and at the ten argument arrays. -/
theorem kernel_run [Cert.KernelIdeal.Facts] [Cert.ReferenceIdeal.Facts] (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v66) = (fun i : Cert.KernelIdeal.S512x1.Idx => Cert.Spec.outK (fun d : Fin 50000 => Finset.univ.filter fun e : Fin 1650000 => rowOf (Cert.Chain.dstIdx (m ((c.tc : Thread Cert.KernelIdeal.nD Cert.KernelIdeal.τ).loc Cert.KernelIdeal.main_arg1))) e = some d) (fun e => Cert.Chain.nrm (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (ix1 e)) (fun e => srcOf (N := 50000) (by decide) (Cert.Chain.srcIdxN (m ((c.tc : Thread Cert.KernelIdeal.nD Cert.KernelIdeal.τ).loc Cert.KernelIdeal.main_arg1))) e) (fun g : Fin 512 => Finset.univ.filter fun i : Fin 50000 => rowOf (broadcastInDim Cert.ReferenceIdeal.S50000x1 ![0] Cert.ReferenceIdeal.Facts₀.bcast_S50000_S50000x1_0 (m ((c.tc : Thread Cert.KernelIdeal.nD Cert.KernelIdeal.τ).loc Cert.KernelIdeal.main_arg3))) i = some g) (fun n k => (m ((c.tc : Thread Cert.KernelIdeal.nD Cert.KernelIdeal.τ).loc Cert.KernelIdeal.main_arg0)) (ix2 n k)) (fun k q => (m ((c.tc : Thread Cert.KernelIdeal.nD Cert.KernelIdeal.τ).loc Cert.KernelIdeal.main_arg4)) (ix2 k q)) (fun q => (m ((c.tc : Thread Cert.KernelIdeal.nD Cert.KernelIdeal.τ).loc Cert.KernelIdeal.main_arg5)) (ix1 q)) (fun k q => (m ((c.tc : Thread Cert.KernelIdeal.nD Cert.KernelIdeal.τ).loc Cert.KernelIdeal.main_arg6)) (ix2 k q)) (fun q => (m ((c.tc : Thread Cert.KernelIdeal.nD Cert.KernelIdeal.τ).loc Cert.KernelIdeal.main_arg7)) (ix1 q)) (fun q => (m ((c.tc : Thread Cert.KernelIdeal.nD Cert.KernelIdeal.τ).loc Cert.KernelIdeal.main_arg8)) (ix2 q 0)) ((m ((c.tc : Thread Cert.KernelIdeal.nD Cert.KernelIdeal.τ).loc Cert.KernelIdeal.main_arg9)) (ix1 0)) (i 0))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run _ _ _).mono (fun r h c =>
    ⟨(h c _ (mem_uc main_v66 (by decide))).trans ((W8_main_v66 m c).trans (funext fun i => by
        obtain ⟨g, z, rfl⟩ : ∃ (g : Fin 512) (z : Fin 1), i = ix2 g z := ⟨i 0, i 1, eq_ix2 i⟩
        obtain rfl : z = 0 := Subsingleton.elim _ _
        exact kernel_value m c _ (fun i => refGid_apply (arg3 m c) i) g)),
     (h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c),
     (h c _ (mem_uc main_arg9 (by decide))).trans (W8_main_arg9 m c)⟩) (run_all m ρ)

end Cert.KernelIdeal.HandV
end
-- ==== Proof.lean ====
/-
  The certificate's claims assembled.

  The three frames: the kernel program, read word by word and read over the extended reals, runs through its five
  stretches of host operations and three kernel regions (two dense steps over 250 row blocks each, then the pooling
  step, whose two accumulators live across its 250 grid points) to the end without a fault and leaves its ten argument
  arrays as they were; the reference is a straight line of host operations.
  The value claim: over the extended reals both programs compute, from real inputs, the same network — two graph
  convolutions, a mean over each graph's nodes, a linear head. They differ only in the order of aggregation and weight
  multiplication inside each convolution, `(A h) W` against `A (h W)`; the two are equal because every number involved
  is a real (the inputs by the precondition, the edge normalisation because a degree is a finite sum of reals and the
  reciprocal square root is taken of a real that is at least a positive constant), so that the finite sums may be
  exchanged and the factors moved across them.
-/
import proofs.«428672_j24747601559656_4_alg».proof.Defs
import proofs.«428672_j24747601559656_4_alg».proof.Proof.Gen.Kernel
import proofs.«428672_j24747601559656_4_alg».proof.Proof.Gen.KernelIdeal
import proofs.«428672_j24747601559656_4_alg».proof.Proof.Gen.ReferenceIdeal
import proofs.«428672_j24747601559656_4_alg».proof.Proof.Gen.Pre_finite_inputs
import proofs.«428672_j24747601559656_4_alg».proof.Proof.K.Run
import proofs.«428672_j24747601559656_4_alg».proof.Proof.KI.Run
import proofs.«428672_j24747601559656_4_alg».proof.Proof.Ref
import proofs.«428672_j24747601559656_4_alg».proof.Proof.RefChain
import proofs.«428672_j24747601559656_4_alg».proof.Proof.ChainReal
import proofs.«428672_j24747601559656_4_alg».proof.Proof.FinIn
import proofs.«428672_j24747601559656_4_alg».proof.Proof.SpecGCN
import proofs.«428672_j24747601559656_4_alg».proof.Proof.LibRows
import proofs.«428672_j24747601559656_4_alg».proof.Proof.KI.Bridge

noncomputable section

namespace Cert.Proof

open Idealize.ShloMosaic Idealize.SL.Sem

theorem frame_k [Cert.Kernel.Facts] [Cert.Pre_finite_inputs.Facts] : Cert.frame_Kernel :=
  fun m ρ _ => Cert.Kernel.Hand.frame m ρ

theorem frame_ki [Cert.KernelIdeal.Facts] [Cert.Pre_finite_inputs.Facts] : Cert.frame_KernelIdeal :=
  fun m ρ _ => Cert.KernelIdeal.Hand.frame m ρ

theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

open Idealize.ShloMosaic.LibRows Idealize.ShloMosaic.ValueIdx in
/-- Both programs, run over the extended reals from memories that agree on the ten arguments, end with the same
    512 values: the kernel program's result is the network with each layer's features aggregated before the weights are
    applied, the reference's the network with the weights applied first, and on real inputs the two are one function. -/
theorem algebraic [hKI : Cert.KernelIdeal.Facts] [hRI : Cert.ReferenceIdeal.Facts] [hP : Cert.Pre_finite_inputs.Facts] :
    Cert.algebraic_KernelIdeal_ReferenceIdeal := by
  intro m ρ m' ρ' hpre hagree
  refine ⟨fun c => fun i : Cert.KernelIdeal.S512x1.Idx => Cert.Spec.outK (fun d : Fin 50000 => Finset.univ.filter fun e : Fin 1650000 => rowOf (Cert.Chain.dstIdx (m ((c.tc : Thread Cert.KernelIdeal.nD Cert.KernelIdeal.τ).loc Cert.KernelIdeal.main_arg1))) e = some d) (fun e => Cert.Chain.nrm (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (ix1 e)) (fun e => srcOf (N := 50000) (by decide) (Cert.Chain.srcIdxN (m ((c.tc : Thread Cert.KernelIdeal.nD Cert.KernelIdeal.τ).loc Cert.KernelIdeal.main_arg1))) e) (fun g : Fin 512 => Finset.univ.filter fun i : Fin 50000 => rowOf (broadcastInDim Cert.ReferenceIdeal.S50000x1 ![0] Cert.ReferenceIdeal.Facts₀.bcast_S50000_S50000x1_0 (m ((c.tc : Thread Cert.KernelIdeal.nD Cert.KernelIdeal.τ).loc Cert.KernelIdeal.main_arg3))) i = some g) (fun n k => (m ((c.tc : Thread Cert.KernelIdeal.nD Cert.KernelIdeal.τ).loc Cert.KernelIdeal.main_arg0)) (ix2 n k)) (fun k q => (m ((c.tc : Thread Cert.KernelIdeal.nD Cert.KernelIdeal.τ).loc Cert.KernelIdeal.main_arg4)) (ix2 k q)) (fun q => (m ((c.tc : Thread Cert.KernelIdeal.nD Cert.KernelIdeal.τ).loc Cert.KernelIdeal.main_arg5)) (ix1 q)) (fun k q => (m ((c.tc : Thread Cert.KernelIdeal.nD Cert.KernelIdeal.τ).loc Cert.KernelIdeal.main_arg6)) (ix2 k q)) (fun q => (m ((c.tc : Thread Cert.KernelIdeal.nD Cert.KernelIdeal.τ).loc Cert.KernelIdeal.main_arg7)) (ix1 q)) (fun q => (m ((c.tc : Thread Cert.KernelIdeal.nD Cert.KernelIdeal.τ).loc Cert.KernelIdeal.main_arg8)) (ix2 q 0)) ((m ((c.tc : Thread Cert.KernelIdeal.nD Cert.KernelIdeal.τ).loc Cert.KernelIdeal.main_arg9)) (ix1 0)) (i 0),
    Cert.KernelIdeal.HandV.kernel_run m ρ, ?_⟩
  refine (θ_run Cert.ReferenceIdeal.defs _ _).mono (fun _ h c => ⟨(h c).1.trans ?_, (h c).2⟩) (Cert.RefV.ref_run_chain m' ρ')
  obtain ⟨h0, h1, h2, h3, h4, h5, h6, h7, h8, h9⟩ := hagree c
  rw [h0, h1, h2, h3, h4, h5, h6, h7, h8, h9]
  obtain ⟨r0, r2, r4, r5, r6, _, _, _⟩ := Cert.FinIn.real_of_pre _ _ _ _ _ _ _ _ _ _ (hpre c)
  funext i
  exact (congrFun (Cert.Spec.outK_eq_outR _ _ _ _ _ _ _ _ _ _ _
    (fun e => Cert.Chain.nrm_real _ _ r2 _) (fun n k => r0 _) (fun k q => r4 _) (fun q => r5 _) (fun k q => r6 _)) (i 0)).symm

/-- Everything the certificate claims, with the witnesses of the programs' stated side conditions. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
